-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096 : Shape := ⟨1, ![4096]⟩
abbrev S8192x64 : Shape := ⟨2, ![8192, 64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg1 : IVec S4096 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .slt main_arg1 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  main_v20

def fn {F : FTy → Type} [FloatOps F] (main_arg0 : FVec F S4096x64 .f32) (main_arg1 : IVec S4096 32) (main_arg2 : FVec F S8192x64 .f32) (main_arg3 : FVec F S8192x64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S8192x64 .f32 := Host.absf main_arg2
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x64 .f32 := Host.absf main_arg3
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg1 main_v14
  let main_c_5 : IVec S_ 32 := constantI S_ 32 8192#32
  fn_part1 (F := F) main_arg1 main_v13 main_v15 main_c_5
-- ==== Kernel.lean ====
abbrev S4096x64 : Shape := ⟨2, ![4096, 64]⟩
abbrev S4096 : Shape := ⟨1, ![4096]⟩
abbrev S8192x64 : Shape := ⟨2, ![8192, 64]⟩
abbrev S_ : Shape := ⟨0, ![]⟩
abbrev S8192 : Shape := ⟨1, ![8192]⟩
abbrev S1x8192 : Shape := ⟨2, ![1, 8192]⟩
abbrev S8192x128 : Shape := ⟨2, ![8192, 128]⟩
abbrev S4096x128 : Shape := ⟨2, ![4096, 128]⟩
abbrev S4096x1 : Shape := ⟨2, ![4096, 1]⟩
abbrev S1024x128 : Shape := ⟨2, ![1024, 128]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 137
  | .vmem => 19
  | .smem => 0
  | _ => 0

abbrev hbmTy0_0 (i : Nat) : BufTy := match i % 128 with
  | 0 => ⟨S4096x64, .f32⟩
  | 1 => ⟨S4096, .i32⟩
  | 2 => ⟨S8192x64, .f32⟩
  | 3 => ⟨S8192x64, .f32⟩
  | 4 => ⟨S8192x64, .f32⟩
  | 5 => ⟨S8192x64, .f32⟩
  | 6 => ⟨S8192x64, .f32⟩
  | 7 => ⟨S8192x64, .f32⟩
  | 8 => ⟨S8192x64, .f32⟩
  | 9 => ⟨S8192x64, .f32⟩
  | 10 => ⟨S_, .f32⟩
  | 11 => ⟨S8192, .f32⟩
  | 12 => ⟨S_, .f32⟩
  | 13 => ⟨S8192x64, .f32⟩
  | 14 => ⟨S8192x64, .f32⟩
  | 15 => ⟨S_, .f32⟩
  | 16 => ⟨S8192, .f32⟩
  | 17 => ⟨S8192, .f32⟩
  | 18 => ⟨S_, .f32⟩
  | 19 => ⟨S8192, .f32⟩
  | 20 => ⟨S8192, .f32⟩
  | 21 => ⟨S1x8192, .f32⟩
  | 22 => ⟨S_, .f32⟩
  | 23 => ⟨S8192x64, .f32⟩
  | 24 => ⟨S8192x64, .f32⟩
  | 25 => ⟨S_, .f32⟩
  | 26 => ⟨S8192x64, .f32⟩
  | 27 => ⟨S8192x64, .f32⟩
  | 28 => ⟨S8192x128, .f32⟩
  | 29 => ⟨S8192x128, .bf16⟩
  | 30 => ⟨S4096x64, .f32⟩
  | 31 => ⟨S4096x128, .f32⟩
  | 32 => ⟨S4096x128, .bf16⟩
  | 33 => ⟨S_, .f32⟩
  | 34 => ⟨S4096, .f32⟩
  | 35 => ⟨S_, .f32⟩
  | 36 => ⟨S4096, .f32⟩
  | 37 => ⟨S4096, .f32⟩
  | 38 => ⟨S4096x1, .f32⟩
  | 39 => ⟨S4096x1, .i32⟩
  | 40 => ⟨S1x8192, .f32⟩
  | 41 => ⟨S1x8192, .f32⟩
  | 42 => ⟨S1x8192, .f32⟩
  | 43 => ⟨S_, .f32⟩
  | 44 => ⟨S_, .f32⟩
  | 45 => ⟨S1x8192, .f32⟩
  | 46 => ⟨S1x8192, .f32⟩
  | 47 => ⟨S1x8192, .f32⟩
  | 48 => ⟨S1x8192, .f32⟩
  | 49 => ⟨S8192, .f32⟩
  | 50 => ⟨S_, .i32⟩
  | 51 => ⟨S4096, .i32⟩
  | 52 => ⟨S4096, .i1⟩
  | 53 => ⟨S_, .i32⟩
  | 54 => ⟨S4096, .i32⟩
  | 55 => ⟨S4096, .i32⟩
  | 56 => ⟨S4096, .i32⟩
  | 57 => ⟨S4096x1, .i32⟩
  | 58 => ⟨S4096x64, .f32⟩
  | 59 => ⟨S_, .i32⟩
  | 60 => ⟨S4096, .i32⟩
  | 61 => ⟨S4096, .i1⟩
  | 62 => ⟨S_, .i32⟩
  | 63 => ⟨S4096, .i32⟩
  | 64 => ⟨S4096, .i32⟩
  | 65 => ⟨S4096, .i32⟩
  | 66 => ⟨S4096x1, .i32⟩
  | 67 => ⟨S4096x64, .f32⟩
  | 68 => ⟨S4096x64, .f32⟩
  | 69 => ⟨S4096x64, .f32⟩
  | 70 => ⟨S4096x64, .f32⟩
  | 71 => ⟨S4096x64, .f32⟩
  | 72 => ⟨S4096x64, .f32⟩
  | 73 => ⟨S_, .f32⟩
  | 74 => ⟨S4096, .f32⟩
  | 75 => ⟨S_, .f32⟩
  | 76 => ⟨S4096, .f32⟩
  | 77 => ⟨S4096, .f32⟩
  | 78 => ⟨S_, .f32⟩
  | 79 => ⟨S4096, .f32⟩
  | 80 => ⟨S4096, .f32⟩
  | 81 => ⟨S_, .f32⟩
  | 82 => ⟨S4096, .f32⟩
  | 83 => ⟨S4096, .f32⟩
  | 84 => ⟨S_, .f32⟩
  | 85 => ⟨S4096, .f32⟩
  | 86 => ⟨S4096, .f32⟩
  | 87 => ⟨S4096, .f32⟩
  | 88 => ⟨S4096, .f32⟩
  | 89 => ⟨S4096, .f32⟩
  | 90 => ⟨S_, .f32⟩
  | 91 => ⟨S8192, .f32⟩
  | 92 => ⟨S_, .i32⟩
  | 93 => ⟨S4096, .i32⟩
  | 94 => ⟨S4096, .i1⟩
  | 95 => ⟨S_, .i32⟩
  | 96 => ⟨S4096, .i32⟩
  | 97 => ⟨S4096, .i32⟩
  | 98 => ⟨S4096, .i32⟩
  | 99 => ⟨S4096x1, .i32⟩
  | 100 => ⟨S8192, .f32⟩
  | 101 => ⟨S_, .i32⟩
  | 102 => ⟨S8192, .i32⟩
  | 103 => ⟨S_, .i32⟩
  | 104 => ⟨S4096, .i32⟩
  | 105 => ⟨S4096, .i1⟩
  | 106 => ⟨S_, .i32⟩
  | 107 => ⟨S4096, .i32⟩
  | 108 => ⟨S4096, .i32⟩
  | 109 => ⟨S4096, .i32⟩
  | 110 => ⟨S4096x1, .i32⟩
  | 111 => ⟨S_, .i32⟩
  | 112 => ⟨S4096, .i32⟩
  | 113 => ⟨S8192, .i32⟩
  | 114 => ⟨S_, .i32⟩
  | 115 => ⟨S8192, .i32⟩
  | 116 => ⟨S8192, .i1⟩
  | 117 => ⟨S8192, .i32⟩
  | 118 => ⟨S_, .i32⟩
  | 119 => ⟨S_, .i32⟩
  | 120 => ⟨S_, .f32⟩
  | 121 => ⟨S8192, .f32⟩
  | 122 => ⟨S_, .f32⟩
  | 123 => ⟨S_, .f32⟩
  | 124 => ⟨S8192, .f32⟩
  | 125 => ⟨S_, .f32⟩
  | 126 => ⟨S_, .f32⟩
  | 127 => ⟨S_, .f32⟩
  | _ => ⟨S4096x64, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | _ => ⟨S4096x64, .f32⟩

abbrev hbmTy (i : Nat) : BufTy := match i / 128 with
  | 0 => hbmTy0_0 i
  | 1 => hbmTy0_1 i
  | _ => ⟨S4096x64, .f32⟩

abbrev bufTy : (tb : Table) → Fin (tcTables nBuf tb) → BufTy
  | .hbm, ⟨i, _⟩ => hbmTy i
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .i32⟩
  | .local _ .vmem, ⟨9, _⟩ => ⟨S1024x1, .i32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_cst_13 : Ref sig .tc := ⟨.hbm, 78, rfl⟩
abbrev main_v57 : Ref sig .tc := ⟨.hbm, 79, rfl⟩
abbrev main_v58 : Ref sig .tc := ⟨.hbm, 80, rfl⟩
abbrev main_cst_14 : Ref sig .tc := ⟨.hbm, 81, rfl⟩
abbrev main_v59 : Ref sig .tc := ⟨.hbm, 82, rfl⟩
abbrev main_v60 : Ref sig .tc := ⟨.hbm, 83, rfl⟩
abbrev main_cst_15 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_c_17 : Ref sig .tc := ⟨.hbm, 92, rfl⟩
abbrev main_v67 : Ref sig .tc := ⟨.hbm, 93, rfl⟩
abbrev main_v68 : Ref sig .tc := ⟨.hbm, 94, rfl⟩
abbrev main_c_18 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_19 : Ref sig .tc := ⟨.hbm, 101, rfl⟩
abbrev main_v74 : Ref sig .tc := ⟨.hbm, 102, rfl⟩
abbrev main_c_20 : Ref sig .tc := ⟨.hbm, 103, rfl⟩
abbrev main_v75 : Ref sig .tc := ⟨.hbm, 104, rfl⟩
abbrev main_v76 : Ref sig .tc := ⟨.hbm, 105, rfl⟩
abbrev main_c_21 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_22 : Ref sig .tc := ⟨.hbm, 111, rfl⟩
abbrev main_v81 : Ref sig .tc := ⟨.hbm, 112, rfl⟩
abbrev main_v82 : Ref sig .tc := ⟨.hbm, 113, rfl⟩
abbrev main_c_23 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_24 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_25 : Ref sig .tc := ⟨.hbm, 122, rfl⟩
abbrev main_v89 : Ref sig .tc := ⟨.hbm, 123, rfl⟩
abbrev main_v90 : Ref sig .tc := ⟨.hbm, 124, rfl⟩
abbrev main_cst_26 : Ref sig .tc := ⟨.hbm, 125, rfl⟩
abbrev main_v91 : Ref sig .tc := ⟨.hbm, 126, rfl⟩
abbrev main_cst_27 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_28 : Ref sig .tc := ⟨.hbm, 131, rfl⟩
abbrev main_v95 : Ref sig .tc := ⟨.hbm, 132, rfl⟩
abbrev main_v96 : Ref sig .tc := ⟨.hbm, 133, rfl⟩
abbrev main_cst_29 : Ref sig .tc := ⟨.hbm, 134, rfl⟩
abbrev main_v97 : Ref sig .tc := ⟨.hbm, 135, rfl⟩
abbrev main_v98 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v63 : BitVec 1 := Scalar.cmpi .eq arg1 c3_i32
  let v64 : BitVec 32 := Scalar.extui v63
  let c0_i32_34 : BitVec 32 := 0#32
  let v65 : BitVec 1 := Scalar.cmpi .ne v64 c0_i32_34
  v65

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  reducesTo_S8192x64_S8192_d1 : S8192x64.ReducesTo [1] S8192
  h_S_ : 0 < S_.numel
  bcast_S_S8192x64 : S_.BroadcastsInDim S8192x64 (![] : Fin 0 → Fin S8192x64.rank)
  bcast_S_S8192 : S_.BroadcastsInDim S8192 (![] : Fin 0 → Fin S8192.rank)
  shapeCasts_S8192_S1x8192 : S8192.ShapeCasts S1x8192
  concatenates_S8192x64_S8192x64_S8192x128_d1 : Shape.Concatenates [S8192x64, S8192x64] S8192x128 1
  bitsLt_bf16_f32 : FTy.bits .bf16 < FTy.bits .f32
  concatenates_S4096x64_S4096x64_S4096x128_d1 : Shape.Concatenates [S4096x64, S4096x64] S4096x128 1
  reducesTo_S4096x64_S4096_d1 : S4096x64.ReducesTo [1] S4096
  bcast_S_S4096 : S_.BroadcastsInDim S4096 (![] : Fin 0 → Fin S4096.rank)
  shapeCasts_S4096_S4096x1 : S4096.ShapeCasts S4096x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  broadcasts_S1x1024_S1024x1024 : S1x1024.Broadcasts S1024x1024
  iota_S1x1024_d1_w32 : S1x1024.Iotas .tc 32 [1]
  reduces_S1024x1024_S1024 : S1024x1024.Reduces [0] S1024
  shapeCasts_S1024_S1x1024 : S1024.ShapeCasts S1x1024
  reducesTo_S1x8192_S_d0_1 : S1x8192.ReducesTo [0, 1] S_
  bcast_S_S1x8192 : S_.BroadcastsInDim S1x8192 (![] : Fin 0 → Fin S1x8192.rank)
  shapeCasts_S1x8192_S8192 : S1x8192.ShapeCasts S8192
  bcast_S4096_S4096x1_0 : S4096.BroadcastsInDim S4096x1 (![0] : Fin 1 → Fin S4096x1.rank)
  natLt_1_32 : 1 < 32
  reducesTo_S8192_S_d0 : S8192.ReducesTo [0] S_
  dot_S1024x128_S1024x128_S1024x1024_1_1_0_0_n_n_wf : DotDims.WF S1024x128 S1024x128 S1024x1024 [1] [1] [0] [0] [] []
  gather_S8192x64_S4096x1_S4096x64_1_0_n_n_0_1_164_wf : GatherDims.WF S8192x64 S4096x1 S4096x64 [1] [0] [] [0] [] 1 ![1, 64]
  scatter_S8192_S4096x1_S4096_n_0_0_1_wf : ScatterDims.WF S8192 S4096x1 S4096 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .bf16 = 32 ∨ (Rect.block (s := S4096x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .i32 = 32 ∨ (Rect.block (s := S4096x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x8192.size a
  hwx0_6 : ∀ i : grid0.Coords, EltTy.bits .f32 = 32 ∨ (Rect.block (s := S1x8192) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x8192.size a
  hwx0_7 : ∀ i : grid0.Coords, EltTy.bits .f32 = 32 ∨ (Rect.block (s := S1x8192) S1x1024.size (cc0_transform_7 i) (hinb0_7 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def gather_S8192x64_S4096x1_S4096x64_1_0_n_n_0_1_164 : GatherDims S8192x64 S4096x1 S4096x64 where
  offsetDims := [1]
  collapsedSliceDims := [0]
  operandBatchingDims := []
  startIndicesBatchingDims := []
  startIndexMap := [0]
  indexVectorDim := 1
  sliceSizes := ![1, 64]
  wf := gather_S8192x64_S4096x1_S4096x64_1_0_n_n_0_1_164_wf
def scatter_S8192_S4096x1_S4096_n_0_0_1 : ScatterDims S8192 S4096x1 S4096 where
  updateWindowDims := []
  insertedWindowDims := [0]
  scatterDimsToOperandDims := [0]
  indexVectorDim := 1
  wf := scatter_S8192_S4096x1_S4096_n_0_0_1_wf

abbrev win0_0 : Pipeline.Window sig grid0 :=
  Pipeline.Window.ofSpec (Memref.whole main_v22) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28_0) S1x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28_1) S1x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v28_2) S1x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun i => !(k0_cond2 i == 1#1) | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x64 : Shape := ⟨2, ![4096, 64]⟩
abbrev S4096 : Shape := ⟨1, ![4096]⟩
abbrev S8192x64 : Shape := ⟨2, ![8192, 64]⟩
abbrev S64x8192 : Shape := ⟨2, ![64, 8192]⟩
abbrev S4096x8192 : Shape := ⟨2, ![4096, 8192]⟩
abbrev S_ : Shape := ⟨0, ![]⟩
abbrev S8192 : Shape := ⟨1, ![8192]⟩
abbrev S1x8192 : Shape := ⟨2, ![1, 8192]⟩
abbrev S4096x1 : Shape := ⟨2, ![4096, 1]⟩

abbrev nBuf : Space → Nat
  | .hbm => 94
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096, .i32⟩
  | .hbm, ⟨2, _⟩ => ⟨S8192x64, .f32⟩
  | .hbm, ⟨3, _⟩ => ⟨S8192x64, .f32⟩
  | .hbm, ⟨4, _⟩ => ⟨S8192x64, .f32⟩
  | .hbm, ⟨5, _⟩ => ⟨S8192x64, .f32⟩
  | .hbm, ⟨6, _⟩ => ⟨S4096x64, .f32⟩
  | .hbm, ⟨7, _⟩ => ⟨S64x8192, .f32⟩
  | .hbm, ⟨8, _⟩ => ⟨S4096x8192, .f32⟩
  | .hbm, ⟨9, _⟩ => ⟨S8192x64, .f32⟩
  | .hbm, ⟨10, _⟩ => ⟨S64x8192, .f32⟩
  | .hbm, ⟨11, _⟩ => ⟨S4096x8192, .f32⟩
  | .hbm, ⟨12, _⟩ => ⟨S8192x64, .f32⟩
  | .hbm, ⟨13, _⟩ => ⟨S8192x64, .f32⟩
  | .hbm, ⟨14, _⟩ => ⟨S8192x64, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S1x8192, .f32⟩
  | .hbm, ⟨22, _⟩ => ⟨S4096x8192, .f32⟩
  | .hbm, ⟨23, _⟩ => ⟨S4096x8192, .f32⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S4096x1, .i32⟩
  | .hbm, ⟨28, _⟩ => ⟨S1x8192, .i32⟩
  | .hbm, ⟨29, _⟩ => ⟨S4096x8192, .i32⟩
  | .hbm, ⟨30, _⟩ => ⟨S4096x8192, .i32⟩
  | .hbm, ⟨31, _⟩ => ⟨S4096x8192, .i1⟩
  | .hbm, ⟨32, _⟩ => ⟨S4096x8192, .f32⟩
  | .hbm, ⟨33, _⟩ => ⟨S_, .f32⟩
  | .hbm, ⟨34, _⟩ => ⟨S4096x8192, .f32⟩
  | .hbm, ⟨35, _⟩ => ⟨S4096x8192, .f32⟩
  | .hbm, ⟨36, _⟩ => ⟨S_, .f32⟩
  | .hbm, ⟨37, _⟩ => ⟨S4096x8192, .f32⟩
  | .hbm, ⟨38, _⟩ => ⟨S4096x8192, .f32⟩
  | .hbm, ⟨39, _⟩ => ⟨S_, .f32⟩
  | .hbm, ⟨40, _⟩ => ⟨S4096x8192, .f32⟩
  | .hbm, ⟨41, _⟩ => ⟨S4096x8192, .f32⟩
  | .hbm, ⟨42, _⟩ => ⟨S_, .f32⟩
  | .hbm, ⟨43, _⟩ => ⟨S4096x8192, .f32⟩
  | .hbm, ⟨44, _⟩ => ⟨S4096x8192, .f32⟩
  | .hbm, ⟨45, _⟩ => ⟨S_, .f32⟩
  | .hbm, ⟨46, _⟩ => ⟨S_, .f32⟩
  | .hbm, ⟨47, _⟩ => ⟨S4096x8192, .f32⟩
  | .hbm, ⟨48, _⟩ => ⟨S4096x8192, .f32⟩
  | .hbm, ⟨49, _⟩ => ⟨S4096x8192, .f32⟩
  | .hbm, ⟨50, _⟩ => ⟨S4096x8192, .f32⟩
  | .hbm, ⟨51, _⟩ => ⟨S4096x8192, .f32⟩
  | .hbm, ⟨52, _⟩ => ⟨S4096x8192, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .i1⟩
  | .hbm, ⟨58, _⟩ => ⟨S8192, .i32⟩
  | .hbm, ⟨59, _⟩ => ⟨S_, .i32⟩
  | .hbm, ⟨60, _⟩ => ⟨S_, .i32⟩
  | .hbm, ⟨61, _⟩ => ⟨S_, .f32⟩
  | .hbm, ⟨62, _⟩ => ⟨S_, .f32⟩
  | .hbm, ⟨63, _⟩ => ⟨S4096x8192, .f32⟩
  | .hbm, ⟨64, _⟩ => ⟨S4096x8192, .i1⟩
  | .hbm, ⟨65, _⟩ => ⟨S_, .f32⟩
  | .hbm, ⟨66, _⟩ => ⟨S_, .f32⟩
  | .hbm, ⟨67, _⟩ => ⟨S4096x8192, .f32⟩
  | .hbm, ⟨68, _⟩ => ⟨S4096x8192, .f32⟩
  | .hbm, ⟨69, _⟩ => ⟨S_, .f32⟩
  | .hbm, ⟨70, _⟩ => ⟨S8192, .f32⟩
  | .hbm, ⟨71, _⟩ => ⟨S_, .f32⟩
  | .hbm, ⟨72, _⟩ => ⟨S4096x8192, .f32⟩
  | .hbm, ⟨73, _⟩ => ⟨S4096x8192, .i1⟩
  | .hbm, ⟨74, _⟩ => ⟨S_, .f32⟩
  | .hbm, ⟨75, _⟩ => ⟨S_, .f32⟩
  | .hbm, ⟨76, _⟩ => ⟨S4096x8192, .f32⟩
  | .hbm, ⟨77, _⟩ => ⟨S4096x8192, .f32⟩
  | .hbm, ⟨78, _⟩ => ⟨S_, .f32⟩
  | .hbm, ⟨79, _⟩ => ⟨S8192, .f32⟩
  | .hbm, ⟨80, _⟩ => ⟨S8192, .f32⟩
  | .hbm, ⟨81, _⟩ => ⟨S8192, .f32⟩
  | .hbm, ⟨82, _⟩ => ⟨S8192, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S8192, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_call1_v0 : Ref sig .tc := ⟨.hbm, 66, rfl⟩
abbrev main_call1_v1 : Ref sig .tc := ⟨.hbm, 67, rfl⟩
abbrev main_v44 : Ref sig .tc := ⟨.hbm, 68, rfl⟩
abbrev main_cst_11 : Ref sig .tc := ⟨.hbm, 69, rfl⟩
abbrev main_v45 : Ref sig .tc := ⟨.hbm, 70, rfl⟩
abbrev main_cst_12 : Ref sig .tc := ⟨.hbm, 71, rfl⟩
abbrev main_v46 : Ref sig .tc := ⟨.hbm, 72, rfl⟩
abbrev main_v47 : Ref sig .tc := ⟨.hbm, 73, rfl⟩
abbrev main_cst_13 : Ref sig .tc := ⟨.hbm, 74, rfl⟩
abbrev main_call2_v0 : Ref sig .tc := ⟨.hbm, 75, rfl⟩
abbrev main_call2_v1 : Ref sig .tc := ⟨.hbm, 76, rfl⟩
abbrev main_v48 : Ref sig .tc := ⟨.hbm, 77, rfl⟩
abbrev main_cst_14 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_15 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_16 : Ref sig .tc := ⟨.hbm, 89, rfl⟩
abbrev main_v58 : Ref sig .tc := ⟨.hbm, 90, rfl⟩
abbrev main_cst_17 : Ref sig .tc := ⟨.hbm, 91, rfl⟩
abbrev main_v59 : Ref sig .tc := ⟨.hbm, 92, rfl⟩
abbrev main_v60 : Ref sig .tc := ⟨.hbm, 93, rfl⟩

abbrev nD : Nat := 1
abbrev τ : Topo := Topo.v7x

variable {F : FTy → Type} [FloatOps F]

class Facts₀ : Prop where
  transposes_S8192x64_S64x8192_1_0 : S8192x64.Transposes [1, 0] S64x8192
  reducesTo_S8192x64_S8192_d1 : S8192x64.ReducesTo [1] S8192
  h_S_ : 0 < S_.numel
  bcast_S_S4096x8192 : S_.BroadcastsInDim S4096x8192 (![] : Fin 0 → Fin S4096x8192.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S4096_S4096x1_0 : S4096.BroadcastsInDim S4096x1 (![0] : Fin 1 → Fin S4096x1.rank)
  bcast_S4096x1_S4096x8192_0_1 : S4096x1.BroadcastsInDim S4096x8192 (![0, 1] : Fin 2 → Fin S4096x8192.rank)
  reducesTo_S4096x8192_S_d0_1 : S4096x8192.ReducesTo [0, 1] S_
  reducesTo_S4096x8192_S8192_d0 : S4096x8192.ReducesTo [0] S8192
  bcast_S_S8192 : S_.BroadcastsInDim S8192 (![] : Fin 0 → Fin S8192.rank)
  natLt_1_32 : 1 < 32
  reducesTo_S8192_S_d0 : S8192.ReducesTo [0] S_
  dot_S4096x64_S64x8192_S4096x8192_1_0_0_1_n_n_wf : DotDims.WF S4096x64 S64x8192 S4096x8192 [1] [0] [0] [1] [] []

variable [Facts₀]

def dot_S4096x64_S64x8192_S4096x8192_1_0_0_1_n_n : DotDims S4096x64 S64x8192 S4096x8192 where
  lhsContracting := [1]
  rhsContracting := [0]
  lhsNonContracting := [0]
  rhsNonContracting := [1]
  lhsBatch := []
  rhsBatch := []
  wf := dot_S4096x64_S64x8192_S4096x8192_1_0_0_1_n_n_wf

class Facts : Prop extends Facts₀ where

variable [Facts]
-- ==== Proof.KKit.lean ====
/-
  What the frame of the kernel program is stated over: the memory the pipeline finds (the host operations before
  it applied to the launch memory), the operations after it (they touch no array of the pipeline and no
  argument), each window's block at a grid point, the two conditions of the body (first row tile: the three
  accumulators are reset; last row tile: they are copied out) in closed form over the 8 × 4 grid, where the
  three output windows are idle, and the staging and scratch memrefs the body is called with.
-/
import proofs.«429900_j26379689132773_3_alg».proof.Proof.Gen.Kernel.Launch
import proofs.«429900_j26379689132773_3_alg».proof.Proof.Gen.Kernel.Skeleton
import proofs.«429900_j26379689132773_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the pipeline -/

/-- Core `c`'s buffer contents when the pipeline is entered: the 36 operations before it applied to the launch memory. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- @main is the operations before the pipeline, the pipeline, the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the pipeline touch unscoped references only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 8000000 in
/-- None of the 94 writes an array of the pipeline: each writes its own result buffer only. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No operation before the pipeline writes argument 0: the pipeline finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- No operation after the pipeline writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No operation before the pipeline writes argument 1: the pipeline finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- No operation after the pipeline writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No operation before the pipeline writes argument 2: the pipeline finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- No operation after the pipeline writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No operation before the pipeline writes argument 3: the pipeline finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- No operation after the pipeline writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The four arguments end as launched: none is an array of the pipeline, and no operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    (((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c))⟩) h

/-! ## The body's two conditions -/

/-- "This is the first row tile" (the accumulators are reset), from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last row tile" (the accumulators are copied out). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

/-! ## The memrefs the body is called with -/

abbrev VO0_5 : View sig .tc .vmem S1x1024 .f32 := (Memref.whole cc0_stg5_0 : Memref sig .tc .vmem S1x1024 .f32).view
abbrev VO0_6 : View sig .tc .vmem S1x1024 .f32 := (Memref.whole cc0_stg6_0 : Memref sig .tc .vmem S1x1024 .f32).view
abbrev VO0_7 : View sig .tc .vmem S1x1024 .f32 := (Memref.whole cc0_stg7_0 : Memref sig .tc .vmem S1x1024 .f32).view
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
/-- The three accumulators: whole scoped buffers of the kernel's own. -/
abbrev scM0_0 : Memref sig .tc .vmem S1x1024 .f32 := Memref.whole cc0_scratch0
abbrev scM0_1 : Memref sig .tc .vmem S1x1024 .f32 := Memref.whole cc0_scratch1
abbrev scM0_2 : Memref sig .tc .vmem S1x1024 .f32 := Memref.whole cc0_scratch2
abbrev VS0_0 : View sig .tc .vmem S1x1024 .f32 := scM0_0.view
abbrev VS0_1 : View sig .tc .vmem S1x1024 .f32 := scM0_1.view
abbrev VS0_2 : View sig .tc .vmem S1x1024 .f32 := scM0_2.view

/-- The pipeline's invariant with the accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.KRunA.lean ====
/-
  The kernel body run at the first row tile of a column tile: the three accumulators are reset (to minus infinity, to the finite stand-in, to zero) and then updated with the tile; the outputs are not touched.
  The run is found by symbolic execution of the body's memory operations; what each buffer ends with is a list of
  stored pieces (the last store first), the witness of the run.
-/
import proofs.«429900_j26379689132773_3_alg».proof.Proof.KKit

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x128 .bf16) (x1 : Vec F S1024x128 .bf16) (x2 : Vec F S1024x1 .f32) (x3 : Vec F S1x1024 .f32) (x4 : Vec F S1024x1 .i32) :
    Σ' (LS0 LS1 : List (View.Piece (Elt F) S1x1024 .f32)), { LS2 : List (View.Piece (Elt F) S1x1024 .f32) //
      ∀ (xi5 xi6 xi7 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare xi6 ∗ owns (c : Thread nD τ) arg9 fullShare xi7
            ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12) K } := by
  refine ⟨?_, ?_, ?_, fun xi5 xi6 xi7 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.Kernel.Gen

end
-- ==== Proof.KRunB.lean ====
/-
  The kernel body run at a middle row tile: the three accumulators, found at what the point before left, are updated with the tile; the outputs are not touched.
  The run is found by symbolic execution of the body's memory operations; what each buffer ends with is a list of
  stored pieces (the last store first), the witness of the run.
-/
import proofs.«429900_j26379689132773_3_alg».proof.Proof.KRunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) :
    Σ' (LS0 LS1 : List (View.Piece (Elt F) S1x1024 .f32)), { LS2 : List (View.Piece (Elt F) S1x1024 .f32) //
      ∀ (xi5 xi6 xi7 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare xi6 ∗ owns (c : Thread nD τ) arg9 fullShare xi7
            ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12) K } := by
  refine ⟨?_, ?_, ?_, fun xi5 xi6 xi7 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.Kernel.Gen

end
-- ==== Proof.KRunC.lean ====
/-
  The kernel body run at the last row tile: the accumulators are updated with the tile and then copied into the three outputs.
  The run is found by symbolic execution of the body's memory operations; what each buffer ends with is a list of
  stored pieces (the last store first), the witness of the run.
-/
import proofs.«429900_j26379689132773_3_alg».proof.Proof.KRunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) :
    Σ' (L5 L6 L7 LS0 LS1 : List (View.Piece (Elt F) S1x1024 .f32)), { LS2 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]; · iexists _; iexact HS0
    isplitl [HS1]; · iexists _; iexact HS1
    iexists _; iexact HS2

end Cert.Kernel.Gen

end
-- ==== Proof.KFrame.lean ====
/-
  The frame of the kernel program: what the three accumulators hold after each grid point (by recursion on the
  point: reset and updated at a first row tile, updated at the others), what the three output windows' buffers hold
  after a last row tile (the accumulators, copied), the pipeline's proof data, the body's obligation at every
  point (by cases on the two conditions), and the run: every weakly fair execution of @main terminates, without
  a fault, with every array of the pipeline at what the proof data says and the arguments unchanged.
-/
import proofs.«429900_j26379689132773_3_alg».proof.Proof.KRunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In this case the body's stores into accumulator 0 cover it. -/
theorem scover0_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).1 S1x1024.size (by sl_kernel_rfl) y

/-- What the case leaves in accumulator 0: its stored pieces read back. -/
def sout0_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x128 .bf16) (x1 : Vec F S1024x128 .bf16) (x2 : Vec F S1024x1 .f32) (x3 : Vec F S1x1024 .f32) (x4 : Vec F S1024x1 .i32) : Vec F S1x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).1)

/-- In this case the body's stores into accumulator 1 cover it. -/
theorem scover0_A_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1 S1x1024.size (by sl_kernel_rfl) y

/-- What the case leaves in accumulator 1: its stored pieces read back. -/
def sout0_A_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x128 .bf16) (x1 : Vec F S1024x128 .bf16) (x2 : Vec F S1024x1 .f32) (x3 : Vec F S1x1024 .f32) (x4 : Vec F S1024x1 .i32) : Vec F S1x1024 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1)

/-- In this case the body's stores into accumulator 2 cover it. -/
theorem scover0_A_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1 S1x1024.size (by sl_kernel_rfl) y

/-- What the case leaves in accumulator 2: its stored pieces read back. -/
def sout0_A_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x128 .bf16) (x1 : Vec F S1024x128 .bf16) (x2 : Vec F S1024x1 .f32) (x3 : Vec F S1x1024 .f32) (x4 : Vec F S1024x1 .i32) : Vec F S1x1024 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1)

/-- In this case the body's stores into accumulator 0 cover it. -/
theorem scover0_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1 S1x1024.size (by sl_kernel_rfl) y

/-- What the case leaves in accumulator 0: its stored pieces read back. -/
def sout0_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) : Vec F S1x1024 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1)

/-- In this case the body's stores into accumulator 1 cover it. -/
theorem scover0_B_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1 S1x1024.size (by sl_kernel_rfl) y

/-- What the case leaves in accumulator 1: its stored pieces read back. -/
def sout0_B_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) : Vec F S1x1024 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1)

/-- In this case the body's stores into accumulator 2 cover it. -/
theorem scover0_B_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1 S1x1024.size (by sl_kernel_rfl) y

/-- What the case leaves in accumulator 2: its stored pieces read back. -/
def sout0_B_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) : Vec F S1x1024 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1)

/-- In this case the body's stores into accumulator 0 cover it. -/
theorem scover0_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1 S1x1024.size (by sl_kernel_rfl) y

/-- What the case leaves in accumulator 0: its stored pieces read back. -/
def sout0_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) : Vec F S1x1024 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1)

/-- In this case the body's stores into accumulator 1 cover it. -/
theorem scover0_C_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1 S1x1024.size (by sl_kernel_rfl) y

/-- What the case leaves in accumulator 1: its stored pieces read back. -/
def sout0_C_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) : Vec F S1x1024 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1)

/-- In this case the body's stores into accumulator 2 cover it. -/
theorem scover0_C_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1 S1x1024.size (by sl_kernel_rfl) y

/-- What the case leaves in accumulator 2: its stored pieces read back. -/
def sout0_C_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) : Vec F S1x1024 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1)

/-- At the last row tile the body's store into output window 5 covers its block. -/
theorem cover0_C_5 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1 S1x1024.size (by sl_kernel_rfl) y

/-- What the last row tile leaves in output window 5's buffer. -/
def out0_C_5 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) : Vec F S1x1024 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1)

/-- At the last row tile the body's store into output window 6 covers its block. -/
theorem cover0_C_6 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1 S1x1024.size (by sl_kernel_rfl) y

/-- What the last row tile leaves in output window 6's buffer. -/
def out0_C_6 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) : Vec F S1x1024 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1)

/-- At the last row tile the body's store into output window 7 covers its block. -/
theorem cover0_C_7 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1 S1x1024.size (by sl_kernel_rfl) y

/-- What the last row tile leaves in output window 7's buffer. -/
def out0_C_7 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) : Vec F S1x1024 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1)

/-! ## The accumulators after each point -/

/-- The three accumulators after the body at position `n`: the case the closed forms select, run at the point's
    memrefs and input blocks, over what the point before left. -/
def scAt0 (c : Dev nD) : (n : ℕ) → n < cfg0.N → Vec F S1x1024 .f32 × Vec F S1x1024 .f32 × Vec F S1x1024 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => (by omega : ¬ (n + 1) % 4 = 3) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => (by omega : ¬ (n + 1) % 4 = 3) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => (by omega : ¬ (n + 1) % 4 = 3) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 4 = 3 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt0 c n (Nat.lt_of_succ_lt hn)).1 (scAt0 c n (Nat.lt_of_succ_lt hn)).2.1 (scAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt0 c n (Nat.lt_of_succ_lt hn)).1 (scAt0 c n (Nat.lt_of_succ_lt hn)).2.1 (scAt0 c n (Nat.lt_of_succ_lt hn)).2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt0 c n (Nat.lt_of_succ_lt hn)).1 (scAt0 c n (Nat.lt_of_succ_lt hn)).2.1 (scAt0 c n (Nat.lt_of_succ_lt hn)).2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt0 c n (Nat.lt_of_succ_lt hn)).1 (scAt0 c n (Nat.lt_of_succ_lt hn)).2.1 (scAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt0 c n (Nat.lt_of_succ_lt hn)).1 (scAt0 c n (Nat.lt_of_succ_lt hn)).2.1 (scAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt0 c n (Nat.lt_of_succ_lt hn)).1 (scAt0 c n (Nat.lt_of_succ_lt hn)).2.1 (scAt0 c n (Nat.lt_of_succ_lt hn)).2.2)

theorem scAt0_A (c : Dev nD) (t : Fin cfg0.N) (h0 : t.val % 4 = 0) (h1 : ¬t.val % 4 = 3) :
    scAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans rfl

theorem scAt0_B (c : Dev nD) (t : Fin cfg0.N) (h0 : ¬t.val % 4 = 0) (h1 : ¬t.val % 4 = 3) :
    scAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem scAt0_C (c : Dev nD) (t : Fin cfg0.N) (h0 : ¬t.val % 4 = 0) (h1 : t.val % 4 = 3) :
    scAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- What output window `w` (5, 6 or 7)'s buffer holds after point `t`: at a last row tile the copy of the accumulators as
    the body found and updated them; elsewhere nothing is stored (a placeholder nothing consults). -/
def outAt0_5 (c : Dev nD) (t : Fin cfg0.N) : Vec F S1x1024 .f32 :=
  if h1 : t.val % 4 = 3 then
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => (by omega : ¬ t.val % 4 = 0) ((hcond0_0 t).mp h)) ((hcond0_1 t).mpr h1) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2
  else VO0_5.read (Elt F) VO0_5.junk
def outAt0_6 (c : Dev nD) (t : Fin cfg0.N) : Vec F S1x1024 .f32 :=
  if h1 : t.val % 4 = 3 then
    out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => (by omega : ¬ t.val % 4 = 0) ((hcond0_0 t).mp h)) ((hcond0_1 t).mpr h1) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2
  else VO0_6.read (Elt F) VO0_6.junk
def outAt0_7 (c : Dev nD) (t : Fin cfg0.N) : Vec F S1x1024 .f32 :=
  if h1 : t.val % 4 = 3 then
    out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => (by omega : ¬ t.val % 4 = 0) ((hcond0_0 t).mp h)) ((hcond0_1 t).mpr h1) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2
  else VO0_7.read (Elt F) VO0_7.junk

/-- The pipeline's invariant before position `n`: before the first point every accumulator at anything; afterwards
    each at what the point before left. -/
def PhiS (c : Dev nD) : (n : ℕ) → n ≤ cfg0.N → sProp 𝕄
  | 0, _ => Pipeline.ΦA spec0 c
  | n + 1, hn => iprop(iprop(owns (c : Thread nD τ) scM0_0 fullShare ((scAt0 m c n hn).1) ∗ owns (c : Thread nD τ) scM0_1 fullShare ((scAt0 m c n hn).2.1) ∗ owns (c : Thread nD τ) scM0_2 fullShare ((scAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scAt0 m c n hn).1) ∗ owns (c : Thread nD τ) scM0_1 fullShare ((scAt0 m c n hn).2.1) ∗ owns (c : Thread nD τ) scM0_2 fullShare ((scAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((scAt0 m c (n - 1) (by omega)).1) ∗ owns (c : Thread nD τ) scM0_1 fullShare ((scAt0 m c (n - 1) (by omega)).2.1) ∗ owns (c : Thread nD τ) scM0_2 fullShare ((scAt0 m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt0_5 m c t
    | ⟨6, _⟩ => outAt0_6 m c t
    | ⟨7, _⟩ => outAt0_7 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt0_5 m c t := by dsimp only [dats]
theorem after0_6 (c : Dev nD) (t : Fin cfg0.N) : (dats m 0 c).after 6 t = outAt0_6 m c t := by dsimp only [dats]
theorem after0_7 (c : Dev nD) (t : Fin cfg0.N) : (dats m 0 c).after 7 t = outAt0_7 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 16000000 in
/-- The body at any point: the inputs' buffers hold their blocks; the closed forms say which case the point is in;
    the invariant hands the body the accumulators at what the point before left (at anything at the very first
    point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 4 = 0
  · have h1 : ¬ t.val % 4 = 3 := by omega
    rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
    rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
    rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
    rw [scAt0_A m c t h0 h1]
    unfold sout0_A_0 sout0_A_1 sout0_A_2; (try dsimp only)
    by_cases hz : t.val = 0
    · rw [PhiS_castSucc m c t, PhiS_zero m c _ _ hz, PhiA0_eq]
      ·
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        iintro ⟨H0, H1, H2, H3, H4, H5, H6, H7, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        iexists _; iexact H7
    · rw [PhiS_castSucc m c t, PhiS_pos m c _ _ hz]
      ·
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        isplitl [HS2]; · iexists _; iexact HS2
        iintro ⟨H0, H1, H2, H3, H4, H5, H6, H7, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        iexists _; iexact H7
  · have hz : t.val ≠ 0 := by intro hz; rw [hz] at h0; exact h0 (Nat.zero_mod _)
    by_cases h1 : t.val % 4 = 3
    · rw [show (dats m 0 c).leavesExact 5 t = owns (c : Thread nD τ) (ms0_5 t) fullShare ((dats m 0 c).after 5 t) from by
        unfold Dat.leavesExact; rw [liveAt0_5_C t (fun h => h0 ((hcond0_0 t).mp h)) ((hcond0_1 t).mpr h1)], after0_5, outAt0_5, dif_pos h1]
      rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6, outAt0_6, dif_pos h1]
      rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7, outAt0_7, dif_pos h1]
      rw [scAt0_C m c t h0 h1]
      unfold out0_C_5 out0_C_6 out0_C_7 sout0_C_0 sout0_C_1 sout0_C_2; (try dsimp only)
      rw [PhiS_castSucc m c t, PhiS_pos m c _ _ hz]
      ·
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _).2.2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        iintro ⟨H0, H1, H2, H3, H4, ⟨%e5, H5⟩, ⟨%e6, H6⟩, ⟨%e7, H7⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
    · rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [scAt0_B m c t h0 h1]
      unfold sout0_B_0 sout0_B_1 sout0_B_2; (try dsimp only)
      rw [PhiS_castSucc m c t, PhiS_pos m c _ _ hz]
      ·
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _ _).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        iintro ⟨H0, H1, H2, H3, H4, H5, H6, H7, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        iexists _; iexact H7

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Gen

end
-- ==== Proof.KIKit.lean ====
/-
  What the frame of the kernel program is stated over: the memory the pipeline finds (the host operations before
  it applied to the launch memory), the operations after it (they touch no array of the pipeline and no
  argument), each window's block at a grid point, the two conditions of the body (first row tile: the three
  accumulators are reset; last row tile: they are copied out) in closed form over the 8 × 4 grid, where the
  three output windows are idle, and the staging and scratch memrefs the body is called with.
-/
import proofs.«429900_j26379689132773_3_alg».proof.Proof.Gen.KernelIdeal.Launch
import proofs.«429900_j26379689132773_3_alg».proof.Proof.Gen.KernelIdeal.Skeleton
import proofs.«429900_j26379689132773_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the pipeline -/

/-- Core `c`'s buffer contents when the pipeline is entered: the 36 operations before it applied to the launch memory. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- @main is the operations before the pipeline, the pipeline, the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the pipeline touch unscoped references only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 8000000 in
/-- None of the 94 writes an array of the pipeline: each writes its own result buffer only. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No operation before the pipeline writes argument 0: the pipeline finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- No operation after the pipeline writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No operation before the pipeline writes argument 1: the pipeline finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- No operation after the pipeline writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No operation before the pipeline writes argument 2: the pipeline finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- No operation after the pipeline writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No operation before the pipeline writes argument 3: the pipeline finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- No operation after the pipeline writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The four arguments end as launched: none is an array of the pipeline, and no operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    (((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c))⟩) h

/-! ## The body's two conditions -/

/-- "This is the first row tile" (the accumulators are reset), from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last row tile" (the accumulators are copied out). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

/-! ## The memrefs the body is called with -/

abbrev VO0_5 : View sig .tc .vmem S1x1024 .f32 := (Memref.whole cc0_stg5_0 : Memref sig .tc .vmem S1x1024 .f32).view
abbrev VO0_6 : View sig .tc .vmem S1x1024 .f32 := (Memref.whole cc0_stg6_0 : Memref sig .tc .vmem S1x1024 .f32).view
abbrev VO0_7 : View sig .tc .vmem S1x1024 .f32 := (Memref.whole cc0_stg7_0 : Memref sig .tc .vmem S1x1024 .f32).view
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
/-- The three accumulators: whole scoped buffers of the kernel's own. -/
abbrev scM0_0 : Memref sig .tc .vmem S1x1024 .f32 := Memref.whole cc0_scratch0
abbrev scM0_1 : Memref sig .tc .vmem S1x1024 .f32 := Memref.whole cc0_scratch1
abbrev scM0_2 : Memref sig .tc .vmem S1x1024 .f32 := Memref.whole cc0_scratch2
abbrev VS0_0 : View sig .tc .vmem S1x1024 .f32 := scM0_0.view
abbrev VS0_1 : View sig .tc .vmem S1x1024 .f32 := scM0_1.view
abbrev VS0_2 : View sig .tc .vmem S1x1024 .f32 := scM0_2.view

/-- The pipeline's invariant with the accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.KIRunA.lean ====
/-
  The kernel body run at the first row tile of a column tile: the three accumulators are reset (to minus infinity, to the finite stand-in, to zero) and then updated with the tile; the outputs are not touched.
  The run is found by symbolic execution of the body's memory operations; what each buffer ends with is a list of
  stored pieces (the last store first), the witness of the run.
-/
import proofs.«429900_j26379689132773_3_alg».proof.Proof.KIKit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x128 .bf16) (x1 : Vec F S1024x128 .bf16) (x2 : Vec F S1024x1 .f32) (x3 : Vec F S1x1024 .f32) (x4 : Vec F S1024x1 .i32) :
    Σ' (LS0 LS1 : List (View.Piece (Elt F) S1x1024 .f32)), { LS2 : List (View.Piece (Elt F) S1x1024 .f32) //
      ∀ (xi5 xi6 xi7 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare xi6 ∗ owns (c : Thread nD τ) arg9 fullShare xi7
            ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12) K } := by
  refine ⟨?_, ?_, ?_, fun xi5 xi6 xi7 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.KernelIdeal.Gen

end
-- ==== Proof.KIRunB.lean ====
/-
  The kernel body run at a middle row tile: the three accumulators, found at what the point before left, are updated with the tile; the outputs are not touched.
  The run is found by symbolic execution of the body's memory operations; what each buffer ends with is a list of
  stored pieces (the last store first), the witness of the run.
-/
import proofs.«429900_j26379689132773_3_alg».proof.Proof.KIRunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) :
    Σ' (LS0 LS1 : List (View.Piece (Elt F) S1x1024 .f32)), { LS2 : List (View.Piece (Elt F) S1x1024 .f32) //
      ∀ (xi5 xi6 xi7 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare xi6 ∗ owns (c : Thread nD τ) arg9 fullShare xi7
            ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12) K } := by
  refine ⟨?_, ?_, ?_, fun xi5 xi6 xi7 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.KernelIdeal.Gen

end
-- ==== Proof.KIRunC.lean ====
/-
  The kernel body run at the last row tile: the accumulators are updated with the tile and then copied into the three outputs.
  The run is found by symbolic execution of the body's memory operations; what each buffer ends with is a list of
  stored pieces (the last store first), the witness of the run.
-/
import proofs.«429900_j26379689132773_3_alg».proof.Proof.KIRunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) :
    Σ' (L5 L6 L7 LS0 LS1 : List (View.Piece (Elt F) S1x1024 .f32)), { LS2 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]; · iexists _; iexact HS0
    isplitl [HS1]; · iexists _; iexact HS1
    iexists _; iexact HS2

end Cert.KernelIdeal.Gen

end
-- ==== Proof.KIFrame.lean ====
/-
  The frame of the kernel program: what the three accumulators hold after each grid point (by recursion on the
  point: reset and updated at a first row tile, updated at the others), what the three output windows' buffers hold
  after a last row tile (the accumulators, copied), the pipeline's proof data, the body's obligation at every
  point (by cases on the two conditions), and the run: every weakly fair execution of @main terminates, without
  a fault, with every array of the pipeline at what the proof data says and the arguments unchanged.
-/
import proofs.«429900_j26379689132773_3_alg».proof.Proof.KIRunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In this case the body's stores into accumulator 0 cover it. -/
theorem scover0_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).1 S1x1024.size (by sl_kernel_rfl) y

/-- What the case leaves in accumulator 0: its stored pieces read back. -/
def sout0_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x128 .bf16) (x1 : Vec F S1024x128 .bf16) (x2 : Vec F S1024x1 .f32) (x3 : Vec F S1x1024 .f32) (x4 : Vec F S1024x1 .i32) : Vec F S1x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).1)

/-- In this case the body's stores into accumulator 1 cover it. -/
theorem scover0_A_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1 S1x1024.size (by sl_kernel_rfl) y

/-- What the case leaves in accumulator 1: its stored pieces read back. -/
def sout0_A_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x128 .bf16) (x1 : Vec F S1024x128 .bf16) (x2 : Vec F S1024x1 .f32) (x3 : Vec F S1x1024 .f32) (x4 : Vec F S1024x1 .i32) : Vec F S1x1024 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1)

/-- In this case the body's stores into accumulator 2 cover it. -/
theorem scover0_A_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1 S1x1024.size (by sl_kernel_rfl) y

/-- What the case leaves in accumulator 2: its stored pieces read back. -/
def sout0_A_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x128 .bf16) (x1 : Vec F S1024x128 .bf16) (x2 : Vec F S1024x1 .f32) (x3 : Vec F S1x1024 .f32) (x4 : Vec F S1024x1 .i32) : Vec F S1x1024 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1)

/-- In this case the body's stores into accumulator 0 cover it. -/
theorem scover0_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1 S1x1024.size (by sl_kernel_rfl) y

/-- What the case leaves in accumulator 0: its stored pieces read back. -/
def sout0_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) : Vec F S1x1024 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1)

/-- In this case the body's stores into accumulator 1 cover it. -/
theorem scover0_B_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1 S1x1024.size (by sl_kernel_rfl) y

/-- What the case leaves in accumulator 1: its stored pieces read back. -/
def sout0_B_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) : Vec F S1x1024 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1)

/-- In this case the body's stores into accumulator 2 cover it. -/
theorem scover0_B_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1 S1x1024.size (by sl_kernel_rfl) y

/-- What the case leaves in accumulator 2: its stored pieces read back. -/
def sout0_B_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) : Vec F S1x1024 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1)

/-- In this case the body's stores into accumulator 0 cover it. -/
theorem scover0_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1 S1x1024.size (by sl_kernel_rfl) y

/-- What the case leaves in accumulator 0: its stored pieces read back. -/
def sout0_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) : Vec F S1x1024 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1)

/-- In this case the body's stores into accumulator 1 cover it. -/
theorem scover0_C_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1 S1x1024.size (by sl_kernel_rfl) y

/-- What the case leaves in accumulator 1: its stored pieces read back. -/
def sout0_C_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) : Vec F S1x1024 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1)

/-- In this case the body's stores into accumulator 2 cover it. -/
theorem scover0_C_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1 S1x1024.size (by sl_kernel_rfl) y

/-- What the case leaves in accumulator 2: its stored pieces read back. -/
def sout0_C_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) : Vec F S1x1024 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1)

/-- At the last row tile the body's store into output window 5 covers its block. -/
theorem cover0_C_5 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1 S1x1024.size (by sl_kernel_rfl) y

/-- What the last row tile leaves in output window 5's buffer. -/
def out0_C_5 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) : Vec F S1x1024 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1)

/-- At the last row tile the body's store into output window 6 covers its block. -/
theorem cover0_C_6 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1 S1x1024.size (by sl_kernel_rfl) y

/-- What the last row tile leaves in output window 6's buffer. -/
def out0_C_6 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) : Vec F S1x1024 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1)

/-- At the last row tile the body's store into output window 7 covers its block. -/
theorem cover0_C_7 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1 S1x1024.size (by sl_kernel_rfl) y

/-- What the last row tile leaves in output window 7's buffer. -/
def out0_C_7 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) : Vec F S1x1024 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1)

/-! ## The accumulators after each point -/

/-- The three accumulators after the body at position `n`: the case the closed forms select, run at the point's
    memrefs and input blocks, over what the point before left. -/
def scAt0 (c : Dev nD) : (n : ℕ) → n < cfg0.N → Vec F S1x1024 .f32 × Vec F S1x1024 .f32 × Vec F S1x1024 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => (by omega : ¬ (n + 1) % 4 = 3) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => (by omega : ¬ (n + 1) % 4 = 3) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (fun h => (by omega : ¬ (n + 1) % 4 = 3) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 4 = 3 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt0 c n (Nat.lt_of_succ_lt hn)).1 (scAt0 c n (Nat.lt_of_succ_lt hn)).2.1 (scAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt0 c n (Nat.lt_of_succ_lt hn)).1 (scAt0 c n (Nat.lt_of_succ_lt hn)).2.1 (scAt0 c n (Nat.lt_of_succ_lt hn)).2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt0 c n (Nat.lt_of_succ_lt hn)).1 (scAt0 c n (Nat.lt_of_succ_lt hn)).2.1 (scAt0 c n (Nat.lt_of_succ_lt hn)).2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt0 c n (Nat.lt_of_succ_lt hn)).1 (scAt0 c n (Nat.lt_of_succ_lt hn)).2.1 (scAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt0 c n (Nat.lt_of_succ_lt hn)).1 (scAt0 c n (Nat.lt_of_succ_lt hn)).2.1 (scAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt0 c n (Nat.lt_of_succ_lt hn)).1 (scAt0 c n (Nat.lt_of_succ_lt hn)).2.1 (scAt0 c n (Nat.lt_of_succ_lt hn)).2.2)

theorem scAt0_A (c : Dev nD) (t : Fin cfg0.N) (h0 : t.val % 4 = 0) (h1 : ¬t.val % 4 = 3) :
    scAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans rfl

theorem scAt0_B (c : Dev nD) (t : Fin cfg0.N) (h0 : ¬t.val % 4 = 0) (h1 : ¬t.val % 4 = 3) :
    scAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem scAt0_C (c : Dev nD) (t : Fin cfg0.N) (h0 : ¬t.val % 4 = 0) (h1 : t.val % 4 = 3) :
    scAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- What output window `w` (5, 6 or 7)'s buffer holds after point `t`: at a last row tile the copy of the accumulators as
    the body found and updated them; elsewhere nothing is stored (a placeholder nothing consults). -/
def outAt0_5 (c : Dev nD) (t : Fin cfg0.N) : Vec F S1x1024 .f32 :=
  if h1 : t.val % 4 = 3 then
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => (by omega : ¬ t.val % 4 = 0) ((hcond0_0 t).mp h)) ((hcond0_1 t).mpr h1) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2
  else VO0_5.read (Elt F) VO0_5.junk
def outAt0_6 (c : Dev nD) (t : Fin cfg0.N) : Vec F S1x1024 .f32 :=
  if h1 : t.val % 4 = 3 then
    out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => (by omega : ¬ t.val % 4 = 0) ((hcond0_0 t).mp h)) ((hcond0_1 t).mpr h1) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2
  else VO0_6.read (Elt F) VO0_6.junk
def outAt0_7 (c : Dev nD) (t : Fin cfg0.N) : Vec F S1x1024 .f32 :=
  if h1 : t.val % 4 = 3 then
    out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => (by omega : ¬ t.val % 4 = 0) ((hcond0_0 t).mp h)) ((hcond0_1 t).mpr h1) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2
  else VO0_7.read (Elt F) VO0_7.junk

/-- The pipeline's invariant before position `n`: before the first point every accumulator at anything; afterwards
    each at what the point before left. -/
def PhiS (c : Dev nD) : (n : ℕ) → n ≤ cfg0.N → sProp 𝕄
  | 0, _ => Pipeline.ΦA spec0 c
  | n + 1, hn => iprop(iprop(owns (c : Thread nD τ) scM0_0 fullShare ((scAt0 m c n hn).1) ∗ owns (c : Thread nD τ) scM0_1 fullShare ((scAt0 m c n hn).2.1) ∗ owns (c : Thread nD τ) scM0_2 fullShare ((scAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scAt0 m c n hn).1) ∗ owns (c : Thread nD τ) scM0_1 fullShare ((scAt0 m c n hn).2.1) ∗ owns (c : Thread nD τ) scM0_2 fullShare ((scAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((scAt0 m c (n - 1) (by omega)).1) ∗ owns (c : Thread nD τ) scM0_1 fullShare ((scAt0 m c (n - 1) (by omega)).2.1) ∗ owns (c : Thread nD τ) scM0_2 fullShare ((scAt0 m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt0_5 m c t
    | ⟨6, _⟩ => outAt0_6 m c t
    | ⟨7, _⟩ => outAt0_7 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt0_5 m c t := by dsimp only [dats]
theorem after0_6 (c : Dev nD) (t : Fin cfg0.N) : (dats m 0 c).after 6 t = outAt0_6 m c t := by dsimp only [dats]
theorem after0_7 (c : Dev nD) (t : Fin cfg0.N) : (dats m 0 c).after 7 t = outAt0_7 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 16000000 in
/-- The body at any point: the inputs' buffers hold their blocks; the closed forms say which case the point is in;
    the invariant hands the body the accumulators at what the point before left (at anything at the very first
    point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 4 = 0
  · have h1 : ¬ t.val % 4 = 3 := by omega
    rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
    rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
    rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
    rw [scAt0_A m c t h0 h1]
    unfold sout0_A_0 sout0_A_1 sout0_A_2; (try dsimp only)
    by_cases hz : t.val = 0
    · rw [PhiS_castSucc m c t, PhiS_zero m c _ _ hz, PhiA0_eq]
      ·
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        iintro ⟨H0, H1, H2, H3, H4, H5, H6, H7, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        iexists _; iexact H7
    · rw [PhiS_castSucc m c t, PhiS_pos m c _ _ hz]
      ·
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        isplitl [HS2]; · iexists _; iexact HS2
        iintro ⟨H0, H1, H2, H3, H4, H5, H6, H7, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        iexists _; iexact H7
  · have hz : t.val ≠ 0 := by intro hz; rw [hz] at h0; exact h0 (Nat.zero_mod _)
    by_cases h1 : t.val % 4 = 3
    · rw [show (dats m 0 c).leavesExact 5 t = owns (c : Thread nD τ) (ms0_5 t) fullShare ((dats m 0 c).after 5 t) from by
        unfold Dat.leavesExact; rw [liveAt0_5_C t (fun h => h0 ((hcond0_0 t).mp h)) ((hcond0_1 t).mpr h1)], after0_5, outAt0_5, dif_pos h1]
      rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6, outAt0_6, dif_pos h1]
      rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7, outAt0_7, dif_pos h1]
      rw [scAt0_C m c t h0 h1]
      unfold out0_C_5 out0_C_6 out0_C_7 sout0_C_0 sout0_C_1 sout0_C_2; (try dsimp only)
      rw [PhiS_castSucc m c t, PhiS_pos m c _ _ hz]
      ·
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _).2.2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        iintro ⟨H0, H1, H2, H3, H4, ⟨%e5, H5⟩, ⟨%e6, H6⟩, ⟨%e7, H7⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
    · rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [scAt0_B m c t h0 h1]
      unfold sout0_B_0 sout0_B_1 sout0_B_2; (try dsimp only)
      rw [PhiS_castSucc m c t, PhiS_pos m c _ _ hz]
      ·
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _ _).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        iintro ⟨H0, H1, H2, H3, H4, H5, H6, H7, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        iexists _; iexact H7

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Gen

end
-- ==== Proof.KIPieces.lean ====
/-
  What each control case of the kernel body leaves in the three accumulators and (at a last row tile) in the three
  outputs, as pure terms over the input blocks and the accumulators as the case found them. Every store of the body is
  a store of a whole 1 × 1024 buffer, so in each buffer the last store alone remains; every load is a load of a whole
  buffer, so a load made after a store of the same buffer reads that store's payload back, and a load made before any
  store reads the buffer as found. Case by case: at a first row tile the accumulators are first reset (to the
  minus-infinity splat, the finite stand-in, zero), so the update reads those constants; at a middle and at a last row
  tile it reads what the point before left; at a last row tile the outputs receive the updated accumulators.
-/
import proofs.«429900_j26379689132773_3_alg».proof.Proof.KIFrame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of every store and load of the body: zero on both axes. -/
private theorem pieces_off_zero : (![0, 0] : Fin 2 → Nat) = fun _ => 0 := funext fun a => by fin_cases a <;> rfl

/-- First row tile, accumulator 0: the reset store of the minus-infinity splat is covered by the update's store, whose payload's
    load of the accumulator reads that splat back; the loads of the four input buffers read the blocks. -/
theorem sout0_A_0_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x128 .bf16) (x1 : Vec F S1024x128 .bf16) (x2 : Vec F S1024x1 .f32) (x3 : Vec F S1x1024 .f32) (x4 : Vec F S1024x1 .i32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 = k0_pay11 x0 x1 x2 x3 (k0_pay5 (F := F)) := by
  unfold sout0_A_0
  rw [View.read_writes_junk_eq_canon]
  unfold kernelRun0_A
  dsimp only
  sl_unfold_words
  rw [View.canon_cons_unit_zero (S := S1x1024) pieces_off_zero]
  simp only [View.readCov_cons_toLoadRect, View.readAt_eq_ld, harg2.read_unread, harg3.read_unread, harg4.read_unread, harg5.read_unread, harg6.read_unread, harg10.read_unread, harg11.read_unread, harg12.read_unread, View.ld_unit_zero (S := S1024x128) pieces_off_zero, View.ld_unit_zero (S := S1024x1) pieces_off_zero, View.ld_unit_zero (S := S1x1024) pieces_off_zero]

/-- First row tile, accumulator 1: the update's store covers the reset; its payload's load of the accumulator (made before the
    update) reads back the finite stand-in the reset stored. -/
theorem sout0_A_1_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x128 .bf16) (x1 : Vec F S1024x128 .bf16) (x2 : Vec F S1024x1 .f32) (x3 : Vec F S1x1024 .f32) (x4 : Vec F S1024x1 .i32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 = k0_pay4 (k0_pay9 x0 x1 x2 x3) (k0_pay10 i x4) (k0_pay12 (F := F)) (k0_pay6 (F := F)) := by
  unfold sout0_A_1
  rw [View.read_writes_junk_eq_canon]
  unfold kernelRun0_A
  dsimp only
  sl_unfold_words
  rw [View.canon_cons_unit_zero (S := S1x1024) pieces_off_zero]
  simp only [View.readCov_cons_toLoadRect, View.readAt_eq_ld, harg2.read_unread, harg3.read_unread, harg4.read_unread, harg5.read_unread, harg6.read_unread, harg10.read_unread, harg11.read_unread, harg12.read_unread, View.ld_unit_zero (S := S1024x128) pieces_off_zero, View.ld_unit_zero (S := S1024x1) pieces_off_zero, View.ld_unit_zero (S := S1x1024) pieces_off_zero]

/-- First row tile, accumulator 2: three whole-buffer stores, the last covering — zero, then the rescaled sum (over the zero just
    stored and the stand-in read back from accumulator 1), then the rescaled sum plus the tile's sum (over a load that reads the
    second store back). -/
theorem sout0_A_2_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x128 .bf16) (x1 : Vec F S1024x128 .bf16) (x2 : Vec F S1024x1 .f32) (x3 : Vec F S1x1024 .f32) (x4 : Vec F S1024x1 .i32) :
    sout0_A_2 c i arg2 harg2 arg3 harg3 arg4 harg4 arg5 harg5 arg6 harg6 arg7 harg7 arg8 harg8 arg9 harg9 arg10 harg10 arg11 harg11 arg12 harg12 hc0 hc1 x0 x1 x2 x3 x4 = k0_pay3 (k0_pay9 x0 x1 x2 x3) (k0_pay10 i x4) (k0_pay12 (F := F)) (k0_pay6 (F := F)) (k0_pay2 (k0_pay9 x0 x1 x2 x3) (k0_pay10 i x4) (k0_pay12 (F := F)) (k0_pay6 (F := F)) (k0_pay6 (F := F)) (k0_pay7 (F := F))) := by
  unfold sout0_A_2
  rw [View.read_writes_junk_eq_canon]
  unfold kernelRun0_A
  dsimp only
  sl_unfold_words
  rw [View.canon_cons_unit_zero (S := S1x1024) pieces_off_zero]
  simp only [View.readCov_cons_toLoadRect, View.readAt_eq_ld, harg2.read_unread, harg3.read_unread, harg4.read_unread, harg5.read_unread, harg6.read_unread, harg10.read_unread, harg11.read_unread, harg12.read_unread, View.ld_unit_zero (S := S1024x128) pieces_off_zero, View.ld_unit_zero (S := S1024x1) pieces_off_zero, View.ld_unit_zero (S := S1x1024) pieces_off_zero]

/-- Middle row tile, accumulator 0: one covering store, its payload over the input blocks and the accumulator as found. -/
theorem sout0_B_0_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay11 x0 x1 x2 x3 xs0 := by
  unfold sout0_B_0
  rw [View.read_writes_junk_eq_canon]
  unfold kernelRun0_B
  dsimp only
  sl_unfold_words
  rw [View.canon_cons_unit_zero (S := S1x1024) pieces_off_zero]
  simp only [View.readCov_cons_toLoadRect, View.readAt_eq_ld, harg2.read_unread, harg3.read_unread, harg4.read_unread, harg5.read_unread, harg6.read_unread, harg10.read_unread, harg11.read_unread, harg12.read_unread, View.ld_unit_zero (S := S1024x128) pieces_off_zero, View.ld_unit_zero (S := S1024x1) pieces_off_zero, View.ld_unit_zero (S := S1x1024) pieces_off_zero]

/-- Middle row tile, accumulator 1: one covering store; the payload's load of the accumulator precedes it and reads it as found. -/
theorem sout0_B_1_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay4 (k0_pay9 x0 x1 x2 x3) (k0_pay10 i x4) (k0_pay12 (F := F)) xs1 := by
  unfold sout0_B_1
  rw [View.read_writes_junk_eq_canon]
  unfold kernelRun0_B
  dsimp only
  sl_unfold_words
  rw [View.canon_cons_unit_zero (S := S1x1024) pieces_off_zero]
  simp only [View.readCov_cons_toLoadRect, View.readAt_eq_ld, harg2.read_unread, harg3.read_unread, harg4.read_unread, harg5.read_unread, harg6.read_unread, harg10.read_unread, harg11.read_unread, harg12.read_unread, View.ld_unit_zero (S := S1024x128) pieces_off_zero, View.ld_unit_zero (S := S1024x1) pieces_off_zero, View.ld_unit_zero (S := S1x1024) pieces_off_zero]

/-- Middle row tile, accumulator 2: two whole-buffer stores, the later covering; the later payload's load reads the earlier store
    back, and the earlier payload's loads read accumulators 1 and 2 as found. -/
theorem sout0_B_2_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) :
    sout0_B_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay3 (k0_pay9 x0 x1 x2 x3) (k0_pay10 i x4) (k0_pay12 (F := F)) xs1 (k0_pay2 (k0_pay9 x0 x1 x2 x3) (k0_pay10 i x4) (k0_pay12 (F := F)) xs1 xs1 xs2) := by
  unfold sout0_B_2
  rw [View.read_writes_junk_eq_canon]
  unfold kernelRun0_B
  dsimp only
  sl_unfold_words
  rw [View.canon_cons_unit_zero (S := S1x1024) pieces_off_zero]
  simp only [View.readCov_cons_toLoadRect, View.readAt_eq_ld, harg2.read_unread, harg3.read_unread, harg4.read_unread, harg5.read_unread, harg6.read_unread, harg10.read_unread, harg11.read_unread, harg12.read_unread, View.ld_unit_zero (S := S1024x128) pieces_off_zero, View.ld_unit_zero (S := S1024x1) pieces_off_zero, View.ld_unit_zero (S := S1x1024) pieces_off_zero]

/-- Last row tile, accumulator 0: as at a middle row tile. -/
theorem sout0_C_0_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay11 x0 x1 x2 x3 xs0 := by
  unfold sout0_C_0
  rw [View.read_writes_junk_eq_canon]
  unfold kernelRun0_C
  dsimp only
  sl_unfold_words
  rw [View.canon_cons_unit_zero (S := S1x1024) pieces_off_zero]
  simp only [View.readCov_cons_toLoadRect, View.readAt_eq_ld, harg2.read_unread, harg3.read_unread, harg4.read_unread, harg5.read_unread, harg6.read_unread, harg10.read_unread, harg11.read_unread, harg12.read_unread, View.ld_unit_zero (S := S1024x128) pieces_off_zero, View.ld_unit_zero (S := S1024x1) pieces_off_zero, View.ld_unit_zero (S := S1x1024) pieces_off_zero]

/-- Last row tile, accumulator 1: as at a middle row tile. -/
theorem sout0_C_1_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay4 (k0_pay9 x0 x1 x2 x3) (k0_pay10 i x4) (k0_pay12 (F := F)) xs1 := by
  unfold sout0_C_1
  rw [View.read_writes_junk_eq_canon]
  unfold kernelRun0_C
  dsimp only
  sl_unfold_words
  rw [View.canon_cons_unit_zero (S := S1x1024) pieces_off_zero]
  simp only [View.readCov_cons_toLoadRect, View.readAt_eq_ld, harg2.read_unread, harg3.read_unread, harg4.read_unread, harg5.read_unread, harg6.read_unread, harg10.read_unread, harg11.read_unread, harg12.read_unread, View.ld_unit_zero (S := S1024x128) pieces_off_zero, View.ld_unit_zero (S := S1024x1) pieces_off_zero, View.ld_unit_zero (S := S1x1024) pieces_off_zero]

/-- Last row tile, accumulator 2: as at a middle row tile. -/
theorem sout0_C_2_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) :
    sout0_C_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay3 (k0_pay9 x0 x1 x2 x3) (k0_pay10 i x4) (k0_pay12 (F := F)) xs1 (k0_pay2 (k0_pay9 x0 x1 x2 x3) (k0_pay10 i x4) (k0_pay12 (F := F)) xs1 xs1 xs2) := by
  unfold sout0_C_2
  rw [View.read_writes_junk_eq_canon]
  unfold kernelRun0_C
  dsimp only
  sl_unfold_words
  rw [View.canon_cons_unit_zero (S := S1x1024) pieces_off_zero]
  simp only [View.readCov_cons_toLoadRect, View.readAt_eq_ld, harg2.read_unread, harg3.read_unread, harg4.read_unread, harg5.read_unread, harg6.read_unread, harg10.read_unread, harg11.read_unread, harg12.read_unread, View.ld_unit_zero (S := S1024x128) pieces_off_zero, View.ld_unit_zero (S := S1024x1) pieces_off_zero, View.ld_unit_zero (S := S1x1024) pieces_off_zero]

/-- Last row tile, output 5: one covering store of a load of accumulator 0 made after its update, which reads the update back. -/
theorem out0_C_5_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) :
    out0_C_5 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay11 x0 x1 x2 x3 xs0 := by
  unfold out0_C_5
  rw [View.read_writes_junk_eq_canon]
  unfold kernelRun0_C
  dsimp only
  sl_unfold_words
  rw [View.canon_cons_unit_zero (S := S1x1024) pieces_off_zero]
  simp only [View.readCov_cons_toLoadRect, View.readAt_eq_ld, harg2.read_unread, harg3.read_unread, harg4.read_unread, harg5.read_unread, harg6.read_unread, harg10.read_unread, harg11.read_unread, harg12.read_unread, View.ld_unit_zero (S := S1024x128) pieces_off_zero, View.ld_unit_zero (S := S1024x1) pieces_off_zero, View.ld_unit_zero (S := S1x1024) pieces_off_zero]

/-- Last row tile, output 6: one covering store of a load of accumulator 1 made after its update. -/
theorem out0_C_6_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) :
    out0_C_6 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay4 (k0_pay9 x0 x1 x2 x3) (k0_pay10 i x4) (k0_pay12 (F := F)) xs1 := by
  unfold out0_C_6
  rw [View.read_writes_junk_eq_canon]
  unfold kernelRun0_C
  dsimp only
  sl_unfold_words
  rw [View.canon_cons_unit_zero (S := S1x1024) pieces_off_zero]
  simp only [View.readCov_cons_toLoadRect, View.readAt_eq_ld, harg2.read_unread, harg3.read_unread, harg4.read_unread, harg5.read_unread, harg6.read_unread, harg10.read_unread, harg11.read_unread, harg12.read_unread, View.ld_unit_zero (S := S1024x128) pieces_off_zero, View.ld_unit_zero (S := S1024x1) pieces_off_zero, View.ld_unit_zero (S := S1x1024) pieces_off_zero]

/-- Last row tile, output 7: one covering store of a load of accumulator 2 made after its two stores, which reads the later one back. -/
theorem out0_C_7_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x128 .bf16) (x1 : Vec F S1024x128 .bf16) (x2 : Vec F S1024x1 .f32) (x3 : Vec F S1x1024 .f32) (x4 : Vec F S1024x1 .i32) (xs0 xs1 xs2 : Vec F S1x1024 .f32) :
    out0_C_7 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay3 (k0_pay9 x0 x1 x2 x3) (k0_pay10 i x4) (k0_pay12 (F := F)) xs1 (k0_pay2 (k0_pay9 x0 x1 x2 x3) (k0_pay10 i x4) (k0_pay12 (F := F)) xs1 xs1 xs2) := by
  unfold out0_C_7
  rw [View.read_writes_junk_eq_canon]
  unfold kernelRun0_C
  dsimp only
  sl_unfold_words
  rw [View.canon_cons_unit_zero (S := S1x1024) pieces_off_zero]
  simp only [View.readCov_cons_toLoadRect, View.readAt_eq_ld, harg2.read_unread, harg3.read_unread, harg4.read_unread, harg5.read_unread, harg6.read_unread, harg10.read_unread, harg11.read_unread, harg12.read_unread, View.ld_unit_zero (S := S1024x128) pieces_off_zero, View.ld_unit_zero (S := S1024x1) pieces_off_zero, View.ld_unit_zero (S := S1x1024) pieces_off_zero]

end Cert.KernelIdeal.Gen

end
-- ==== Proof.Spec.lean ====
/-
  The mathematics of the proxy mutual-likelihood-score loss, over the reals.

  Inputs: embeddings `e : 4096 × 64`, labels `lab : 4096 → {0,…,8191}`, proxy means `mu : 8192 × 64` and proxy
  log-variances `lv : 8192 × 64`.  With `w j d = exp (-lv j d)` the score of embedding `i` against proxy `j` is
  `score i j = -(1/2) · (Σ_d e i d² · w j d − 2 · Σ_d e i d · (mu j d · w j d) + Σ_d (mu j d² · w j d + lv j d))`,
  the two exponents are `posE = -32 · (score − c)` and `negE = 32 · (score + c)` with `c` the single-precision
  value of one tenth, `gmax` is the largest `posE` over the whole matrix, and the loss is
  `(Σ_j (log (1 + possum j) + gmax)) / nvalid + (Σ_j (log (1 + negsum j) + gmax)) / 8192`
  where `possum j` sums `exp (posE i j − gmax)` over the rows labelled `j`, `negsum j` sums `exp (negE i j − gmax)`
  over the rows NOT labelled `j`, and `nvalid` counts the labels that occur.  Both programs compute this number:
  the reference literally, the kernel through per-column running maxima and rescaled partial sums.
-/
import Idealize.ShloMosaic.PureOps.Ideal

noncomputable section

namespace Cert.Spec

open Finset

/-- The single-precision value of one tenth, `0x3DCCCCCD`: `13421773 / 2^27`. -/
def c01 : ℝ := 13421773 / 134217728

/-- The finite stand-in for minus infinity of the kernel's second running maximum, `0xFF333332`:
    `-(11744050 · 2^104)`.  Its value never matters beyond being a real number. -/
def negBig : ℝ := -(11744050 * 2 ^ 104)

variable (e : Fin 4096 → Fin 64 → ℝ) (lab : Fin 4096 → Fin 8192) (mu lv : Fin 8192 → Fin 64 → ℝ)

/-- The inverse variance `exp (-lv j d)`. -/
def ivar (j : Fin 8192) (d : Fin 64) : ℝ := Real.exp (-(lv j d))

/-- `Σ_d e i d² · w j d`. -/
def sqTerm (i : Fin 4096) (j : Fin 8192) : ℝ := ∑ d, (e i d * e i d) * ivar lv j d

/-- `Σ_d e i d · (mu j d · w j d)`. -/
def crossTerm (i : Fin 4096) (j : Fin 8192) : ℝ := ∑ d, e i d * (mu j d * ivar lv j d)

/-- `Σ_d (mu j d² · w j d + lv j d)`. -/
def constTerm (j : Fin 8192) : ℝ := ∑ d, (mu j d * mu j d * ivar lv j d + lv j d)

/-- The mutual likelihood score of row `i` against proxy `j`. -/
def score (i : Fin 4096) (j : Fin 8192) : ℝ :=
  -(1 / 2) * (sqTerm e lv i j - 2 * crossTerm e mu lv i j + constTerm mu lv j)

/-- The positive-pair exponent. -/
def posE (i : Fin 4096) (j : Fin 8192) : ℝ := -32 * (score e mu lv i j - c01)

/-- The negative-pair exponent. -/
def negE (i : Fin 4096) (j : Fin 8192) : ℝ := 32 * (score e mu lv i j + c01)

/-- The largest positive-pair exponent of column `j`. -/
def colMax (j : Fin 8192) : ℝ := univ.sup' univ_nonempty (fun i => posE e mu lv i j)

/-- The largest positive-pair exponent of the whole matrix. -/
def gmax : ℝ := univ.sup' univ_nonempty (colMax e mu lv)

/-- Column `j`'s sum of `exp (posE − gmax)` over the rows labelled `j`. -/
def possum (j : Fin 8192) : ℝ := ∑ i, if lab i = j then Real.exp (posE e mu lv i j - gmax e mu lv) else 0

/-- Column `j`'s sum of `exp (negE − gmax)` over the rows not labelled `j`. -/
def negsum (j : Fin 8192) : ℝ := ∑ i, if lab i = j then 0 else Real.exp (negE e mu lv i j - gmax e mu lv)

/-- How many labels occur. -/
def nvalid : ℕ := (univ.filter fun j : Fin 8192 => ∃ i, lab i = j).card

/-- `Σ_j (log (1 + possum j) + gmax)`. -/
def sumP : ℝ := ∑ j, (Real.log (1 + possum e lab mu lv j) + gmax e mu lv)

/-- `Σ_j (log (1 + negsum j) + gmax)`. -/
def sumN : ℝ := ∑ j, (Real.log (1 + negsum e lab mu lv j) + gmax e mu lv)

/-- The loss, as the extended real both programs end with: the two quotients by the extended reals' division
    (the first divisor is positive whenever some label occurs; neither side ever opens the quotient). -/
def loss : EReal :=
  Idealize.ShloMosaic.Ideal.div ((sumP e lab mu lv : ℝ) : EReal) (((nvalid lab : ℕ) : ℝ) : EReal)
    + Idealize.ShloMosaic.Ideal.div ((sumN e lab mu lv : ℝ) : EReal) ((8192 : ℝ) : EReal)

/-! ### What the kernel leaves per column: the second running maximum and the rescaled partial sum -/

/-- The kernel's own maximum of the negative-pair exponents of column `j` over the rows not labelled `j`,
    started at (and masked by) the finite stand-in. -/
def negMax (j : Fin 8192) : ℝ :=
  max negBig (univ.sup' univ_nonempty (fun i => if lab i = j then negBig else negE e mu lv i j))

/-- The kernel's partial sum of column `j`: `exp (negE − negMax j)` over the rows not labelled `j`. -/
def negAcc (j : Fin 8192) : ℝ := ∑ i, if lab i = j then 0 else Real.exp (negE e mu lv i j - negMax e lab mu lv j)

/-- The row's own positive-pair exponent computed from the difference to its own proxy:
    `-32 · (-(1/2) · (Σ_d (e i d − mu (lab i) d)² · w (lab i) d + Σ_d lv (lab i) d) − c)`. -/
def posOwn (i : Fin 4096) : ℝ :=
  -32 * (-(1 / 2) * ((∑ d, (e i d - mu (lab i) d) * (e i d - mu (lab i) d) * ivar lv (lab i) d) + ∑ d, lv (lab i) d) - c01)

end Cert.Spec

end
-- ==== Proof.BodyMath.lean ====
/-
  The kernel body's arithmetic at one grid point, read entry by entry on the extended reals.

  At column tile `c` and row tile `n` the body forms, for row `r` and column `q` of the tile, the positive-pair
  exponent `x8 r + Σ_k x3 r k · x5 q k + x12 q`, the negative-pair exponent (a constant minus it), the mask
  "label of row `r` is column `c · 1024 + q`", and from them, per column `q`: the running maximum of the
  positive-pair exponents, the running own maximum of the masked negative-pair exponents, the old partial sum
  rescaled by `exp (old maximum − new maximum)`, and the partial sum plus `Σ_r exp (negative-pair exponent − new
  maximum)` over the unmasked rows.  Each statement below gives one of these values at explicit coordinates
  `r q : Fin 1024`; the float constants are evaluated only where a real number is asked for.
-/
import proofs.«429900_j26379689132773_3_alg».proof.Proof.Gen.KernelIdeal.Skeleton
import proofs.«429900_j26379689132773_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.ValueIdx Cert.KernelIdeal Cert.KernelIdeal.Gen
open scoped BigOperators

/-! ## The contraction's operand indices, axis by axis -/

theorem lhs_dot_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl

theorem lhs_dot_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q

theorem rhs_dot_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl

theorem rhs_dot_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- The product of the two operand tiles into a zero accumulator, read at row `r` and column `q`: the sum over the
    128 shared coordinates of the left operand's row `r` times the right operand's row `q`. -/
theorem matmul_zero_apply (a b : FVec Ideal S1024x128 .bf16) (r q : Fin 1024) :
    matmul (F := Ideal) dot_S1024x128_S1024x128_S1024x1024_1_1_0_0_n_n none a b (constant (F := Ideal) S1024x1024 .f32 0x00000000#32) (ix2 r q)
      = ∑ k : Fin 128, a (ix2 r k) * b (ix2 q k) := by
  simp only [matmul]
  rw [Ideal.matmul_constant_zero_apply, ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 r q) ((contrEquiv1 dot_S1024x128_S1024x128_S1024x1024_1_1_0_0_n_n 128 rfl rfl).symm k) = ix2 r k := funext fun a => Fin.ext (by
    match a with
    | ⟨0, _⟩ => exact lhs_dot_0 _ _
    | ⟨1, _⟩ => exact (lhs_dot_1 _ _).trans hk)
  have er : dot_S1024x128_S1024x128_S1024x1024_1_1_0_0_n_n.rhsIdx (ix2 r q) ((contrEquiv1 dot_S1024x128_S1024x128_S1024x1024_1_1_0_0_n_n 128 rfl rfl).symm k) = ix2 q k := funext fun a => Fin.ext (by
    match a with
    | ⟨0, _⟩ => exact rhs_dot_0 _ _
    | ⟨1, _⟩ => exact (rhs_dot_1 _ _).trans hk)
  rw [el, er]

/-! ## A column broadcast over many -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The positive-pair exponent tile and the negative-pair exponent tile -/

/-- The positive-pair exponent tile at row `r`, column `q`: the row's term plus the contraction plus the column's term. -/
theorem pay8_apply (x3 x5 : Vec Ideal S1024x128 .bf16) (x8 : Vec Ideal S1024x1 .f32) (x12 : Vec Ideal S1x1024 .f32)
    (r q : Fin 1024) :
    k0_pay8 (F := Ideal) x3 x5 x8 x12 (ix2 r q)
      = (x8 (ix2 r 0) + ∑ k : Fin 128, x3 (ix2 r k) * x5 (ix2 q k)) + x12 (ix2 0 q) := by
  unfold k0_pay8
  simp only [shapeCast_self]
  rw [addf_apply, addf_apply, broadcastTo_a1_ab_apply, broadcastTo_1b_ab_apply, matmul_zero_apply]

/-- The negative-pair exponent tile: the constant minus the positive-pair exponent. -/
theorem pay9_apply (x3 x5 : Vec Ideal S1024x128 .bf16) (x8 : Vec Ideal S1024x1 .f32) (x12 : Vec Ideal S1x1024 .f32)
    (r q : Fin 1024) :
    k0_pay9 (F := Ideal) x3 x5 x8 x12 (ix2 r q)
      = Ideal.ofBits .f32 0x40CCCCCD#32 - k0_pay8 (F := Ideal) x3 x5 x8 x12 (ix2 r q) := by
  unfold k0_pay9
  rfl

/-! ## The label mask -/

/-- An integer comparison at an index compares the elements. -/
theorem cmpi_apply {s : Shape} {w : Nat} (p : CmpIPredicate) (a b : IVec s w) (i : s.Idx) :
    cmpi p a b i = IntOp.cmpi p (a i) (b i) := rfl
/-- An integer sum at an index adds the elements. -/
theorem addi_apply {s : Shape} {w : Nat} (a b : IVec s w) (i : s.Idx) : addi a b i = IntOp.addi (a i) (b i) := rfl

/-- The mask at row `r`, column `q` of column tile `i 0`: whether the row's label is the tile's first column
    number plus `q` (as 32-bit words; the product and the sum are the words of the product and the sum). -/
theorem pay10_apply (i : grid0.Coords) (x22 : Vec Ideal S1024x1 .i32) (r q : Fin 1024) :
    k0_pay10 (F := Ideal) i x22 (ix2 r q)
      = (if x22 (ix2 r 0) = BitVec.ofNat 32 ((i 0).val * 1024 + q.val) then 1#1 else 0#1) := by
  unfold k0_pay10
  simp only [shapeCast_self]
  rw [cmpi_apply, broadcastTo_a1_ab_apply, broadcastTo_1b_ab_apply, addi_apply, broadcast_apply, iota_single_apply]
  show IntOp.cmpi CmpIPredicate.eq (x22 (ix2 r 0))
      (BitVec.ofNat 32 (i 0).val * BitVec.ofNat 32 1024 + BitVec.ofNat 32 q.val) = _
  rw [← BitVec.ofNat_mul, ← BitVec.ofNat_add]
  unfold IntOp.cmpi
  by_cases h : x22 (ix2 r 0) = BitVec.ofNat 32 ((i 0).val * 1024 + q.val)
  · rw [if_pos h, h]; simp
  · rw [if_neg h, beq_eq_false_iff_ne.mpr h]; rfl

/-! ## Column maxima and column sums -/

/-- The fold of `max` from `b` over a finite set is the larger of `b` and the set's supremum. -/
theorem fold_max_eq_max_sup {ι : Type} (s : Finset ι) (b : EReal) (f : ι → EReal) :
    s.fold max b f = max b (s.sup f) := by
  classical
  induction s using Finset.induction_on with
  | empty => simp
  | insert a s ha ih =>
    rw [Finset.fold_insert ha, Finset.sup_insert, ih]
    exact max_left_comm _ _ _

/-- The single-precision pattern of minus infinity denotes `⊥`. -/
theorem ofBits_negInf : Ideal.ofBits .f32 0xFF800000#32 = ⊥ := by
  simp [Ideal.ofBits, Ideal.ieee]

/-- The column maximum, started at minus infinity, read at column `q`: the supremum over the 1024 rows. -/
theorem colmax_apply (src : FVec Ideal S1024x1024 .f32) (q : Fin 1024) :
    shapeCast S1x1024 (multiReduction (F := Ideal) .maximumf [0] S1024 src 0xFF800000#32 reduces_S1024x1024_S1024 (.inl rfl) rfl)
        shapeCasts_S1024_S1x1024 (ix2 0 q)
      = Finset.univ.sup fun r : Fin 1024 => src (ix2 r q) := by
  rw [shapeCast_a_1a_apply]
  refine (Ideal.multiReduction_maximumf_single src 0xFF800000#32 reduces_S1024x1024_S1024 (.inl rfl) rfl (ix1 q)).trans ?_
  have hl : (src ∘ reduces_S1024x1024_S1024.lift (ix1 q)) = fun r : Fin 1024 => src (ix2 r q) :=
    funext fun r => congrArg src (funext fun a => Fin.ext (by
      match a with
      | ⟨0, _⟩ => rfl
      | ⟨1, _⟩ => rfl))
  rw [hl]
  show (Finset.univ : Finset (Fin 1024)).fold max (Ideal.ofBits .f32 0xFF800000#32) _ = _
  rw [ofBits_negInf, fold_max_eq_max_sup, max_bot_left]

/-- The column sum, started at zero, read at column `q`: the sum over the 1024 rows. -/
theorem colsum_apply (src : FVec Ideal S1024x1024 .f32) (q : Fin 1024) :
    shapeCast S1x1024 (multiReduction (F := Ideal) .add [0] S1024 src 0x00000000#32 reduces_S1024x1024_S1024 (.inl rfl) rfl)
        shapeCasts_S1024_S1x1024 (ix2 0 q)
      = ∑ r : Fin 1024, src (ix2 r q) := by
  rw [shapeCast_a_1a_apply]
  refine (Ideal.multiReduction_add_single src 0x00000000#32 reduces_S1024x1024_S1024 (.inl rfl) rfl (ix1 q)).trans ?_
  exact Finset.sum_congr rfl fun r _ => congrArg src (funext fun a => Fin.ext (by
    match a with
    | ⟨0, _⟩ => rfl
    | ⟨1, _⟩ => rfl))

/-! ## The running maxima, the rescaled partial sum and the new partial sum -/

/-- The running maximum of the positive-pair exponents after this tile, at column `q`. -/
theorem pay11_apply (x3 x5 : Vec Ideal S1024x128 .bf16) (x8 : Vec Ideal S1024x1 .f32) (x12 : Vec Ideal S1x1024 .f32)
    (v29 : Vec Ideal S1x1024 .f32) (q : Fin 1024) :
    k0_pay11 (F := Ideal) x3 x5 x8 x12 v29 (ix2 0 q)
      = max (v29 (ix2 0 q)) (Finset.univ.sup fun r : Fin 1024 => k0_pay8 (F := Ideal) x3 x5 x8 x12 (ix2 r q)) := by
  unfold k0_pay11
  simp only [shapeCast_self]
  rw [maximumf_apply]
  exact congrArg (max _) (colmax_apply (k0_pay8 (F := Ideal) x3 x5 x8 x12) q)

/-- The running own maximum of the masked negative-pair exponents after this tile, at column `q`. -/
theorem pay1_apply (v17 v34 : FVec Ideal S1024x1024 .f32) (v26 : IVec S1024x1024 1) (v38 : Vec Ideal S1x1024 .f32)
    (q : Fin 1024) :
    k0_pay1 (F := Ideal) v17 v26 v34 v38 (ix2 0 q)
      = max (v38 (ix2 0 q))
          (Finset.univ.sup fun r : Fin 1024 => if v26 (ix2 r q) = 1#1 then v34 (ix2 r q) else v17 (ix2 r q)) := by
  unfold k0_pay1
  rw [maximumf_apply]
  exact congrArg (max _) (colmax_apply (select v26 v34 v17) q)

/-- The old partial sum rescaled to the new maximum, at column `q`. -/
theorem pay2_apply (v17 v34 : FVec Ideal S1024x1024 .f32) (v26 : IVec S1024x1024 1) (v38 v40 v43 : Vec Ideal S1x1024 .f32)
    (q : Fin 1024) :
    k0_pay2 (F := Ideal) v17 v26 v34 v38 v40 v43 (ix2 0 q)
      = v43 (ix2 0 q) * Ideal.exp (v40 (ix2 0 q) - k0_pay1 (F := Ideal) v17 v26 v34 v38 (ix2 0 q)) := by
  unfold k0_pay2
  simp only [shapeCast_self]
  rfl

/-- The partial sum plus this tile's unmasked terms, at column `q`. -/
theorem pay3_apply (v17 v34 : FVec Ideal S1024x1024 .f32) (v26 : IVec S1024x1024 1) (v38 v53 : Vec Ideal S1x1024 .f32)
    (q : Fin 1024) :
    k0_pay3 (F := Ideal) v17 v26 v34 v38 v53 (ix2 0 q)
      = v53 (ix2 0 q) + ∑ r : Fin 1024, (if v26 (ix2 r q) = 1#1 then (0 : EReal)
          else Ideal.exp (v17 (ix2 r q) - k0_pay1 (F := Ideal) v17 v26 v34 v38 (ix2 0 q))) := by
  unfold k0_pay3
  simp only [shapeCast_self]
  rw [addf_apply]
  refine congrArg (v53 (ix2 0 q) + ·) ((colsum_apply _ q).trans (Finset.sum_congr rfl fun r _ => ?_))
  rw [select_apply, broadcast_apply]
  show (if v26 (ix2 r q) = 1#1 then Ideal.ofBits .f32 0x00000000#32
      else Ideal.exp (v17 (ix2 r q) - broadcastTo S1024x1024 (k0_pay1 (F := Ideal) v17 v26 v34 v38) broadcasts_S1x1024_S1024x1024 (ix2 r q))) = _
  rw [Ideal.ofBits_zero_f32, broadcastTo_1b_ab_apply]

/-- The stored own maximum is the new own maximum. -/
theorem pay4_apply (v17 v34 : FVec Ideal S1024x1024 .f32) (v26 : IVec S1024x1024 1) (v38 : Vec Ideal S1x1024 .f32)
    (q : Fin 1024) :
    k0_pay4 (F := Ideal) v17 v26 v34 v38 (ix2 0 q) = k0_pay1 (F := Ideal) v17 v26 v34 v38 (ix2 0 q) := by
  unfold k0_pay4
  rw [shapeCast_self]

/-! ## The constants -/

/-- The initial running maximum is minus infinity. -/
theorem pay5_apply (q : Fin 1024) : k0_pay5 (F := Ideal) (ix2 0 q) = ⊥ := by
  unfold k0_pay5
  rw [shapeCast_self]
  exact ofBits_negInf

/-- The pattern `0xFF333332` denotes `-(11744050 · 2^104)`. -/
theorem ofBits_negBig : Ideal.ofBits .f32 0xFF333332#32 = ((Cert.Spec.negBig : ℝ) : EReal) := by
  simp [Ideal.ofBits, Ideal.ieee, Cert.Spec.negBig, -EReal.coe_mul]

/-- The initial own maximum is the finite stand-in. -/
theorem pay6_apply (q : Fin 1024) : k0_pay6 (F := Ideal) (ix2 0 q) = ((Cert.Spec.negBig : ℝ) : EReal) := by
  unfold k0_pay6
  rw [shapeCast_self]
  exact ofBits_negBig

/-- The initial partial sum is zero. -/
theorem pay7_apply (q : Fin 1024) : k0_pay7 (F := Ideal) (ix2 0 q) = 0 := by
  unfold k0_pay7
  rw [shapeCast_self]
  exact Ideal.ofBits_zero_f32

/-- The mask's replacement value is the finite stand-in everywhere. -/
theorem pay12_apply (r q : Fin 1024) : k0_pay12 (F := Ideal) (ix2 r q) = ((Cert.Spec.negBig : ℝ) : EReal) := by
  unfold k0_pay12
  exact ofBits_negBig

/-- The pattern `0x40CCCCCD` denotes `13421773 / 2^21`, sixty-four times the single-precision tenth. -/
theorem lit64 : Ideal.ofBits .f32 0x40CCCCCD#32 = ((64 * Cert.Spec.c01 : ℝ) : EReal) := by
  simp [Ideal.ofBits, Ideal.ieee, Cert.Spec.c01, -EReal.coe_mul]; norm_num

end Cert.KernelIdeal.Hand

end
-- ==== Proof.Recurrence.lean ====
/-
  One column of the kernel's walk over the rows, as mathematics over the extended reals.

  The 4096 rows are visited in four tiles of 1024 rows; tile `n` holds the rows `1024·n + r`, `r < 1024`.  For a fixed
  column `j` three numbers are carried from tile to tile:

  * `P`, the running maximum of the positive-pair exponents, started at `−∞`;
  * `M`, the running maximum of the masked negative-pair exponents (a row labelled `j` contributes the finite
    stand-in `negBig` instead of its exponent), started at `negBig`;
  * `A`, the partial sum of `exp (negE − M)` over the rows not labelled `j`, started at `0` and rescaled by
    `exp (M − M')` whenever the maximum moves from `M` to `M'`.

  After `n` tiles each of the three is the corresponding quantity of the first `1024·n` rows: the maximum over
  the prefix, the masked maximum over the prefix, and the sum over the prefix taken against the CURRENT maximum
  (`exp (a − m) · exp (m − m') = exp (a − m')`).  After the four tiles the prefix is every row, which gives
  `colMax`, `negMax` and `negAcc` of the specification.
-/
import proofs.«429900_j26379689132773_3_alg».proof.Proof.Spec
import Mathlib.Data.EReal.Inv
import Mathlib.Data.Finset.Lattice.Fold
import Mathlib.Algebra.BigOperators.Group.Finset.Basic
import Mathlib.Analysis.SpecialFunctions.Exp

noncomputable section

namespace Cert.Rec

open Finset

/-! ### Rows, tiles and prefixes -/

/-- Row `1024·n + r`: the `r`-th row of tile `n`. -/
def row (n : Fin 4) (r : Fin 1024) : Fin 4096 := ⟨1024 * n.val + r.val, by omega⟩

theorem row_val (n : Fin 4) (r : Fin 1024) : (row n r).val = 1024 * n.val + r.val := rfl

theorem row_injective (n : Fin 4) : Function.Injective (row n) := by
  intro a b h
  have h' := congrArg Fin.val h
  simp only [row_val] at h'
  exact Fin.ext (by omega)

/-- The rows of the first `n` tiles. -/
def pre (n : ℕ) : Finset (Fin 4096) := univ.filter fun i => i.val < 1024 * n

theorem mem_pre {n : ℕ} {i : Fin 4096} : i ∈ pre n ↔ i.val < 1024 * n := by
  simp only [pre, mem_filter, mem_univ, true_and]

theorem pre_zero : pre 0 = ∅ := by
  ext i
  simp only [mem_pre, Nat.mul_zero, Nat.not_lt_zero, notMem_empty]

theorem pre_four : pre 4 = univ := by
  ext i
  simp only [mem_pre, mem_univ, iff_true]
  omega

/-- The first `n + 1` tiles are the first `n` tiles together with tile `n`. -/
theorem pre_succ (n : Fin 4) : pre (n.val + 1) = pre n.val ∪ univ.image (row n) := by
  ext i
  simp only [mem_pre, mem_union, mem_image, mem_univ, true_and]
  constructor
  · intro h
    by_cases h' : i.val < 1024 * n.val
    · exact Or.inl h'
    · refine Or.inr ⟨⟨i.val - 1024 * n.val, by omega⟩, Fin.ext ?_⟩
      simp only [row_val]
      omega
  · rintro (h | ⟨r, rfl⟩)
    · omega
    · simp only [row_val]
      omega

theorem pre_disjoint (n : Fin 4) : Disjoint (pre n.val) (univ.image (row n)) := by
  rw [Finset.disjoint_left]
  intro i hi hi'
  rw [mem_pre] at hi
  obtain ⟨r, -, rfl⟩ := mem_image.mp hi'
  simp only [row_val] at hi
  omega

theorem pre_nonempty {n : ℕ} (hn : 1 ≤ n) : (pre n).Nonempty :=
  ⟨⟨0, by omega⟩, mem_pre.mpr (by show 0 < 1024 * n; omega)⟩

/-- A supremum over the first `n + 1` tiles splits off tile `n`. -/
theorem sup_pre_succ (n : Fin 4) (f : Fin 4096 → EReal) :
    (pre (n.val + 1)).sup f = max ((pre n.val).sup f) (univ.sup fun r : Fin 1024 => f (row n r)) := by
  rw [pre_succ, sup_union, sup_image]
  rfl

/-- A sum over the first `n + 1` tiles splits off tile `n`. -/
theorem sum_pre_succ (n : Fin 4) (f : Fin 4096 → ℝ) :
    ∑ i ∈ pre (n.val + 1), f i = ∑ i ∈ pre n.val, f i + ∑ r : Fin 1024, f (row n r) := by
  rw [pre_succ, sum_union (pre_disjoint n), sum_image ((row_injective n).injOn)]

/-! ### Real numbers inside the extended reals -/

theorem coe_max (a b : ℝ) : ((max a b : ℝ) : EReal) = max (a : EReal) (b : EReal) :=
  EReal.coe_strictMono.monotone.map_max

/-- The supremum of finitely many (at least one) real numbers, taken in the extended reals, is their real maximum. -/
theorem sup_coe {ι : Type*} (s : Finset ι) (h : s.Nonempty) (f : ι → ℝ) :
    (s.sup fun i => ((f i : ℝ) : EReal)) = ((s.sup' h f : ℝ) : EReal) := by
  rw [← sup'_eq_sup h, Finset.comp_sup'_eq_sup'_comp h (fun x : ℝ => (x : EReal)) (fun x y => coe_max x y)]
  rfl

/-- A finite sum of real numbers is the same number in the extended reals. -/
theorem coe_sum {ι : Type*} (s : Finset ι) (f : ι → ℝ) :
    ((∑ i ∈ s, f i : ℝ) : EReal) = ∑ i ∈ s, ((f i : ℝ) : EReal) := by
  classical
  induction s using Finset.induction_on with
  | empty => simp only [sum_empty, EReal.coe_zero]
  | insert a s ha ih => rw [sum_insert ha, sum_insert ha, EReal.coe_add, ih]

variable (e : Fin 4096 → Fin 64 → ℝ) (lab : Fin 4096 → Fin 8192) (mu lv : Fin 8192 → Fin 64 → ℝ) (j : Fin 8192)

/-! ### The three carried numbers -/

/-- The running maximum of the positive-pair exponents after `n` tiles. -/
def stP : ℕ → EReal
  | 0 => ⊥
  | n + 1 =>
    if h : n < 4 then
      max (stP n) (univ.sup fun r : Fin 1024 => ((Cert.Spec.posE e mu lv (row ⟨n, h⟩ r) j : ℝ) : EReal))
    else stP n

/-- The running maximum of the masked negative-pair exponents after `n` tiles. -/
def stM : ℕ → EReal
  | 0 => ((Cert.Spec.negBig : ℝ) : EReal)
  | n + 1 =>
    if h : n < 4 then
      max (stM n) (univ.sup fun r : Fin 1024 =>
        if lab (row ⟨n, h⟩ r) = j then ((Cert.Spec.negBig : ℝ) : EReal)
        else ((Cert.Spec.negE e mu lv (row ⟨n, h⟩ r) j : ℝ) : EReal))
    else stM n

/-- The rescaled partial sum after `n` tiles. -/
def stA : ℕ → EReal
  | 0 => 0
  | n + 1 =>
    if h : n < 4 then
      stA n * Idealize.ShloMosaic.Ideal.exp (stM e lab mu lv j n - stM e lab mu lv j (n + 1))
        + ∑ r : Fin 1024,
            (if lab (row ⟨n, h⟩ r) = j then (0 : EReal)
             else Idealize.ShloMosaic.Ideal.exp
                    (((Cert.Spec.negE e mu lv (row ⟨n, h⟩ r) j : ℝ) : EReal) - stM e lab mu lv j (n + 1)))
    else stA n

theorem stP_zero : stP e mu lv j 0 = ⊥ := rfl

theorem stP_succ (n : Fin 4) :
    stP e mu lv j (n.val + 1)
      = max (stP e mu lv j n.val)
          (univ.sup fun r : Fin 1024 => ((Cert.Spec.posE e mu lv (row n r) j : ℝ) : EReal)) := by
  rw [stP, dif_pos n.isLt]

theorem stM_zero : stM e lab mu lv j 0 = ((Cert.Spec.negBig : ℝ) : EReal) := rfl

theorem stM_succ (n : Fin 4) :
    stM e lab mu lv j (n.val + 1)
      = max (stM e lab mu lv j n.val)
          (univ.sup fun r : Fin 1024 =>
            if lab (row n r) = j then ((Cert.Spec.negBig : ℝ) : EReal)
            else ((Cert.Spec.negE e mu lv (row n r) j : ℝ) : EReal)) := by
  rw [stM, dif_pos n.isLt]

theorem stA_zero : stA e lab mu lv j 0 = 0 := rfl

theorem stA_succ (n : Fin 4) :
    stA e lab mu lv j (n.val + 1)
      = stA e lab mu lv j n.val
          * Idealize.ShloMosaic.Ideal.exp (stM e lab mu lv j n.val - stM e lab mu lv j (n.val + 1))
        + ∑ r : Fin 1024,
            (if lab (row n r) = j then (0 : EReal)
             else Idealize.ShloMosaic.Ideal.exp
                    (((Cert.Spec.negE e mu lv (row n r) j : ℝ) : EReal) - stM e lab mu lv j (n.val + 1))) := by
  rw [stA, dif_pos n.isLt]

/-! ### The running maximum of the positive-pair exponents -/

/-- After `n` tiles `P` is the supremum of the positive-pair exponents of the first `1024·n` rows. -/
theorem stP_eq_sup : ∀ n : ℕ, n ≤ 4 →
    stP e mu lv j n = (pre n).sup fun i => ((Cert.Spec.posE e mu lv i j : ℝ) : EReal) := by
  intro n
  induction n with
  | zero => intro _; rw [stP_zero, pre_zero, sup_empty]
  | succ k ih =>
    intro hk
    have hk' : k < 4 := by omega
    have hs := stP_succ e mu lv j ⟨k, hk'⟩
    have hp := sup_pre_succ ⟨k, hk'⟩ fun i => ((Cert.Spec.posE e mu lv i j : ℝ) : EReal)
    simp only at hs hp
    rw [hs, hp, ih (by omega)]

theorem stP_final : stP e mu lv j 4 = ((Cert.Spec.colMax e mu lv j : ℝ) : EReal) := by
  rw [stP_eq_sup e mu lv j 4 (le_refl 4), pre_four, sup_coe univ univ_nonempty]
  rfl

/-- From the first tile on `P` is a real number. -/
theorem stP_real (n : ℕ) (h1 : 1 ≤ n) (h4 : n ≤ 4) : ∃ x : ℝ, stP e mu lv j n = (x : EReal) :=
  ⟨_, by rw [stP_eq_sup e mu lv j n h4, sup_coe (pre n) (pre_nonempty h1)]⟩

/-! ### The running maximum of the masked negative-pair exponents -/

/-- The masked negative-pair exponent of row `i`: the stand-in on a row labelled `j`. -/
def msk (i : Fin 4096) : ℝ := if lab i = j then Cert.Spec.negBig else Cert.Spec.negE e mu lv i j

theorem coe_msk (i : Fin 4096) :
    (if lab i = j then ((Cert.Spec.negBig : ℝ) : EReal) else ((Cert.Spec.negE e mu lv i j : ℝ) : EReal))
      = ((msk e lab mu lv j i : ℝ) : EReal) := by
  unfold msk
  split_ifs <;> rfl

/-- The real number that `M` is after `n` tiles. -/
def mR : ℕ → ℝ
  | 0 => Cert.Spec.negBig
  | n + 1 =>
    if h : n < 4 then
      max (mR n) (univ.sup' univ_nonempty fun r : Fin 1024 => msk e lab mu lv j (row ⟨n, h⟩ r))
    else mR n

theorem mR_succ (n : Fin 4) :
    mR e lab mu lv j (n.val + 1)
      = max (mR e lab mu lv j n.val)
          (univ.sup' univ_nonempty fun r : Fin 1024 => msk e lab mu lv j (row n r)) := by
  rw [mR, dif_pos n.isLt]

/-- `M` is a real number at every stage. -/
theorem stM_eq_coe : ∀ n : ℕ, stM e lab mu lv j n = ((mR e lab mu lv j n : ℝ) : EReal) := by
  intro n
  induction n with
  | zero => rfl
  | succ k ih =>
    by_cases hk : k < 4
    · rw [stM, mR, dif_pos hk, dif_pos hk, ih, coe_max, ← sup_coe univ univ_nonempty]
      simp only [coe_msk]
    · rw [stM, mR, dif_neg hk, dif_neg hk, ih]

theorem stM_real (n : ℕ) (_h : n ≤ 4) : ∃ x : ℝ, stM e lab mu lv j n = (x : EReal) :=
  ⟨_, stM_eq_coe e lab mu lv j n⟩

/-- After `n` tiles `M` is the larger of the stand-in and the masked exponents of the first `1024·n` rows. -/
theorem stM_eq_sup : ∀ n : ℕ, n ≤ 4 →
    stM e lab mu lv j n
      = max ((Cert.Spec.negBig : ℝ) : EReal) ((pre n).sup fun i => ((msk e lab mu lv j i : ℝ) : EReal)) := by
  intro n
  induction n with
  | zero => intro _; rw [stM_zero, pre_zero, sup_empty, max_eq_left bot_le]
  | succ k ih =>
    intro hk
    have hk' : k < 4 := by omega
    have hs := stM_succ e lab mu lv j ⟨k, hk'⟩
    have hp := sup_pre_succ ⟨k, hk'⟩ fun i => ((msk e lab mu lv j i : ℝ) : EReal)
    simp only [coe_msk] at hs hp
    rw [hs, hp, ih (by omega), max_assoc]

theorem stM_final : stM e lab mu lv j 4 = ((Cert.Spec.negMax e lab mu lv j : ℝ) : EReal) := by
  rw [stM_eq_sup e lab mu lv j 4 (le_refl 4), pre_four, sup_coe univ univ_nonempty, ← coe_max]
  rfl

theorem mR_final : mR e lab mu lv j 4 = Cert.Spec.negMax e lab mu lv j :=
  EReal.coe_injective ((stM_eq_coe e lab mu lv j 4).symm.trans (stM_final e lab mu lv j))

/-! ### The rescaled partial sum -/

/-- The real number that `A` is after `n` tiles: the sum over the first `1024·n` rows not labelled `j`, taken against
    the maximum reached after those tiles. -/
def aR (n : ℕ) : ℝ :=
  ∑ i ∈ pre n, if lab i = j then 0 else Real.exp (Cert.Spec.negE e mu lv i j - mR e lab mu lv j n)

/-- Moving the maximum from `m` to `m'` rescales every term: `exp (a − m) · exp (m − m') = exp (a − m')`. -/
theorem rescale (s : Finset (Fin 4096)) (m m' : ℝ) :
    (∑ i ∈ s, if lab i = j then 0 else Real.exp (Cert.Spec.negE e mu lv i j - m)) * Real.exp (m - m')
      = ∑ i ∈ s, if lab i = j then 0 else Real.exp (Cert.Spec.negE e mu lv i j - m') := by
  rw [sum_mul]
  refine sum_congr rfl fun i _ => ?_
  split_ifs
  · exact zero_mul _
  · rw [← Real.exp_add]
    congr 1
    ring

/-- `A` is a real number at every stage, and which one. -/
theorem stA_eq_coe : ∀ n : ℕ, n ≤ 4 → stA e lab mu lv j n = ((aR e lab mu lv j n : ℝ) : EReal) := by
  intro n
  induction n with
  | zero =>
    intro _
    rw [stA_zero, aR, pre_zero, sum_empty, EReal.coe_zero]
  | succ k ih =>
    intro hk
    have hk' : k < 4 := by omega
    have hs := stA_succ e lab mu lv j ⟨k, hk'⟩
    simp only at hs
    have hsum : (∑ r : Fin 1024,
          (if lab (row ⟨k, hk'⟩ r) = j then (0 : EReal)
           else Idealize.ShloMosaic.Ideal.exp
                  (((Cert.Spec.negE e mu lv (row ⟨k, hk'⟩ r) j : ℝ) : EReal) - stM e lab mu lv j (k + 1))))
        = ((∑ r : Fin 1024,
            (if lab (row ⟨k, hk'⟩ r) = j then 0
             else Real.exp (Cert.Spec.negE e mu lv (row ⟨k, hk'⟩ r) j - mR e lab mu lv j (k + 1))) : ℝ) : EReal) := by
      rw [coe_sum]
      refine sum_congr rfl fun r _ => ?_
      split_ifs
      · exact EReal.coe_zero.symm
      · rw [stM_eq_coe, ← EReal.coe_sub, Idealize.ShloMosaic.Ideal.exp_coe]
    rw [hs, hsum, ih (by omega), stM_eq_coe, stM_eq_coe, ← EReal.coe_sub, Idealize.ShloMosaic.Ideal.exp_coe,
      ← EReal.coe_mul, ← EReal.coe_add]
    congr 1
    unfold aR
    rw [rescale, sum_pre_succ ⟨k, hk'⟩]

theorem stA_real (n : ℕ) (h : n ≤ 4) : ∃ x : ℝ, stA e lab mu lv j n = (x : EReal) :=
  ⟨_, stA_eq_coe e lab mu lv j n h⟩

theorem stA_final : stA e lab mu lv j 4 = ((Cert.Spec.negAcc e lab mu lv j : ℝ) : EReal) := by
  rw [stA_eq_coe e lab mu lv j 4 (le_refl 4), aR, pre_four, mR_final]
  rfl

end Cert.Rec

end
-- ==== Proof.TileMath.lean ====
/-
  One tile of the kernel's walk, as mathematics: at column tile `c` and row tile `n` the body's three matrices are
  the positive-pair exponents, the negative-pair exponents and the label mask of the rows `1024·n + r` against the
  columns `1024·c + q`, and its three stored rows are the next stage of the per-column recurrence.

  The positive-pair exponent is `-32·(score − c) = 16·sq − 32·cross + 16·const + 32·c`.  The body forms it as
  `16·Σ_d e² + Σ_{k<128} a_k·b_k + (16·const + 32·c)`, where the first 64 positions of the contraction carry
  `e_d² · 16·(w_d − 1)` and the last 64 carry `e_d · (−32·mu_d·w_d)`: the first half adds `16·sq − 16·Σ e²`, the second
  `−32·cross`.  The negative-pair exponent is `64·c` minus it, `32·(score + c)`.  The mask compares two numbers
  below `8192` as 32-bit words, which is comparing the numbers.
-/
import proofs.«429900_j26379689132773_3_alg».proof.Proof.BodyMath
import proofs.«429900_j26379689132773_3_alg».proof.Proof.Recurrence
import proofs.«429900_j26379689132773_3_alg».proof.Proof.Spec
import proofs.«429900_j26379689132773_3_alg».proof.Proof.Gen.KernelIdeal.Skeleton
import Idealize.ShloMosaic.Lib.ValueIdx
import Mathlib.Algebra.BigOperators.Fin

noncomputable section

namespace Cert.KernelIdeal.Hand

open Idealize.ShloMosaic Idealize.ShloMosaic.ValueIdx Cert.KernelIdeal Cert.KernelIdeal.Gen

/-! ### Columns of a tile -/

/-- Column `1024·c + q`: the `q`-th column of column tile `c`. -/
def col (c : Fin 8) (q : Fin 1024) : Fin 8192 := ⟨1024 * c.val + q.val, by omega⟩

theorem col_val (c : Fin 8) (q : Fin 1024) : (col c q).val = 1024 * c.val + q.val := rfl

theorem col_lt (c : Fin 8) (q : Fin 1024) : 1024 * c.val + q.val < 8192 := (col c q).isLt

/-! ### Real-number identities -/

/-- A sum over 128 positions whose first 64 follow `f` and last 64 follow `g` is the sum of the two halves. -/
theorem sum_halves (f g : Fin 64 → ℝ) :
    (∑ k : Fin 128, if h : k.val < 64 then f ⟨k.val, h⟩ else g ⟨k.val - 64, by omega⟩)
      = ∑ d, f d + ∑ d, g d := by
  have h := Fin.sum_univ_add (a := 64) (b := 64)
    (fun k : Fin (64 + 64) => if h : k.val < 64 then f ⟨k.val, h⟩ else g ⟨k.val - 64, by omega⟩)
  refine h.trans (congrArg₂ (· + ·) (Finset.sum_congr rfl fun d _ => ?_) (Finset.sum_congr rfl fun d _ => ?_))
  · have hd : (Fin.castAdd 64 d).val < 64 := d.isLt
    rw [dif_pos hd]
    exact congrArg f (Fin.ext rfl)
  · have hv : (Fin.natAdd 64 d).val = 64 + d.val := Fin.coe_natAdd 64 d
    have hd : ¬ (Fin.natAdd 64 d).val < 64 := by omega
    rw [dif_neg hd]
    exact congrArg g (Fin.ext (by show (Fin.natAdd 64 d).val - 64 = d.val; omega))

/-- The product of two case splits on the same condition is the case split of the products. -/
theorem dite_mul_dite {p : Prop} [Decidable p] (a c : p → ℝ) (b d : ¬p → ℝ) :
    (if h : p then a h else b h) * (if h : p then c h else d h) = if h : p then a h * c h else b h * d h := by
  by_cases h : p
  · rw [dif_pos h, dif_pos h, dif_pos h]
  · rw [dif_neg h, dif_neg h, dif_neg h]

section
variable (e : Fin 4096 → Fin 64 → ℝ) (lab : Fin 4096 → Fin 8192) (mu lv : Fin 8192 → Fin 64 → ℝ)

/-- The tile's arithmetic over the reals: the squared-norm term, the 128-term contraction and the column constant
    add up to the positive-pair exponent. -/
theorem posE_eq (i : Fin 4096) (j : Fin 8192) :
    (16 * ∑ d, e i d * e i d)
      + (∑ k : Fin 128,
          (if h : k.val < 64 then e i ⟨k.val, h⟩ * e i ⟨k.val, h⟩ else e i ⟨k.val - 64, by omega⟩)
            * (if h : k.val < 64 then 16 * (Cert.Spec.ivar lv j ⟨k.val, h⟩ - 1)
               else -32 * (mu j ⟨k.val - 64, by omega⟩ * Cert.Spec.ivar lv j ⟨k.val - 64, by omega⟩)))
      + (16 * Cert.Spec.constTerm mu lv j + 32 * Cert.Spec.c01)
      = Cert.Spec.posE e mu lv i j := by
  have hs : (∑ k : Fin 128,
          (if h : k.val < 64 then e i ⟨k.val, h⟩ * e i ⟨k.val, h⟩ else e i ⟨k.val - 64, by omega⟩)
            * (if h : k.val < 64 then 16 * (Cert.Spec.ivar lv j ⟨k.val, h⟩ - 1)
               else -32 * (mu j ⟨k.val - 64, by omega⟩ * Cert.Spec.ivar lv j ⟨k.val - 64, by omega⟩)))
        = ∑ d, (e i d * e i d) * (16 * (Cert.Spec.ivar lv j d - 1))
          + ∑ d, e i d * (-32 * (mu j d * Cert.Spec.ivar lv j d)) := by
    rw [← sum_halves]
    refine Finset.sum_congr rfl fun k _ => ?_
    exact dite_mul_dite _ _ _ _
  rw [hs]
  unfold Cert.Spec.posE Cert.Spec.score Cert.Spec.sqTerm Cert.Spec.crossTerm
  have h1 : ∑ d, (e i d * e i d) * (16 * (Cert.Spec.ivar lv j d - 1))
      = 16 * ∑ d, (e i d * e i d) * Cert.Spec.ivar lv j d - 16 * ∑ d, e i d * e i d := by
    rw [Finset.mul_sum, Finset.mul_sum, ← Finset.sum_sub_distrib]
    exact Finset.sum_congr rfl fun d _ => by ring
  have h2 : ∑ d, e i d * (-32 * (mu j d * Cert.Spec.ivar lv j d))
      = -32 * ∑ d, e i d * (mu j d * Cert.Spec.ivar lv j d) := by
    rw [Finset.mul_sum]
    exact Finset.sum_congr rfl fun d _ => by ring
  rw [h1, h2]
  ring

/-- `64·c − posE = negE`. -/
theorem negE_eq (i : Fin 4096) (j : Fin 8192) :
    64 * Cert.Spec.c01 - Cert.Spec.posE e mu lv i j = Cert.Spec.negE e mu lv i j := by
  unfold Cert.Spec.posE Cert.Spec.negE
  ring

end

/-! ### The tile's three matrices -/

section Tile
variable (e : Fin 4096 → Fin 64 → ℝ) (lab : Fin 4096 → Fin 8192) (mu lv : Fin 8192 → Fin 64 → ℝ)
variable (c : Fin 8) (n : Fin 4)
variable (x0 x1 : Vec Ideal S1024x128 .bf16) (x2 : Vec Ideal S1024x1 .f32) (x3 : Vec Ideal S1x1024 .f32)
  (x4 : Vec Ideal S1024x1 .i32) (i : grid0.Coords)

/-- The positive-pair exponents of the tile. -/
theorem tile_pos
    (hx0 : ∀ (r : Fin 1024) (k : Fin 128), x0 (ix2 r k) = ((if h : k.val < 64 then e (Cert.Rec.row n r) ⟨k.val, h⟩ * e (Cert.Rec.row n r) ⟨k.val, h⟩ else e (Cert.Rec.row n r) ⟨k.val - 64, by omega⟩ : ℝ) : EReal))
    (hx1 : ∀ (q : Fin 1024) (k : Fin 128), x1 (ix2 q k) = ((if h : k.val < 64 then 16 * (Cert.Spec.ivar lv (col c q) ⟨k.val, h⟩ - 1) else -32 * (mu (col c q) ⟨k.val - 64, by omega⟩ * Cert.Spec.ivar lv (col c q) ⟨k.val - 64, by omega⟩) : ℝ) : EReal))
    (hx2 : ∀ r : Fin 1024, x2 (ix2 r 0) = ((16 * ∑ d, e (Cert.Rec.row n r) d * e (Cert.Rec.row n r) d : ℝ) : EReal))
    (hx3 : ∀ q : Fin 1024, x3 (ix2 0 q) = ((16 * Cert.Spec.constTerm mu lv (col c q) + 32 * Cert.Spec.c01 : ℝ) : EReal))
    (r q : Fin 1024) :
    k0_pay8 (F := Ideal) x0 x1 x2 x3 (ix2 r q)
      = ((Cert.Spec.posE e mu lv (Cert.Rec.row n r) (col c q) : ℝ) : EReal) := by
  have hsum : (∑ k : Fin 128, x0 (ix2 r k) * x1 (ix2 q k))
      = ((∑ k : Fin 128,
          (if h : k.val < 64 then e (Cert.Rec.row n r) ⟨k.val, h⟩ * e (Cert.Rec.row n r) ⟨k.val, h⟩
           else e (Cert.Rec.row n r) ⟨k.val - 64, by omega⟩)
            * (if h : k.val < 64 then 16 * (Cert.Spec.ivar lv (col c q) ⟨k.val, h⟩ - 1)
               else -32 * (mu (col c q) ⟨k.val - 64, by omega⟩ * Cert.Spec.ivar lv (col c q) ⟨k.val - 64, by omega⟩)) : ℝ) : EReal) := by
    rw [Cert.Rec.coe_sum]
    refine Finset.sum_congr rfl fun k _ => ?_
    rw [hx0, hx1, EReal.coe_mul]
  rw [pay8_apply, hx2, hx3, hsum, ← EReal.coe_add, ← EReal.coe_add, posE_eq]

/-- The negative-pair exponents of the tile. -/
theorem tile_neg
    (hx0 : ∀ (r : Fin 1024) (k : Fin 128), x0 (ix2 r k) = ((if h : k.val < 64 then e (Cert.Rec.row n r) ⟨k.val, h⟩ * e (Cert.Rec.row n r) ⟨k.val, h⟩ else e (Cert.Rec.row n r) ⟨k.val - 64, by omega⟩ : ℝ) : EReal))
    (hx1 : ∀ (q : Fin 1024) (k : Fin 128), x1 (ix2 q k) = ((if h : k.val < 64 then 16 * (Cert.Spec.ivar lv (col c q) ⟨k.val, h⟩ - 1) else -32 * (mu (col c q) ⟨k.val - 64, by omega⟩ * Cert.Spec.ivar lv (col c q) ⟨k.val - 64, by omega⟩) : ℝ) : EReal))
    (hx2 : ∀ r : Fin 1024, x2 (ix2 r 0) = ((16 * ∑ d, e (Cert.Rec.row n r) d * e (Cert.Rec.row n r) d : ℝ) : EReal))
    (hx3 : ∀ q : Fin 1024, x3 (ix2 0 q) = ((16 * Cert.Spec.constTerm mu lv (col c q) + 32 * Cert.Spec.c01 : ℝ) : EReal))
    (r q : Fin 1024) :
    k0_pay9 (F := Ideal) x0 x1 x2 x3 (ix2 r q)
      = ((Cert.Spec.negE e mu lv (Cert.Rec.row n r) (col c q) : ℝ) : EReal) := by
  rw [pay9_apply, lit64, tile_pos e mu lv c n x0 x1 x2 x3 hx0 hx1 hx2 hx3, ← EReal.coe_sub, negE_eq]

/-- The label mask of the tile: set exactly where the row's label is the column. -/
theorem tile_mask
    (hx4 : ∀ r : Fin 1024, x4 (ix2 r 0) = BitVec.ofNat 32 (lab (Cert.Rec.row n r)).val)
    (hi : (i 0).val = c.val) (r q : Fin 1024) :
    k0_pay10 (F := Ideal) i x4 (ix2 r q) = 1#1 ↔ lab (Cert.Rec.row n r) = col c q := by
  rw [pay10_apply, hx4, hi]
  have hl : (lab (Cert.Rec.row n r)).val < 8192 := (lab (Cert.Rec.row n r)).isLt
  have hc : c.val < 8 := c.isLt
  have hq : q.val < 1024 := q.isLt
  constructor
  · intro h
    by_cases hb : BitVec.ofNat 32 (lab (Cert.Rec.row n r)).val = BitVec.ofNat 32 (c.val * 1024 + q.val)
    · have ht := congrArg BitVec.toNat hb
      rw [BitVec.toNat_ofNat, BitVec.toNat_ofNat, Nat.mod_eq_of_lt (by omega), Nat.mod_eq_of_lt (by omega)] at ht
      exact Fin.ext (by rw [col_val]; omega)
    · rw [if_neg hb] at h
      exact absurd h (by decide)
  · intro h
    rw [h, col_val, if_pos (by rw [Nat.mul_comm])]

/-! ### One tile's update of the three carried rows -/

/-- The running maximum of the positive-pair exponents after this tile. -/
theorem upd_P
    (hx0 : ∀ (r : Fin 1024) (k : Fin 128), x0 (ix2 r k) = ((if h : k.val < 64 then e (Cert.Rec.row n r) ⟨k.val, h⟩ * e (Cert.Rec.row n r) ⟨k.val, h⟩ else e (Cert.Rec.row n r) ⟨k.val - 64, by omega⟩ : ℝ) : EReal))
    (hx1 : ∀ (q : Fin 1024) (k : Fin 128), x1 (ix2 q k) = ((if h : k.val < 64 then 16 * (Cert.Spec.ivar lv (col c q) ⟨k.val, h⟩ - 1) else -32 * (mu (col c q) ⟨k.val - 64, by omega⟩ * Cert.Spec.ivar lv (col c q) ⟨k.val - 64, by omega⟩) : ℝ) : EReal))
    (hx2 : ∀ r : Fin 1024, x2 (ix2 r 0) = ((16 * ∑ d, e (Cert.Rec.row n r) d * e (Cert.Rec.row n r) d : ℝ) : EReal))
    (hx3 : ∀ q : Fin 1024, x3 (ix2 0 q) = ((16 * Cert.Spec.constTerm mu lv (col c q) + 32 * Cert.Spec.c01 : ℝ) : EReal))
    (v29 : Vec Ideal S1x1024 .f32)
    (hv : ∀ q : Fin 1024, v29 (ix2 0 q) = Cert.Rec.stP e mu lv (col c q) n.val) (q : Fin 1024) :
    k0_pay11 (F := Ideal) x0 x1 x2 x3 v29 (ix2 0 q) = Cert.Rec.stP e mu lv (col c q) (n.val + 1) := by
  rw [pay11_apply, hv, Cert.Rec.stP_succ]
  congr 1
  exact Finset.sup_congr rfl fun r _ => tile_pos e mu lv c n x0 x1 x2 x3 hx0 hx1 hx2 hx3 r q

/-- The running maximum of the masked negative-pair exponents after this tile. -/
theorem upd_M
    (hx0 : ∀ (r : Fin 1024) (k : Fin 128), x0 (ix2 r k) = ((if h : k.val < 64 then e (Cert.Rec.row n r) ⟨k.val, h⟩ * e (Cert.Rec.row n r) ⟨k.val, h⟩ else e (Cert.Rec.row n r) ⟨k.val - 64, by omega⟩ : ℝ) : EReal))
    (hx1 : ∀ (q : Fin 1024) (k : Fin 128), x1 (ix2 q k) = ((if h : k.val < 64 then 16 * (Cert.Spec.ivar lv (col c q) ⟨k.val, h⟩ - 1) else -32 * (mu (col c q) ⟨k.val - 64, by omega⟩ * Cert.Spec.ivar lv (col c q) ⟨k.val - 64, by omega⟩) : ℝ) : EReal))
    (hx2 : ∀ r : Fin 1024, x2 (ix2 r 0) = ((16 * ∑ d, e (Cert.Rec.row n r) d * e (Cert.Rec.row n r) d : ℝ) : EReal))
    (hx3 : ∀ q : Fin 1024, x3 (ix2 0 q) = ((16 * Cert.Spec.constTerm mu lv (col c q) + 32 * Cert.Spec.c01 : ℝ) : EReal))
    (hx4 : ∀ r : Fin 1024, x4 (ix2 r 0) = BitVec.ofNat 32 (lab (Cert.Rec.row n r)).val)
    (hi : (i 0).val = c.val)
    (v38 : Vec Ideal S1x1024 .f32)
    (hv : ∀ q : Fin 1024, v38 (ix2 0 q) = Cert.Rec.stM e lab mu lv (col c q) n.val) (q : Fin 1024) :
    k0_pay1 (F := Ideal) (k0_pay9 (F := Ideal) x0 x1 x2 x3) (k0_pay10 (F := Ideal) i x4) (k0_pay12 (F := Ideal)) v38
        (ix2 0 q)
      = Cert.Rec.stM e lab mu lv (col c q) (n.val + 1) := by
  rw [pay1_apply, hv, Cert.Rec.stM_succ]
  congr 1
  refine Finset.sup_congr rfl fun r _ => ?_
  exact if_congr (tile_mask lab c n x4 i hx4 hi r q) (pay12_apply r q)
    (tile_neg e mu lv c n x0 x1 x2 x3 hx0 hx1 hx2 hx3 r q)

/-- The rescaled partial sum after this tile. -/
theorem upd_A
    (hx0 : ∀ (r : Fin 1024) (k : Fin 128), x0 (ix2 r k) = ((if h : k.val < 64 then e (Cert.Rec.row n r) ⟨k.val, h⟩ * e (Cert.Rec.row n r) ⟨k.val, h⟩ else e (Cert.Rec.row n r) ⟨k.val - 64, by omega⟩ : ℝ) : EReal))
    (hx1 : ∀ (q : Fin 1024) (k : Fin 128), x1 (ix2 q k) = ((if h : k.val < 64 then 16 * (Cert.Spec.ivar lv (col c q) ⟨k.val, h⟩ - 1) else -32 * (mu (col c q) ⟨k.val - 64, by omega⟩ * Cert.Spec.ivar lv (col c q) ⟨k.val - 64, by omega⟩) : ℝ) : EReal))
    (hx2 : ∀ r : Fin 1024, x2 (ix2 r 0) = ((16 * ∑ d, e (Cert.Rec.row n r) d * e (Cert.Rec.row n r) d : ℝ) : EReal))
    (hx3 : ∀ q : Fin 1024, x3 (ix2 0 q) = ((16 * Cert.Spec.constTerm mu lv (col c q) + 32 * Cert.Spec.c01 : ℝ) : EReal))
    (hx4 : ∀ r : Fin 1024, x4 (ix2 r 0) = BitVec.ofNat 32 (lab (Cert.Rec.row n r)).val)
    (hi : (i 0).val = c.val)
    (v38 v43 : Vec Ideal S1x1024 .f32)
    (hM : ∀ q : Fin 1024, v38 (ix2 0 q) = Cert.Rec.stM e lab mu lv (col c q) n.val)
    (hA : ∀ q : Fin 1024, v43 (ix2 0 q) = Cert.Rec.stA e lab mu lv (col c q) n.val) (q : Fin 1024) :
    k0_pay3 (F := Ideal) (k0_pay9 (F := Ideal) x0 x1 x2 x3) (k0_pay10 (F := Ideal) i x4) (k0_pay12 (F := Ideal)) v38
        (k0_pay2 (F := Ideal) (k0_pay9 (F := Ideal) x0 x1 x2 x3) (k0_pay10 (F := Ideal) i x4) (k0_pay12 (F := Ideal))
          v38 v38 v43)
        (ix2 0 q)
      = Cert.Rec.stA e lab mu lv (col c q) (n.val + 1) := by
  have hM' := upd_M e lab mu lv c n x0 x1 x2 x3 x4 i hx0 hx1 hx2 hx3 hx4 hi v38 hM q
  rw [pay3_apply, pay2_apply, hM', hM, hA, Cert.Rec.stA_succ]
  congr 1
  refine Finset.sum_congr rfl fun r _ => ?_
  refine if_congr (tile_mask lab c n x4 i hx4 hi r q) rfl ?_
  rw [tile_neg e mu lv c n x0 x1 x2 x3 hx0 hx1 hx2 hx3 r q]

end Tile

end Cert.KernelIdeal.Hand

end
-- ==== Proof.Prefix.lean ====
/-
  The operands of the kernel call, as functions of the program's arguments.

  Before the call the program computes five arrays from the embeddings `a0`, the labels `a1`, the proxy means `a2`
  and the proxy log-variances `a3`:
    the augmented embeddings  [a0², a0]                               (4096 × 128),
    the augmented proxies     [16·(exp(-a3) − 1), −32·(a2·exp(-a3))]  (8192 × 128),
    the row term              16 · Σ_d a0²                            (4096 × 1),
    the column term           16 · Σ_d (a2²·exp(-a3) + a3) + 32·c     (1 × 8192), `c` the single-precision tenth,
    the labels as a column                                           (4096 × 1).
  Each is defined here as the composition of the program's own operations, shown to be what the program's buffers hold
  once those operations have run, and read at an index over the reals.
-/
import proofs.«429900_j26379689132773_3_alg».proof.Proof.Gen.KernelIdeal.Launch
import proofs.«429900_j26379689132773_3_alg».proof.Proof.Spec
import Idealize.ShloMosaic.Lib.StableHlo.Run
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws

set_option maxRecDepth 4096

noncomputable section

namespace Cert.KernelIdeal.Hand

open Idealize.ShloMosaic Idealize.ShloMosaic.ValueIdx Cert.KernelIdeal Cert.KernelIdeal.Gen

variable {F : FTy → Type} [FloatOps F]

/-! ## The operands as compositions of the program's operations -/

/-- `exp (-a3)`, the inverse variances. -/
def pInv (a3 : FVec F S8192x64 .f32) : FVec F S8192x64 .f32 := Host.exp (Host.negf a3)

/-- The augmented embeddings `[a0 · a0, a0]` along the second axis, in the matrix unit's input format. -/
def pEaug (a0 : FVec F S4096x64 .f32) : FVec F S4096x128 .bf16 :=
  truncf .bf16
    (concatenate S4096x128 1 [⟨S4096x64, mulf a0 a0⟩, ⟨S4096x64, a0⟩] Gen.concatenates_S4096x64_S4096x64_S4096x128_d1)
    Gen.bitsLt_bf16_f32

/-- The augmented proxies `[16 · (exp (-a3) − 1), −32 · (a2 · exp (-a3))]` along the second axis. -/
def pRhs (a2 a3 : FVec F S8192x64 .f32) : FVec F S8192x128 .bf16 :=
  truncf .bf16
    (concatenate S8192x128 1
      [⟨S8192x64, mulf (broadcastInDim S8192x64 ![] Gen.bcast_S_S8192x64 (constant S_ .f32 0x41800000#32))
                    (subf (pInv a3) (broadcastInDim S8192x64 ![] Gen.bcast_S_S8192x64 (constant S_ .f32 0x3F800000#32)))⟩,
       ⟨S8192x64, mulf (broadcastInDim S8192x64 ![] Gen.bcast_S_S8192x64 (constant S_ .f32 0xC2000000#32))
                    (mulf a2 (pInv a3))⟩]
      Gen.concatenates_S8192x64_S8192x64_S8192x128_d1)
    Gen.bitsLt_bf16_f32

/-- The row term `16 · Σ_d a0 · a0`, as a column. -/
def pRow (a0 : FVec F S4096x64 .f32) : FVec F S4096x1 .f32 :=
  shapeCast S4096x1
    (mulf (broadcastInDim S4096 ![] Gen.bcast_S_S4096 (constant S_ .f32 0x41800000#32))
      (Host.reduceAdd (mulf a0 a0) (constant S_ .f32 0x00000000#32) Gen.reducesTo_S4096x64_S4096_d1 Gen.h_S_))
    Gen.shapeCasts_S4096_S4096x1

/-- The column term `16 · Σ_d (a2 · a2 · exp (-a3) + a3) + 32 · c`, as a row. -/
def pCst (a2 a3 : FVec F S8192x64 .f32) : FVec F S1x8192 .f32 :=
  shapeCast S1x8192
    (addf
      (mulf (broadcastInDim S8192 ![] Gen.bcast_S_S8192 (constant S_ .f32 0x41800000#32))
        (Host.reduceAdd (addf (mulf (mulf a2 a2) (pInv a3)) a3) (constant S_ .f32 0x00000000#32)
          Gen.reducesTo_S8192x64_S8192_d1 Gen.h_S_))
      (broadcastInDim S8192 ![] Gen.bcast_S_S8192 (constant S_ .f32 0x404CCCCD#32)))
    Gen.shapeCasts_S8192_S1x8192

/-- The labels as a column. -/
def pLab (a1 : IVec S4096 32) : IVec S4096x1 32 := shapeCast S4096x1 a1 Gen.shapeCasts_S4096_S4096x1

/-! ## What the buffers hold once the operations before the call have run -/

section After

variable (W : Valuation τ sig (Elt F))

theorem after_prefix_v22 :
    StableHlo.after (hostOps0 : List (HloOp τ sig (Elt F))) W (Proc.devRef .tc main_v22)
      = pEaug (W (Proc.devRef .tc main_arg0)) := by
  after_results
  rfl

theorem after_prefix_v19 :
    StableHlo.after (hostOps0 : List (HloOp τ sig (Elt F))) W (Proc.devRef .tc main_v19)
      = pRhs (W (Proc.devRef .tc main_arg2)) (W (Proc.devRef .tc main_arg3)) := by
  after_results
  rfl

theorem after_prefix_v26 :
    StableHlo.after (hostOps0 : List (HloOp τ sig (Elt F))) W (Proc.devRef .tc main_v26)
      = pRow (W (Proc.devRef .tc main_arg0)) := by
  after_results
  rfl

theorem after_prefix_v13 :
    StableHlo.after (hostOps0 : List (HloOp τ sig (Elt F))) W (Proc.devRef .tc main_v13)
      = pCst (W (Proc.devRef .tc main_arg2)) (W (Proc.devRef .tc main_arg3)) := by
  after_results
  rfl

theorem after_prefix_v27 :
    StableHlo.after (hostOps0 : List (HloOp τ sig (Elt F))) W (Proc.devRef .tc main_v27)
      = pLab (W (Proc.devRef .tc main_arg1)) := by
  after_results
  rfl

theorem after_prefix_arg0 :
    StableHlo.after (hostOps0 : List (HloOp τ sig (Elt F))) W (Proc.devRef .tc main_arg0)
      = W (Proc.devRef .tc main_arg0) := by
  after_results

theorem after_prefix_arg1 :
    StableHlo.after (hostOps0 : List (HloOp τ sig (Elt F))) W (Proc.devRef .tc main_arg1)
      = W (Proc.devRef .tc main_arg1) := by
  after_results

theorem after_prefix_arg2 :
    StableHlo.after (hostOps0 : List (HloOp τ sig (Elt F))) W (Proc.devRef .tc main_arg2)
      = W (Proc.devRef .tc main_arg2) := by
  after_results

theorem after_prefix_arg3 :
    StableHlo.after (hostOps0 : List (HloOp τ sig (Elt F))) W (Proc.devRef .tc main_arg3)
      = W (Proc.devRef .tc main_arg3) := by
  after_results

end After

/-! ## The literals of the program, as extended reals -/

/-- `0x41800000` is sixteen. -/
theorem ofBits_sixteen : Ideal.ofBits .f32 0x41800000#32 = ((16 : ℝ) : EReal) := by
  simp [Ideal.ofBits, Ideal.ieee, -EReal.coe_mul]; norm_num

/-- `0xC2000000` is minus thirty-two. -/
theorem ofBits_neg_thirtytwo : Ideal.ofBits .f32 0xC2000000#32 = ((-32 : ℝ) : EReal) := by
  simp [Ideal.ofBits, Ideal.ieee, -EReal.coe_mul, -EReal.coe_neg]; norm_num

/-- `0x404CCCCD`, the single-precision value nearest 3.2, is `13421773 / 2^22`: thirty-two times the
    single-precision tenth. -/
theorem ofBits_offset : Ideal.ofBits .f32 0x404CCCCD#32 = ((32 * Cert.Spec.c01 : ℝ) : EReal) := by
  unfold Cert.Spec.c01
  simp [Ideal.ofBits, Ideal.ieee, -EReal.coe_mul]; norm_num

/-! ## Reading tools -/

/-- The coercion of the reals into the extended reals commutes with finite sums. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A vector made a column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index of a matrix over row `i` with column coordinate `k` inserted. -/
theorem lift_ix1 {n m : ℕ} (h : (⟨2, ![n, m]⟩ : Shape).Reduces [1] ⟨1, ![n]⟩) (i : Fin n) (k : Fin m) :
    h.lift (ix1 i) k = ix2 i k := by
  funext c
  match c with
  | ⟨0, _⟩ => rfl
  | ⟨1, _⟩ => rfl

/-- The sum over the second axis from zero, at a row, of a matrix of reals, is the real sum of the row. -/
theorem hostRowSum_apply {n m : ℕ} (x : FVec Ideal ⟨2, ![n, m]⟩ .f32) (f : Fin n → Fin m → ℝ)
    (hx : ∀ i d, x (ix2 i d) = ((f i d : ℝ) : EReal))
    (h' : (⟨2, ![n, m]⟩ : Shape).ReducesTo [1] ⟨1, ![n]⟩) (h : (⟨2, ![n, m]⟩ : Shape).Reduces [1] ⟨1, ![n]⟩)
    (hu : 0 < S_.numel) (i : Fin n) :
    Host.reduceAdd x (constant (F := Ideal) S_ .f32 0x00000000#32) h' hu (ix1 i) = ((∑ d, f i d : ℝ) : EReal) := by
  rw [hostReduceAdd_apply, Ideal.hostReduceAdd_single h' h, constant_apply, Ideal.ofBits_zero_f32, zero_add, coe_sum]
  exact Finset.sum_congr rfl fun k _ => (congrArg x (lift_ix1 h i k)).trans (hx i k)

/-! ## The operands read at an index, over the reals -/

section Apply

variable (e : Fin 4096 → Fin 64 → ℝ) (lab : Fin 4096 → Fin 8192) (mu lv : Fin 8192 → Fin 64 → ℝ)
variable (a0 : FVec Ideal S4096x64 .f32) (a1 : IVec S4096 32) (a2 a3 : FVec Ideal S8192x64 .f32)

/-- The inverse variances at an index. -/
theorem pInv_apply (hlv : ∀ j d, a3 (ix2 j d) = ((lv j d : ℝ) : EReal)) (j : Fin 8192) (d : Fin 64) :
    pInv (F := Ideal) a3 (ix2 j d) = ((Cert.Spec.ivar lv j d : ℝ) : EReal) := by
  show Ideal.exp (-(a3 (ix2 j d))) = _
  rw [hlv, ← EReal.coe_neg, Ideal.exp_coe]
  rfl

/-- The augmented embeddings at `(i, k)`: the square of coordinate `k` in the first half, coordinate `k − 64` in the
    second. -/
theorem pEaug_apply (he : ∀ i d, a0 (ix2 i d) = ((e i d : ℝ) : EReal)) (i : Fin 4096) (k : Fin 128) :
    pEaug (F := Ideal) a0 (ix2 i k)
      = ((if h : k.val < 64 then e i ⟨k.val, h⟩ * e i ⟨k.val, h⟩ else e i ⟨k.val - 64, by omega⟩ : ℝ) : EReal) := by
  unfold pEaug
  rw [truncf_apply]
  by_cases h : k.val < 64
  · rw [dif_pos h, concatenate_pair_apply_left (t := S4096x128) (s₁ := S4096x64) (s₂ := S4096x64) 1 _ _ _ (ix2 i k) rfl
      (ix2 i ⟨k.val, h⟩) (fun b => by match b with | ⟨0, _⟩ => rfl | ⟨1, _⟩ => rfl), mulf_apply, he, EReal.coe_mul]
  · rw [dif_neg h, concatenate_pair_apply_right (t := S4096x128) (s₁ := S4096x64) (s₂ := S4096x64) 1 _ _ _ (ix2 i k) rfl rfl
      (ix2 i ⟨k.val - 64, by omega⟩)
      (fun b hb => by
        match b with
        | ⟨0, _⟩ => rfl
        | ⟨1, _⟩ => exact absurd rfl hb)
      (by show k.val - 64 + 64 = k.val; omega), he]

/-- The augmented proxies at `(j, k)`: `16 · (w − 1)` at coordinate `k` in the first half, `−32 · (mu · w)` at coordinate
    `k − 64` in the second, `w` the inverse variance. -/
theorem pRhs_apply (hmu : ∀ j d, a2 (ix2 j d) = ((mu j d : ℝ) : EReal)) (hlv : ∀ j d, a3 (ix2 j d) = ((lv j d : ℝ) : EReal))
    (j : Fin 8192) (k : Fin 128) :
    pRhs (F := Ideal) a2 a3 (ix2 j k)
      = ((if h : k.val < 64 then 16 * (Cert.Spec.ivar lv j ⟨k.val, h⟩ - 1)
          else -32 * (mu j ⟨k.val - 64, by omega⟩ * Cert.Spec.ivar lv j ⟨k.val - 64, by omega⟩) : ℝ) : EReal) := by
  unfold pRhs
  rw [truncf_apply]
  by_cases h : k.val < 64
  · rw [dif_pos h, concatenate_pair_apply_left (t := S8192x128) (s₁ := S8192x64) (s₂ := S8192x64) 1 _ _ _ (ix2 j k) rfl
      (ix2 j ⟨k.val, h⟩) (fun b => by match b with | ⟨0, _⟩ => rfl | ⟨1, _⟩ => rfl), mulf_apply, subf_apply,
      broadcastInDim_scalar_apply, broadcastInDim_scalar_apply, constant_apply, constant_apply, pInv_apply lv a3 hlv,
      ofBits_sixteen, Ideal.ofBits_one_f32, EReal.coe_mul, EReal.coe_sub, EReal.coe_one]
  · rw [dif_neg h, concatenate_pair_apply_right (t := S8192x128) (s₁ := S8192x64) (s₂ := S8192x64) 1 _ _ _ (ix2 j k) rfl rfl
      (ix2 j ⟨k.val - 64, by omega⟩)
      (fun b hb => by
        match b with
        | ⟨0, _⟩ => rfl
        | ⟨1, _⟩ => exact absurd rfl hb)
      (by show k.val - 64 + 64 = k.val; omega), mulf_apply, mulf_apply, broadcastInDim_scalar_apply, constant_apply,
      pInv_apply lv a3 hlv, hmu, ofBits_neg_thirtytwo, EReal.coe_mul, EReal.coe_mul]

/-- The row term at row `i`: sixteen times the squared length of the embedding. -/
theorem pRow_apply (he : ∀ i d, a0 (ix2 i d) = ((e i d : ℝ) : EReal)) (i : Fin 4096) :
    pRow (F := Ideal) a0 (ix2 i 0) = ((16 * ∑ d, e i d * e i d : ℝ) : EReal) := by
  unfold pRow
  rw [shapeCast_a_a1_apply, mulf_apply, broadcastInDim_scalar_apply, constant_apply, ofBits_sixteen,
    hostRowSum_apply (mulf a0 a0) (fun i d => e i d * e i d)
      (fun i d => by rw [mulf_apply, he, EReal.coe_mul]) _ (by decide), EReal.coe_mul]

/-- The column term at column `j`: sixteen times the proxy's constant term, plus thirty-two tenths. -/
theorem pCst_apply (hmu : ∀ j d, a2 (ix2 j d) = ((mu j d : ℝ) : EReal)) (hlv : ∀ j d, a3 (ix2 j d) = ((lv j d : ℝ) : EReal))
    (j : Fin 8192) :
    pCst (F := Ideal) a2 a3 (ix2 0 j) = ((16 * Cert.Spec.constTerm mu lv j + 32 * Cert.Spec.c01 : ℝ) : EReal) := by
  unfold pCst
  rw [shapeCast_a_1a_apply, addf_apply, mulf_apply, broadcastInDim_scalar_apply, broadcastInDim_scalar_apply,
    constant_apply, constant_apply, ofBits_sixteen, ofBits_offset,
    hostRowSum_apply (addf (mulf (mulf a2 a2) (pInv a3)) a3) (fun j d => mu j d * mu j d * Cert.Spec.ivar lv j d + lv j d)
      (fun j d => by
        rw [addf_apply, mulf_apply, mulf_apply, hmu, hlv, pInv_apply lv a3 hlv, EReal.coe_add, EReal.coe_mul, EReal.coe_mul])
      _ (by decide), EReal.coe_add, EReal.coe_mul]
  rfl

/-- The label column at row `i`. -/
theorem pLab_apply (hl : ∀ i, a1 (ix1 i) = BitVec.ofNat 32 (lab i).val) (i : Fin 4096) :
    pLab a1 (ix2 i 0) = BitVec.ofNat 32 (lab i).val := by
  unfold pLab
  rw [shapeCast_a_a1_apply, hl]

end Apply

end Cert.KernelIdeal.Hand

end
-- ==== Proof.KIValueA.lean ====
/-
  The kernel's three accumulators and three outputs, point by point.

  The grid is 8 × 4: point `t` is column tile `t / 4` and row tile `t % 4`.  At point `t` the five input blocks are
  the rows `1024 · (t % 4) + r` of the augmented embeddings, of the row term and of the labels, and the columns
  `1024 · (t / 4) + q` of the augmented proxies and of the column term.  After point `t` the three accumulators hold,
  at column `q` of the tile, stage `t % 4 + 1` of the per-column recurrence of column `1024 · (t / 4) + q`: by induction
  on the point, a first row tile starting from the reset values, the others from what the point before left.  At a
  last row tile the stage is the fourth, the finished one, and it is what the three output windows' buffers receive:
  the column's maximum of the positive-pair exponents, its own maximum of the masked negative-pair exponents and its
  partial sum relative to that maximum.
-/
import proofs.«429900_j26379689132773_3_alg».proof.Proof.KIFrame
import proofs.«429900_j26379689132773_3_alg».proof.Proof.KIPieces
import proofs.«429900_j26379689132773_3_alg».proof.Proof.TileMath
import proofs.«429900_j26379689132773_3_alg».proof.Proof.Prefix
import proofs.«429900_j26379689132773_3_alg».proof.Proof.Recurrence
import proofs.«429900_j26379689132773_3_alg».proof.Proof.Spec
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

/-! ## The grid: point `t` is column tile `t / 4`, row tile `t % 4` -/

/-- The row tile of a point. -/
def rowT (t : Fin cfg0.N) : Fin 4 := ⟨t.val % 4, Nat.mod_lt _ (by decide)⟩

/-- The column tile of a point. -/
def colT (t : Fin cfg0.N) : Fin 8 := ⟨t.val / 4, by have h : t.val < 32 := lt_of_lt_of_eq t.isLt (show cfg0.N = 32 from N_0); omega⟩

theorem rowT_val (t : Fin cfg0.N) : (rowT t).val = t.val % 4 := rfl
theorem colT_val (t : Fin cfg0.N) : (colT t).val = t.val / 4 := rfl

/-- The index maps of the eight windows and the first grid coordinate, decided over the 32 points. -/
theorem idx_facts : ∀ t : Fin cfg0.N,
    (win0_0.index t (0 : Fin 2) = t.val % 4 ∧ win0_0.index t (1 : Fin 2) = 0)
    ∧ (win0_1.index t (0 : Fin 2) = t.val / 4 ∧ win0_1.index t (1 : Fin 2) = 0)
    ∧ (win0_2.index t (0 : Fin 2) = t.val % 4 ∧ win0_2.index t (1 : Fin 2) = 0)
    ∧ (win0_3.index t (0 : Fin 2) = 0 ∧ win0_3.index t (1 : Fin 2) = t.val / 4)
    ∧ (win0_4.index t (0 : Fin 2) = t.val % 4 ∧ win0_4.index t (1 : Fin 2) = 0)
    ∧ (win0_5.index t (0 : Fin 2) = 0 ∧ win0_5.index t (1 : Fin 2) = t.val / 4)
    ∧ (win0_6.index t (0 : Fin 2) = 0 ∧ win0_6.index t (1 : Fin 2) = t.val / 4)
    ∧ (win0_7.index t (0 : Fin 2) = 0 ∧ win0_7.index t (1 : Fin 2) = t.val / 4)
    ∧ (grid0.coords t 0).val = t.val / 4 :=
  (by decide +kernel : ∀ t : Fin grid0.N, _)

/-! ## The five input blocks of a point, read off the operand arrays -/

theorem iblk0_apply (c : Dev nD) (t : Fin cfg0.N) (r : Fin 1024) (k : Fin 128) :
    (iblk m c 0 t : Vec Ideal S1024x128 .bf16) (ix2 r k)
      = (V m c main_v22 : FVec Ideal S4096x128 .bf16) (ix2 (Cert.Rec.row (rowT t) r) k) := by
  have hi := (idx_facts t).1
  unfold iblk
  rw [View.read_apply]
  show V m c main_v22 _ = V m c main_v22 _
  congr 1
  funext a
  apply Fin.ext
  match a with
  | ⟨0, _⟩ => show win0_0.index t 0 * 1024 + 1 * r.val = 1024 * (t.val % 4) + r.val; rw [hi.1]; omega
  | ⟨1, _⟩ => show win0_0.index t 1 * 128 + 1 * k.val = k.val; rw [hi.2]; omega

theorem iblk1_apply (c : Dev nD) (t : Fin cfg0.N) (q : Fin 1024) (k : Fin 128) :
    (iblk m c 1 t : Vec Ideal S1024x128 .bf16) (ix2 q k)
      = (V m c main_v19 : FVec Ideal S8192x128 .bf16) (ix2 (col (colT t) q) k) := by
  have hi := (idx_facts t).2.1
  unfold iblk
  rw [View.read_apply]
  show V m c main_v19 _ = V m c main_v19 _
  congr 1
  funext a
  apply Fin.ext
  match a with
  | ⟨0, _⟩ => show win0_1.index t 0 * 1024 + 1 * q.val = 1024 * (t.val / 4) + q.val; rw [hi.1]; omega
  | ⟨1, _⟩ => show win0_1.index t 1 * 128 + 1 * k.val = k.val; rw [hi.2]; omega

theorem iblk2_apply (c : Dev nD) (t : Fin cfg0.N) (r : Fin 1024) :
    (iblk m c 2 t : Vec Ideal S1024x1 .f32) (ix2 r 0)
      = (V m c main_v26 : FVec Ideal S4096x1 .f32) (ix2 (Cert.Rec.row (rowT t) r) 0) := by
  have hi := (idx_facts t).2.2.1
  unfold iblk
  rw [View.read_apply]
  show V m c main_v26 _ = V m c main_v26 _
  congr 1
  funext a
  apply Fin.ext
  match a with
  | ⟨0, _⟩ => show win0_2.index t 0 * 1024 + 1 * r.val = 1024 * (t.val % 4) + r.val; rw [hi.1]; omega
  | ⟨1, _⟩ => show win0_2.index t 1 * 1 + 1 * 0 = 0; rw [hi.2]

theorem iblk3_apply (c : Dev nD) (t : Fin cfg0.N) (q : Fin 1024) :
    (iblk m c 3 t : Vec Ideal S1x1024 .f32) (ix2 0 q)
      = (V m c main_v13 : FVec Ideal S1x8192 .f32) (ix2 0 (col (colT t) q)) := by
  have hi := (idx_facts t).2.2.2.1
  unfold iblk
  rw [View.read_apply]
  show V m c main_v13 _ = V m c main_v13 _
  congr 1
  funext a
  apply Fin.ext
  match a with
  | ⟨0, _⟩ => show win0_3.index t 0 * 1 + 1 * 0 = 0; rw [hi.1]
  | ⟨1, _⟩ => show win0_3.index t 1 * 1024 + 1 * q.val = 1024 * (t.val / 4) + q.val; rw [hi.2]; omega

theorem iblk4_apply (c : Dev nD) (t : Fin cfg0.N) (r : Fin 1024) :
    (iblk m c 4 t : Vec Ideal S1024x1 .i32) (ix2 r 0)
      = (V m c main_v27 : IVec S4096x1 32) (ix2 (Cert.Rec.row (rowT t) r) 0) := by
  have hi := (idx_facts t).2.2.2.2.1
  unfold iblk
  rw [View.read_apply]
  show V m c main_v27 _ = V m c main_v27 _
  congr 1
  funext a
  apply Fin.ext
  match a with
  | ⟨0, _⟩ => show win0_4.index t 0 * 1024 + 1 * r.val = 1024 * (t.val % 4) + r.val; rw [hi.1]; omega
  | ⟨1, _⟩ => show win0_4.index t 1 * 1 + 1 * 0 = 0; rw [hi.2]

/-! ## The operand arrays are the prefix's terms of the arguments -/

theorem V_v22 (c : Dev nD) :
    (V m c main_v22 : FVec Ideal S4096x128 .bf16) = pEaug (F := Ideal) (m ((c.tc : Thread nD τ).loc main_arg0)) := by
  show StableHlo.after (List.flatten [hostOps0]) (fun b => m (c, b)) (Proc.devRef .tc main_v22) = _
  simp only [List.flatten_cons, List.flatten_nil, List.append_nil]
  exact after_prefix_v22 _

theorem V_v19 (c : Dev nD) :
    (V m c main_v19 : FVec Ideal S8192x128 .bf16)
      = pRhs (F := Ideal) (m ((c.tc : Thread nD τ).loc main_arg2)) (m ((c.tc : Thread nD τ).loc main_arg3)) := by
  show StableHlo.after (List.flatten [hostOps0]) (fun b => m (c, b)) (Proc.devRef .tc main_v19) = _
  simp only [List.flatten_cons, List.flatten_nil, List.append_nil]
  exact after_prefix_v19 _

theorem V_v26 (c : Dev nD) :
    (V m c main_v26 : FVec Ideal S4096x1 .f32) = pRow (F := Ideal) (m ((c.tc : Thread nD τ).loc main_arg0)) := by
  show StableHlo.after (List.flatten [hostOps0]) (fun b => m (c, b)) (Proc.devRef .tc main_v26) = _
  simp only [List.flatten_cons, List.flatten_nil, List.append_nil]
  exact after_prefix_v26 _

theorem V_v13 (c : Dev nD) :
    (V m c main_v13 : FVec Ideal S1x8192 .f32)
      = pCst (F := Ideal) (m ((c.tc : Thread nD τ).loc main_arg2)) (m ((c.tc : Thread nD τ).loc main_arg3)) := by
  show StableHlo.after (List.flatten [hostOps0]) (fun b => m (c, b)) (Proc.devRef .tc main_v13) = _
  simp only [List.flatten_cons, List.flatten_nil, List.append_nil]
  exact after_prefix_v13 _

theorem V_v27 (c : Dev nD) :
    (V m c main_v27 : IVec S4096x1 32) = pLab (m ((c.tc : Thread nD τ).loc main_arg1)) := by
  show StableHlo.after (List.flatten [hostOps0]) (fun b => m (c, b)) (Proc.devRef .tc main_v27) = _
  simp only [List.flatten_cons, List.flatten_nil, List.append_nil]
  exact after_prefix_v27 (F := Ideal) _

/-! ## The blocks over the reals -/

section Data
variable (e : Fin 4096 → Fin 64 → ℝ) (lab : Fin 4096 → Fin 8192) (mu lv : Fin 8192 → Fin 64 → ℝ) (c : Dev nD)

theorem blk0 (he : ∀ i d, (m ((c.tc : Thread nD τ).loc main_arg0) : FVec Ideal S4096x64 .f32) (ix2 i d) = ((e i d : ℝ) : EReal))
    (t : Fin cfg0.N) (r : Fin 1024) (k : Fin 128) :
    (iblk m c 0 t : Vec Ideal S1024x128 .bf16) (ix2 r k)
      = ((if h : k.val < 64 then e (Cert.Rec.row (rowT t) r) ⟨k.val, h⟩ * e (Cert.Rec.row (rowT t) r) ⟨k.val, h⟩
          else e (Cert.Rec.row (rowT t) r) ⟨k.val - 64, by omega⟩ : ℝ) : EReal) :=
  (iblk0_apply m c t r k).trans ((congrFun (V_v22 m c) _).trans (pEaug_apply e _ he _ k))

theorem blk1 (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal))
    (t : Fin cfg0.N) (q : Fin 1024) (k : Fin 128) :
    (iblk m c 1 t : Vec Ideal S1024x128 .bf16) (ix2 q k)
      = ((if h : k.val < 64 then 16 * (Cert.Spec.ivar lv (col (colT t) q) ⟨k.val, h⟩ - 1)
          else -32 * (mu (col (colT t) q) ⟨k.val - 64, by omega⟩ * Cert.Spec.ivar lv (col (colT t) q) ⟨k.val - 64, by omega⟩) : ℝ) : EReal) :=
  (iblk1_apply m c t q k).trans ((congrFun (V_v19 m c) _).trans (pRhs_apply mu lv _ _ hmu hlv _ k))

theorem blk2 (he : ∀ i d, (m ((c.tc : Thread nD τ).loc main_arg0) : FVec Ideal S4096x64 .f32) (ix2 i d) = ((e i d : ℝ) : EReal))
    (t : Fin cfg0.N) (r : Fin 1024) :
    (iblk m c 2 t : Vec Ideal S1024x1 .f32) (ix2 r 0)
      = ((16 * ∑ d, e (Cert.Rec.row (rowT t) r) d * e (Cert.Rec.row (rowT t) r) d : ℝ) : EReal) :=
  (iblk2_apply m c t r).trans ((congrFun (V_v26 m c) _).trans (pRow_apply e _ he _))

theorem blk3 (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal))
    (t : Fin cfg0.N) (q : Fin 1024) :
    (iblk m c 3 t : Vec Ideal S1x1024 .f32) (ix2 0 q)
      = ((16 * Cert.Spec.constTerm mu lv (col (colT t) q) + 32 * Cert.Spec.c01 : ℝ) : EReal) :=
  (iblk3_apply m c t q).trans ((congrFun (V_v13 m c) _).trans (pCst_apply mu lv _ _ hmu hlv _))

theorem blk4 (hl : ∀ i, (m ((c.tc : Thread nD τ).loc main_arg1) : IVec S4096 32) (ix1 i) = BitVec.ofNat 32 (lab i).val)
    (t : Fin cfg0.N) (r : Fin 1024) :
    (iblk m c 4 t : Vec Ideal S1024x1 .i32) (ix2 r 0) = BitVec.ofNat 32 (lab (Cert.Rec.row (rowT t) r)).val :=
  (iblk4_apply m c t r).trans ((congrFun (V_v27 m c) _).trans (pLab_apply lab _ hl _))

/-- The first grid coordinate of a point is its column tile. -/
theorem coord0 (t : Fin cfg0.N) : (grid0.coords t 0).val = (colT t).val := (idx_facts t).2.2.2.2.2.2.2.2

/-! ## One tile's update at a point -/

/-- From the three carried rows at stage `t % 4` of the columns of tile `t / 4`, the body's three payloads at point `t`
    are the rows at stage `t % 4 + 1`. -/
theorem tile_step (he : ∀ i d, (m ((c.tc : Thread nD τ).loc main_arg0) : FVec Ideal S4096x64 .f32) (ix2 i d) = ((e i d : ℝ) : EReal))
    (hl : ∀ i, (m ((c.tc : Thread nD τ).loc main_arg1) : IVec S4096 32) (ix1 i) = BitVec.ofNat 32 (lab i).val)
    (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal))
    (t : Fin cfg0.N) (v0 v1 v2 : Vec Ideal S1x1024 .f32)
    (h0 : ∀ q : Fin 1024, v0 (ix2 0 q) = Cert.Rec.stP e mu lv (col (colT t) q) (rowT t).val)
    (h1 : ∀ q : Fin 1024, v1 (ix2 0 q) = Cert.Rec.stM e lab mu lv (col (colT t) q) (rowT t).val)
    (h2 : ∀ q : Fin 1024, v2 (ix2 0 q) = Cert.Rec.stA e lab mu lv (col (colT t) q) (rowT t).val)
    (q : Fin 1024) :
    k0_pay11 (F := Ideal) (iblk m c 0 t) (iblk m c 1 t) (iblk m c 2 t) (iblk m c 3 t) v0 (ix2 0 q)
        = Cert.Rec.stP e mu lv (col (colT t) q) ((rowT t).val + 1)
    ∧ k0_pay4 (F := Ideal) (k0_pay9 (F := Ideal) (iblk m c 0 t) (iblk m c 1 t) (iblk m c 2 t) (iblk m c 3 t)) (k0_pay10 (F := Ideal) (grid0.coords t) (iblk m c 4 t)) (k0_pay12 (F := Ideal)) v1 (ix2 0 q)
        = Cert.Rec.stM e lab mu lv (col (colT t) q) ((rowT t).val + 1)
    ∧ k0_pay3 (F := Ideal) (k0_pay9 (F := Ideal) (iblk m c 0 t) (iblk m c 1 t) (iblk m c 2 t) (iblk m c 3 t)) (k0_pay10 (F := Ideal) (grid0.coords t) (iblk m c 4 t)) (k0_pay12 (F := Ideal)) v1
          (k0_pay2 (F := Ideal) (k0_pay9 (F := Ideal) (iblk m c 0 t) (iblk m c 1 t) (iblk m c 2 t) (iblk m c 3 t)) (k0_pay10 (F := Ideal) (grid0.coords t) (iblk m c 4 t)) (k0_pay12 (F := Ideal)) v1 v1 v2) (ix2 0 q)
        = Cert.Rec.stA e lab mu lv (col (colT t) q) ((rowT t).val + 1) :=
  ⟨upd_P e mu lv (colT t) (rowT t) (iblk m c 0 t) (iblk m c 1 t) (iblk m c 2 t) (iblk m c 3 t)
      (blk0 m e c he t) (blk1 m mu lv c hmu hlv t) (blk2 m e c he t) (blk3 m mu lv c hmu hlv t) v0 h0 q,
   (pay4_apply (k0_pay9 (F := Ideal) (iblk m c 0 t) (iblk m c 1 t) (iblk m c 2 t) (iblk m c 3 t)) (k0_pay12 (F := Ideal)) (k0_pay10 (F := Ideal) (grid0.coords t) (iblk m c 4 t)) v1 q).trans
     (upd_M e lab mu lv (colT t) (rowT t) (iblk m c 0 t) (iblk m c 1 t) (iblk m c 2 t) (iblk m c 3 t) (iblk m c 4 t) (grid0.coords t) (blk0 m e c he t) (blk1 m mu lv c hmu hlv t) (blk2 m e c he t) (blk3 m mu lv c hmu hlv t) (blk4 m lab c hl t) (coord0 t) v1 h1 q),
   upd_A e lab mu lv (colT t) (rowT t) (iblk m c 0 t) (iblk m c 1 t) (iblk m c 2 t) (iblk m c 3 t) (iblk m c 4 t) (grid0.coords t) (blk0 m e c he t) (blk1 m mu lv c hmu hlv t) (blk2 m e c he t) (blk3 m mu lv c hmu hlv t) (blk4 m lab c hl t) (coord0 t) v1 v2 h1 h2 q⟩

end Data

/-! ## The accumulators after each point -/

section Inv
variable (e : Fin 4096 → Fin 64 → ℝ) (lab : Fin 4096 → Fin 8192) (mu lv : Fin 8192 → Fin 64 → ℝ) (c : Dev nD)

/-- After point `t` the three accumulators hold, at column `q` of the tile, stage `t % 4 + 1` of the recurrence of column
    `1024 · (t / 4) + q`. -/
def Inv (t : Fin cfg0.N) : Prop := ∀ q : Fin 1024,
  (scAt0 m c t.val t.isLt).1 (ix2 0 q) = Cert.Rec.stP e mu lv (col (colT t) q) ((rowT t).val + 1)
  ∧ (scAt0 m c t.val t.isLt).2.1 (ix2 0 q) = Cert.Rec.stM e lab mu lv (col (colT t) q) ((rowT t).val + 1)
  ∧ (scAt0 m c t.val t.isLt).2.2 (ix2 0 q) = Cert.Rec.stA e lab mu lv (col (colT t) q) ((rowT t).val + 1)

/-- At a first row tile the accumulators are reset, then updated. -/
theorem step_A (he : ∀ i d, (m ((c.tc : Thread nD τ).loc main_arg0) : FVec Ideal S4096x64 .f32) (ix2 i d) = ((e i d : ℝ) : EReal))
    (hl : ∀ i, (m ((c.tc : Thread nD τ).loc main_arg1) : IVec S4096 32) (ix1 i) = BitVec.ofNat 32 (lab i).val)
    (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal))
    (t : Fin cfg0.N) (h0 : t.val % 4 = 0) : Inv m e lab mu lv c t := by
  intro q
  have h1 : ¬t.val % 4 = 3 := by omega
  have hr : (rowT t).val = 0 := h0
  have hts := tile_step m e lab mu lv c he hl hmu hlv t (k0_pay5 (F := Ideal)) (k0_pay6 (F := Ideal)) (k0_pay7 (F := Ideal))
    (fun q => by rw [pay5_apply, hr, Cert.Rec.stP_zero])
    (fun q => by rw [pay6_apply, hr, Cert.Rec.stM_zero])
    (fun q => by rw [pay7_apply, hr, Cert.Rec.stA_zero]) q
  rw [scAt0_A m c t h0 h1]
  dsimp only
  refine ⟨?_, ?_, ?_⟩
  · refine (congrFun (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)) (ix2 0 q)).trans ?_
    exact hts.1
  · refine (congrFun (sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)) (ix2 0 q)).trans ?_
    exact hts.2.1
  · refine (congrFun (sout0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)) (ix2 0 q)).trans ?_
    exact hts.2.2

/-- At a middle row tile they are updated from what the point before left. -/
theorem step_B (he : ∀ i d, (m ((c.tc : Thread nD τ).loc main_arg0) : FVec Ideal S4096x64 .f32) (ix2 i d) = ((e i d : ℝ) : EReal))
    (hl : ∀ i, (m ((c.tc : Thread nD τ).loc main_arg1) : IVec S4096 32) (ix1 i) = BitVec.ofNat 32 (lab i).val)
    (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal))
    (t : Fin cfg0.N) (h0 : ¬t.val % 4 = 0) (h1 : ¬t.val % 4 = 3)
    (hp0 : ∀ q : Fin 1024, (scAt0 m c (t.val - 1) (Nat.lt_of_le_of_lt (Nat.sub_le _ _) t.isLt)).1 (ix2 0 q) = Cert.Rec.stP e mu lv (col (colT t) q) (rowT t).val)
    (hp1 : ∀ q : Fin 1024, (scAt0 m c (t.val - 1) (Nat.lt_of_le_of_lt (Nat.sub_le _ _) t.isLt)).2.1 (ix2 0 q) = Cert.Rec.stM e lab mu lv (col (colT t) q) (rowT t).val)
    (hp2 : ∀ q : Fin 1024, (scAt0 m c (t.val - 1) (Nat.lt_of_le_of_lt (Nat.sub_le _ _) t.isLt)).2.2 (ix2 0 q) = Cert.Rec.stA e lab mu lv (col (colT t) q) (rowT t).val) :
    Inv m e lab mu lv c t := by
  intro q
  have hts := tile_step m e lab mu lv c he hl hmu hlv t (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2 hp0 hp1 hp2 q
  rw [scAt0_B m c t h0 h1]
  dsimp only
  refine ⟨?_, ?_, ?_⟩
  · refine (congrFun (sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2) (ix2 0 q)).trans ?_
    exact hts.1
  · refine (congrFun (sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2) (ix2 0 q)).trans ?_
    exact hts.2.1
  · refine (congrFun (sout0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2) (ix2 0 q)).trans ?_
    exact hts.2.2

/-- At a last row tile likewise. -/
theorem step_C (he : ∀ i d, (m ((c.tc : Thread nD τ).loc main_arg0) : FVec Ideal S4096x64 .f32) (ix2 i d) = ((e i d : ℝ) : EReal))
    (hl : ∀ i, (m ((c.tc : Thread nD τ).loc main_arg1) : IVec S4096 32) (ix1 i) = BitVec.ofNat 32 (lab i).val)
    (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal))
    (t : Fin cfg0.N) (h0 : ¬t.val % 4 = 0) (h1 : t.val % 4 = 3)
    (hp0 : ∀ q : Fin 1024, (scAt0 m c (t.val - 1) (Nat.lt_of_le_of_lt (Nat.sub_le _ _) t.isLt)).1 (ix2 0 q) = Cert.Rec.stP e mu lv (col (colT t) q) (rowT t).val)
    (hp1 : ∀ q : Fin 1024, (scAt0 m c (t.val - 1) (Nat.lt_of_le_of_lt (Nat.sub_le _ _) t.isLt)).2.1 (ix2 0 q) = Cert.Rec.stM e lab mu lv (col (colT t) q) (rowT t).val)
    (hp2 : ∀ q : Fin 1024, (scAt0 m c (t.val - 1) (Nat.lt_of_le_of_lt (Nat.sub_le _ _) t.isLt)).2.2 (ix2 0 q) = Cert.Rec.stA e lab mu lv (col (colT t) q) (rowT t).val) :
    Inv m e lab mu lv c t := by
  intro q
  have hts := tile_step m e lab mu lv c he hl hmu hlv t (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2 hp0 hp1 hp2 q
  rw [scAt0_C m c t h0 h1]
  dsimp only
  refine ⟨?_, ?_, ?_⟩
  · refine (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2) (ix2 0 q)).trans ?_
    exact hts.1
  · refine (congrFun (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2) (ix2 0 q)).trans ?_
    exact hts.2.1
  · refine (congrFun (sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2) (ix2 0 q)).trans ?_
    exact hts.2.2

/-- The point before one that is not a first row tile is in the same column tile, one row tile earlier. -/
theorem prev_same (t : Fin cfg0.N) (h0 : ¬t.val % 4 = 0) (hlt : t.val - 1 < cfg0.N) :
    colT ⟨t.val - 1, hlt⟩ = colT t ∧ (rowT ⟨t.val - 1, hlt⟩).val + 1 = (rowT t).val := by
  refine ⟨Fin.ext ?_, ?_⟩
  · show (t.val - 1) / 4 = t.val / 4
    omega
  · show (t.val - 1) % 4 + 1 = t.val % 4
    omega

/-- The invariant holds after every point. -/
theorem inv_all (he : ∀ i d, (m ((c.tc : Thread nD τ).loc main_arg0) : FVec Ideal S4096x64 .f32) (ix2 i d) = ((e i d : ℝ) : EReal))
    (hl : ∀ i, (m ((c.tc : Thread nD τ).loc main_arg1) : IVec S4096 32) (ix1 i) = BitVec.ofNat 32 (lab i).val)
    (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal)) :
    ∀ (n : ℕ) (t : Fin cfg0.N), t.val = n → Inv m e lab mu lv c t := by
  intro n
  induction n using Nat.strong_induction_on with
  | _ n ih =>
    intro t ht
    by_cases h0 : t.val % 4 = 0
    · exact step_A m e lab mu lv c he hl hmu hlv t h0
    · have hlt : t.val - 1 < cfg0.N := Nat.lt_of_le_of_lt (Nat.sub_le _ _) t.isLt
      have hp : Inv m e lab mu lv c ⟨t.val - 1, hlt⟩ := ih (t.val - 1) (by omega) ⟨t.val - 1, hlt⟩ rfl
      obtain ⟨hc, hr⟩ := prev_same t h0 hlt
      have hp0 : ∀ q : Fin 1024, (scAt0 m c (t.val - 1) (Nat.lt_of_le_of_lt (Nat.sub_le _ _) t.isLt)).1 (ix2 0 q) = Cert.Rec.stP e mu lv (col (colT t) q) (rowT t).val :=
        fun q => by have h := (hp q).1; rw [hc, hr] at h; exact h
      have hp1 : ∀ q : Fin 1024, (scAt0 m c (t.val - 1) (Nat.lt_of_le_of_lt (Nat.sub_le _ _) t.isLt)).2.1 (ix2 0 q) = Cert.Rec.stM e lab mu lv (col (colT t) q) (rowT t).val :=
        fun q => by have h := (hp q).2.1; rw [hc, hr] at h; exact h
      have hp2 : ∀ q : Fin 1024, (scAt0 m c (t.val - 1) (Nat.lt_of_le_of_lt (Nat.sub_le _ _) t.isLt)).2.2 (ix2 0 q) = Cert.Rec.stA e lab mu lv (col (colT t) q) (rowT t).val :=
        fun q => by have h := (hp q).2.2; rw [hc, hr] at h; exact h
      by_cases h1 : t.val % 4 = 3
      · exact step_C m e lab mu lv c he hl hmu hlv t h0 h1 hp0 hp1 hp2
      · exact step_B m e lab mu lv c he hl hmu hlv t h0 h1 hp0 hp1 hp2

theorem inv (he : ∀ i d, (m ((c.tc : Thread nD τ).loc main_arg0) : FVec Ideal S4096x64 .f32) (ix2 i d) = ((e i d : ℝ) : EReal))
    (hl : ∀ i, (m ((c.tc : Thread nD τ).loc main_arg1) : IVec S4096 32) (ix1 i) = BitVec.ofNat 32 (lab i).val)
    (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal)) (t : Fin cfg0.N) : Inv m e lab mu lv c t :=
  inv_all m e lab mu lv c he hl hmu hlv t.val t rfl

end Inv

/-! ## The outputs at a last row tile, and the three arrays -/

section Out
variable (e : Fin 4096 → Fin 64 → ℝ) (lab : Fin 4096 → Fin 8192) (mu lv : Fin 8192 → Fin 64 → ℝ) (c : Dev nD)

/-- What the point before a point that is not a first row tile left: the rows at that point's own stage. -/
theorem prev_vals (he : ∀ i d, (m ((c.tc : Thread nD τ).loc main_arg0) : FVec Ideal S4096x64 .f32) (ix2 i d) = ((e i d : ℝ) : EReal))
    (hl : ∀ i, (m ((c.tc : Thread nD τ).loc main_arg1) : IVec S4096 32) (ix1 i) = BitVec.ofNat 32 (lab i).val)
    (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal))
    (t : Fin cfg0.N) (h0 : ¬t.val % 4 = 0) :
    (∀ q : Fin 1024, (scAt0 m c (t.val - 1) (Nat.lt_of_le_of_lt (Nat.sub_le _ _) t.isLt)).1 (ix2 0 q) = Cert.Rec.stP e mu lv (col (colT t) q) (rowT t).val)
    ∧ (∀ q : Fin 1024, (scAt0 m c (t.val - 1) (Nat.lt_of_le_of_lt (Nat.sub_le _ _) t.isLt)).2.1 (ix2 0 q) = Cert.Rec.stM e lab mu lv (col (colT t) q) (rowT t).val)
    ∧ (∀ q : Fin 1024, (scAt0 m c (t.val - 1) (Nat.lt_of_le_of_lt (Nat.sub_le _ _) t.isLt)).2.2 (ix2 0 q) = Cert.Rec.stA e lab mu lv (col (colT t) q) (rowT t).val) := by
  have hlt : t.val - 1 < cfg0.N := Nat.lt_of_le_of_lt (Nat.sub_le _ _) t.isLt
  have hp : Inv m e lab mu lv c ⟨t.val - 1, hlt⟩ := inv m e lab mu lv c he hl hmu hlv ⟨t.val - 1, hlt⟩
  obtain ⟨hc, hr⟩ := prev_same t h0 hlt
  refine ⟨fun q => ?_, fun q => ?_, fun q => ?_⟩
  · have h := (hp q).1; rw [hc, hr] at h; exact h
  · have h := (hp q).2.1; rw [hc, hr] at h; exact h
  · have h := (hp q).2.2; rw [hc, hr] at h; exact h

/-- At a last row tile the three payloads are the finished recurrences: the column's maximum of the positive-pair
    exponents, its own maximum of the masked negative-pair exponents, and its partial sum. -/
theorem last_tile (he : ∀ i d, (m ((c.tc : Thread nD τ).loc main_arg0) : FVec Ideal S4096x64 .f32) (ix2 i d) = ((e i d : ℝ) : EReal))
    (hl : ∀ i, (m ((c.tc : Thread nD τ).loc main_arg1) : IVec S4096 32) (ix1 i) = BitVec.ofNat 32 (lab i).val)
    (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal))
    (t : Fin cfg0.N) (h1 : t.val % 4 = 3) (q : Fin 1024) :
    k0_pay11 (F := Ideal) (iblk m c 0 t) (iblk m c 1 t) (iblk m c 2 t) (iblk m c 3 t) (scAt0 m c (t.val - 1) (Nat.lt_of_le_of_lt (Nat.sub_le _ _) t.isLt)).1 (ix2 0 q)
        = ((Cert.Spec.colMax e mu lv (col (colT t) q) : ℝ) : EReal)
    ∧ k0_pay4 (F := Ideal) (k0_pay9 (F := Ideal) (iblk m c 0 t) (iblk m c 1 t) (iblk m c 2 t) (iblk m c 3 t)) (k0_pay10 (F := Ideal) (grid0.coords t) (iblk m c 4 t)) (k0_pay12 (F := Ideal)) (scAt0 m c (t.val - 1) (Nat.lt_of_le_of_lt (Nat.sub_le _ _) t.isLt)).2.1 (ix2 0 q)
        = ((Cert.Spec.negMax e lab mu lv (col (colT t) q) : ℝ) : EReal)
    ∧ k0_pay3 (F := Ideal) (k0_pay9 (F := Ideal) (iblk m c 0 t) (iblk m c 1 t) (iblk m c 2 t) (iblk m c 3 t)) (k0_pay10 (F := Ideal) (grid0.coords t) (iblk m c 4 t)) (k0_pay12 (F := Ideal)) (scAt0 m c (t.val - 1) (Nat.lt_of_le_of_lt (Nat.sub_le _ _) t.isLt)).2.1
          (k0_pay2 (F := Ideal) (k0_pay9 (F := Ideal) (iblk m c 0 t) (iblk m c 1 t) (iblk m c 2 t) (iblk m c 3 t)) (k0_pay10 (F := Ideal) (grid0.coords t) (iblk m c 4 t)) (k0_pay12 (F := Ideal)) (scAt0 m c (t.val - 1) (Nat.lt_of_le_of_lt (Nat.sub_le _ _) t.isLt)).2.1 (scAt0 m c (t.val - 1) (Nat.lt_of_le_of_lt (Nat.sub_le _ _) t.isLt)).2.1 (scAt0 m c (t.val - 1) (Nat.lt_of_le_of_lt (Nat.sub_le _ _) t.isLt)).2.2) (ix2 0 q)
        = ((Cert.Spec.negAcc e lab mu lv (col (colT t) q) : ℝ) : EReal) := by
  have h0 : ¬t.val % 4 = 0 := by omega
  obtain ⟨hp0, hp1, hp2⟩ := prev_vals m e lab mu lv c he hl hmu hlv t h0
  have hts := tile_step m e lab mu lv c he hl hmu hlv t (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2 hp0 hp1 hp2 q
  have h4 : (rowT t).val + 1 = 4 := by show t.val % 4 + 1 = 4; omega
  rw [h4] at hts
  rw [Cert.Rec.stP_final, Cert.Rec.stM_final, Cert.Rec.stA_final] at hts
  exact hts

/-- Output window 5's buffer after a last row tile. -/
theorem out5 (he : ∀ i d, (m ((c.tc : Thread nD τ).loc main_arg0) : FVec Ideal S4096x64 .f32) (ix2 i d) = ((e i d : ℝ) : EReal))
    (hl : ∀ i, (m ((c.tc : Thread nD τ).loc main_arg1) : IVec S4096 32) (ix1 i) = BitVec.ofNat 32 (lab i).val)
    (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal))
    (t : Fin cfg0.N) (h1 : t.val % 4 = 3) (q : Fin 1024) :
    (outAt0_5 m c t : Vec Ideal S1x1024 .f32) (ix2 0 q) = ((Cert.Spec.colMax e mu lv (col (colT t) q) : ℝ) : EReal) := by
  have h0 : ¬t.val % 4 = 0 := by omega
  unfold outAt0_5
  rw [dif_pos h1]
  refine (congrFun (out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2) (ix2 0 q)).trans ?_
  exact (last_tile m e lab mu lv c he hl hmu hlv t h1 q).1

/-- Output window 6's buffer after a last row tile. -/
theorem out6 (he : ∀ i d, (m ((c.tc : Thread nD τ).loc main_arg0) : FVec Ideal S4096x64 .f32) (ix2 i d) = ((e i d : ℝ) : EReal))
    (hl : ∀ i, (m ((c.tc : Thread nD τ).loc main_arg1) : IVec S4096 32) (ix1 i) = BitVec.ofNat 32 (lab i).val)
    (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal))
    (t : Fin cfg0.N) (h1 : t.val % 4 = 3) (q : Fin 1024) :
    (outAt0_6 m c t : Vec Ideal S1x1024 .f32) (ix2 0 q) = ((Cert.Spec.negMax e lab mu lv (col (colT t) q) : ℝ) : EReal) := by
  have h0 : ¬t.val % 4 = 0 := by omega
  unfold outAt0_6
  rw [dif_pos h1]
  refine (congrFun (out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2) (ix2 0 q)).trans ?_
  exact (last_tile m e lab mu lv c he hl hmu hlv t h1 q).2.1

/-- Output window 7's buffer after a last row tile. -/
theorem out7 (he : ∀ i d, (m ((c.tc : Thread nD τ).loc main_arg0) : FVec Ideal S4096x64 .f32) (ix2 i d) = ((e i d : ℝ) : EReal))
    (hl : ∀ i, (m ((c.tc : Thread nD τ).loc main_arg1) : IVec S4096 32) (ix1 i) = BitVec.ofNat 32 (lab i).val)
    (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal))
    (t : Fin cfg0.N) (h1 : t.val % 4 = 3) (q : Fin 1024) :
    (outAt0_7 m c t : Vec Ideal S1x1024 .f32) (ix2 0 q) = ((Cert.Spec.negAcc e lab mu lv (col (colT t) q) : ℝ) : EReal) := by
  have h0 : ¬t.val % 4 = 0 := by omega
  unfold outAt0_7
  rw [dif_pos h1]
  refine (congrFun (out0_C_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (scAt0 m c (t.val - 1) (Nat.lt_of_le_of_lt (Nat.sub_le _ _) t.isLt)).1 (scAt0 m c (t.val - 1) (Nat.lt_of_le_of_lt (Nat.sub_le _ _) t.isLt)).2.1 (scAt0 m c (t.val - 1) (Nat.lt_of_le_of_lt (Nat.sub_le _ _) t.isLt)).2.2) (ix2 0 q)).trans ?_
  exact (last_tile m e lab mu lv c he hl hmu hlv t h1 q).2.2

end Out

/-! ## The three outputs after the last row tile of column tile `cc` -/

/-- After point `4 · cc + 3` output window 5's buffer holds, at column `q` of the tile, `colMax` of column `1024 · cc + q`. -/
theorem out5_value (c : Dev nD) (e : Fin 4096 → Fin 64 → ℝ) (lab : Fin 4096 → Fin 8192) (mu lv : Fin 8192 → Fin 64 → ℝ)
    (he : ∀ i d, (m ((c.tc : Thread nD τ).loc main_arg0) : FVec Ideal S4096x64 .f32) (ix2 i d) = ((e i d : ℝ) : EReal))
    (hl : ∀ i, (m ((c.tc : Thread nD τ).loc main_arg1) : IVec S4096 32) (ix1 i) = BitVec.ofNat 32 (lab i).val)
    (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal))
    (t : Fin cfg0.N) (cc : Fin 8) (ht : t.val = 4 * cc.val + 3) (q : Fin 1024) :
    outAt0_5 m c t (ix2 0 q) = ((Cert.Spec.colMax e mu lv (col cc q) : ℝ) : EReal) := by
  have h1 : t.val % 4 = 3 := by omega
  have hcc : colT t = cc := Fin.ext (by show t.val / 4 = cc.val; omega)
  rw [← hcc]
  exact out5 m e lab mu lv c he hl hmu hlv t h1 q

/-- After point `4 · cc + 3` output window 6's buffer holds, at column `q` of the tile, `negMax` of column `1024 · cc + q`. -/
theorem out6_value (c : Dev nD) (e : Fin 4096 → Fin 64 → ℝ) (lab : Fin 4096 → Fin 8192) (mu lv : Fin 8192 → Fin 64 → ℝ)
    (he : ∀ i d, (m ((c.tc : Thread nD τ).loc main_arg0) : FVec Ideal S4096x64 .f32) (ix2 i d) = ((e i d : ℝ) : EReal))
    (hl : ∀ i, (m ((c.tc : Thread nD τ).loc main_arg1) : IVec S4096 32) (ix1 i) = BitVec.ofNat 32 (lab i).val)
    (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal))
    (t : Fin cfg0.N) (cc : Fin 8) (ht : t.val = 4 * cc.val + 3) (q : Fin 1024) :
    outAt0_6 m c t (ix2 0 q) = ((Cert.Spec.negMax e lab mu lv (col cc q) : ℝ) : EReal) := by
  have h1 : t.val % 4 = 3 := by omega
  have hcc : colT t = cc := Fin.ext (by show t.val / 4 = cc.val; omega)
  rw [← hcc]
  exact out6 m e lab mu lv c he hl hmu hlv t h1 q

/-- After point `4 · cc + 3` output window 7's buffer holds, at column `q` of the tile, `negAcc` of column `1024 · cc + q`. -/
theorem out7_value (c : Dev nD) (e : Fin 4096 → Fin 64 → ℝ) (lab : Fin 4096 → Fin 8192) (mu lv : Fin 8192 → Fin 64 → ℝ)
    (he : ∀ i d, (m ((c.tc : Thread nD τ).loc main_arg0) : FVec Ideal S4096x64 .f32) (ix2 i d) = ((e i d : ℝ) : EReal))
    (hl : ∀ i, (m ((c.tc : Thread nD τ).loc main_arg1) : IVec S4096 32) (ix1 i) = BitVec.ofNat 32 (lab i).val)
    (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal))
    (t : Fin cfg0.N) (cc : Fin 8) (ht : t.val = 4 * cc.val + 3) (q : Fin 1024) :
    outAt0_7 m c t (ix2 0 q) = ((Cert.Spec.negAcc e lab mu lv (col cc q) : ℝ) : EReal) := by
  have h1 : t.val % 4 = 3 := by omega
  have hcc : colT t = cc := Fin.ext (by show t.val / 4 = cc.val; omega)
  rw [← hcc]
  exact out7 m e lab mu lv c he hl hmu hlv t h1 q

end Cert.KernelIdeal.Hand

end
-- ==== Proof.TailPos.lean ====
/-
  The exact positive-pair side of the loss and the count of occurring labels, as the kernel program's host tail computes
  them from the original arguments and the global maximum:

  * the labels pass through `select (lab < 0) (lab + 8192) lab`; on labels in `[0, 8192)` this is the identity;
  * each row gathers its own proxy's mean and log-variance rows, forms
    `-32 · (-(1/2) · (Σ_d (e − mu)² · exp (−lv) + Σ_d lv) − c)` — the row's own positive-pair exponent — and
    `exp` of its difference to the global maximum;
  * a scatter-add by label sums these per column: column `j` receives `Σ_{i : lab i = j} exp (posE i j − gmax)`;
  * an integer scatter-add of ones counts the rows of each label, and the number of nonzero counts is the number of
    labels that occur.
-/
import proofs.«429900_j26379689132773_3_alg».proof.Proof.Gen.KernelIdeal.Launch
import proofs.«429900_j26379689132773_3_alg».proof.Proof.Spec
import Idealize.ShloMosaic.Lib.ValueIdx
import Idealize.ShloMosaic.Lib.StableHlo.Predicate
import Idealize.ShloMosaic.PureOps.Ideal.Laws
import Idealize.ShloMosaic.PureOps.Reduce

noncomputable section

namespace Cert.KernelIdeal.Hand

open Idealize.ShloMosaic Idealize.ShloMosaic.ValueIdx Cert.KernelIdeal Cert.KernelIdeal.Gen

variable {F : FTy → Type} [FloatOps F]

/-! ## The host tail's terms -/

/-- The labels as the program indexes with them: `lab + 8192` where `lab` is negative, else `lab`, as a column. -/
def tPosLab (a1 : IVec S4096 32) : IVec S4096x1 32 :=
  broadcastInDim S4096x1 ![0] bcast_S4096_S4096x1_0
    (select (cmpi .slt a1 (broadcastInDim S4096 ![] bcast_S_S4096 (constantI S_ 32 0#32)))
      (addi a1 (broadcastInDim S4096 ![] bcast_S_S4096 (constantI S_ 32 8192#32))) a1)

/-- Row `i`'s `exp (own positive-pair exponent − global maximum)`. -/
def tPosExp (a0 : FVec F S4096x64 .f32) (a1 : IVec S4096 32) (a2 a3 : FVec F S8192x64 .f32) (gm : FVec F S_ .f32) :
    FVec F S4096 .f32 :=
  Host.exp (subf
    (mulf (broadcastInDim S4096 ![] bcast_S_S4096 (constant S_ .f32 0xC2000000#32))
      (subf
        (mulf (broadcastInDim S4096 ![] bcast_S_S4096 (constant S_ .f32 0xBF000000#32))
          (addf
            (Host.reduceAdd
              (mulf
                (mulf (subf a0 (Host.gather gather_S8192x64_S4096x1_S4096x64_1_0_n_n_0_1_164 a2 (tPosLab a1)))
                  (subf a0 (Host.gather gather_S8192x64_S4096x1_S4096x64_1_0_n_n_0_1_164 a2 (tPosLab a1))))
                (Host.exp (Host.negf (Host.gather gather_S8192x64_S4096x1_S4096x64_1_0_n_n_0_1_164 a3 (tPosLab a1)))))
              (constant S_ .f32 0x00000000#32) reducesTo_S4096x64_S4096_d1 h_S_)
            (Host.reduceAdd (Host.gather gather_S8192x64_S4096x1_S4096x64_1_0_n_n_0_1_164 a3 (tPosLab a1))
              (constant S_ .f32 0x00000000#32) reducesTo_S4096x64_S4096_d1 h_S_)))
        (broadcastInDim S4096 ![] bcast_S_S4096 (constant S_ .f32 0x3DCCCCCD#32))))
    (broadcastInDim S4096 ![] bcast_S_S4096 gm))

/-- The per-column sums of the rows' own terms: the scatter-add by label into zeros. -/
def tPos (a0 : FVec F S4096x64 .f32) (a1 : IVec S4096 32) (a2 a3 : FVec F S8192x64 .f32) (gm : FVec F S_ .f32) :
    FVec F S8192 .f32 :=
  Host.scatterAdd scatter_S8192_S4096x1_S4096_n_0_0_1
    (broadcastInDim S8192 ![] bcast_S_S8192 (constant S_ .f32 0x00000000#32)) (tPosLab a1) (tPosExp a0 a1 a2 a3 gm)

/-- How many rows carry each label: the integer scatter-add of ones by label into zeros. -/
def tCntCounts (a1 : IVec S4096 32) : IVec S8192 32 :=
  Host.scatter scatter_S8192_S4096x1_S4096_n_0_0_1 IntOp.addi
    (broadcastInDim S8192 ![] bcast_S_S8192 (constantI S_ 32 0#32)) (tPosLab a1)
    (broadcastInDim S4096 ![] bcast_S_S4096 (constantI S_ 32 1#32))

/-- The number of labels that occur, as a float: the sum of the widened bits "count ≠ 0", converted. -/
def tCnt (a1 : IVec S4096 32) : FVec F S_ .f32 :=
  sitofp (F := F) .f32
    (Host.reduce IntOp.addi
      (extui 32 (cmpi .ne (tCntCounts a1) (broadcastInDim S8192 ![] bcast_S_S8192 (constantI S_ 32 0#32))) natLt_1_32)
      (constantI S_ 32 0#32) reducesTo_S8192_S_d0 h_S_)

namespace TailPos

/-! ## Reading the label column -/

/-- A rank-1 index set is its one coordinate's range … -/
def idxEquiv1 {n : Nat} : (⟨1, ![n]⟩ : Shape).Idx ≃ Fin n where
  toFun u := u 0
  invFun a := ix1 a
  left_inv u := (eq_ix1 u).symm
  right_inv _ := rfl
/-- … so a sum over it is the sum over the coordinate. -/
theorem sum_idx1 {M : Type*} [AddCommMonoid M] {n : Nat} (f : (⟨1, ![n]⟩ : Shape).Idx → M) :
    ∑ u, f u = ∑ a : Fin n, f (ix1 a) := by
  rw [← Equiv.sum_comp (idxEquiv1 (n := n)).symm f]
  rfl

/-- A natural below 8192 as a 32-bit word is not negative: the comparison "less than zero" reads 0. -/
theorem slt_zero_of_small (n : ℕ) (hn : n < 8192) : IntOp.cmpi .slt (BitVec.ofNat 32 n) 0#32 = 0#1 := by
  apply eq_zero_of_ne_one
  intro h
  have h' := (StableHlo.Predicate.slt_iff_toNat (a := BitVec.ofNat 32 n) (b := 0#32)
    (by simp only [BitVec.toNat_ofNat]; omega) (by decide)).1 h
  simp only [BitVec.toNat_ofNat] at h'
  omega

/-- A vector as a column reads, at row `i`, the vector at `i`. -/
theorem bcastCol_apply {α : Type} (v : S4096.Idx → α) (i : Fin 4096) :
    broadcastInDim S4096x1 ![0] bcast_S4096_S4096x1_0 v (ix2 i (0 : Fin 1)) = v (ix1 i) := by
  simp only [broadcastInDim]
  congr 1
  funext a
  have ha : a = 0 := Subsingleton.elim _ _
  subst ha
  apply Fin.ext
  split
  · next h1 => exact absurd h1 (by decide)
  · rfl

/-- On labels in `[0, 8192)` the wrap is the identity: row `i` of the column is the label's word. -/
theorem tPosLab_apply (a1 : IVec S4096 32) (lab : Fin 4096 → Fin 8192)
    (hl : ∀ i, a1 (ix1 i) = BitVec.ofNat 32 (lab i).val) (i : Fin 4096) :
    tPosLab a1 (ix2 i (0 : Fin 1)) = BitVec.ofNat 32 (lab i).val := by
  unfold tPosLab
  rw [bcastCol_apply]
  show Scalar.select (IntOp.cmpi .slt (a1 (ix1 i)) 0#32) _ (a1 (ix1 i)) = _
  rw [hl i, slt_zero_of_small _ (lab i).isLt, select_zero]

/-- A label's word read signed, as a natural, is the label. -/
theorem toInt_toNat_lab (q : Fin 8192) : (BitVec.ofNat 32 q.val).toInt.toNat = q.val := by
  rw [StableHlo.Predicate.toInt_ofNat_small _ (by have := q.isLt; omega), Int.toNat_natCast]

end TailPos

namespace TailPos

/-! ## The row gather and the scatter's target, at a label in range -/

/-- THE ROW GATHER READ AT `(i, d)`: with row `i`'s start index the word of `q < 8192` (in range, so the clamp to
    `[0, 8191]` does nothing), the result is the operand's row `q` at column `d`. -/
theorem gather_row {α : Type} (x : S8192x64.Idx → α) (idx : IVec S4096x1 32) (i : Fin 4096) (d : Fin 64) (q : Fin 8192)
    (h : idx (ix2 i (0 : Fin 1)) = BitVec.ofNat 32 q.val) :
    Host.gather gather_S8192x64_S4096x1_S4096x64_1_0_n_n_0_1_164 x idx (ix2 i d) = x (ix2 q d) := by
  unfold Host.gather
  congr 1
  funext a
  refine Fin.ext ?_
  match a with
  | ⟨0, _⟩ =>
    show gather_S8192x64_S4096x1_S4096x64_1_0_n_n_0_1_164.start (ix2 i d) idx (0 : Fin S8192x64.rank)
        + gather_S8192x64_S4096x1_S4096x64_1_0_n_n_0_1_164.batchCoord (ix2 i d) (0 : Fin S8192x64.rank)
        + gather_S8192x64_S4096x1_S4096x64_1_0_n_n_0_1_164.offCoord (ix2 i d) (0 : Fin S8192x64.rank) = q.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S8192x64.rank) ∈ gather_S8192x64_S4096x1_S4096x64_1_0_n_n_0_1_164.startIndexMap from
      List.mem_singleton.mpr rfl)]
    have hsi : gather_S8192x64_S4096x1_S4096x64_1_0_n_n_0_1_164.siIdx (ix2 i d)
        ⟨List.idxOf (0 : Fin S8192x64.rank) gather_S8192x64_S4096x1_S4096x64_1_0_n_n_0_1_164.startIndexMap,
          List.idxOf_lt_length_iff.2 (List.mem_singleton.mpr rfl)⟩ = ix2 i (0 : Fin 1) := by
      funext b; refine Fin.ext ?_
      match b with
      | ⟨0, _⟩ => rfl
      | ⟨1, _⟩ => rfl
    rw [hsi, h, toInt_toNat_lab]
    show min q.val (8192 - 1) = q.val
    have := q.isLt
    omega
  | ⟨1, _⟩ =>
    show gather_S8192x64_S4096x1_S4096x64_1_0_n_n_0_1_164.start (ix2 i d) idx (1 : Fin S8192x64.rank)
        + gather_S8192x64_S4096x1_S4096x64_1_0_n_n_0_1_164.batchCoord (ix2 i d) (1 : Fin S8192x64.rank)
        + gather_S8192x64_S4096x1_S4096x64_1_0_n_n_0_1_164.offCoord (ix2 i d) (1 : Fin S8192x64.rank) = d.val
    have h1 : gather_S8192x64_S4096x1_S4096x64_1_0_n_n_0_1_164.start (ix2 i d) idx (1 : Fin S8192x64.rank) = 0 := by
      unfold GatherDims.start
      exact dif_neg (by decide)
    have h2 : gather_S8192x64_S4096x1_S4096x64_1_0_n_n_0_1_164.batchCoord (ix2 i d) (1 : Fin S8192x64.rank) = 0 :=
      GatherDims.batchCoord_eq_zero _ _ _ List.not_mem_nil
    have h3 : gather_S8192x64_S4096x1_S4096x64_1_0_n_n_0_1_164.offCoord (ix2 i d) (1 : Fin S8192x64.rank) = d.val := by
      unfold GatherDims.offCoord
      rw [dif_pos (by decide)]
      rfl
    rw [h1, h2, h3]
    omega

/-- THE SCATTER'S TARGET: with row `i`'s scatter index the word of `q < 8192`, update `i` lands on element `q`. -/
theorem scatter_target (idx : IVec S4096x1 32) (i : Fin 4096) (q : Fin 8192)
    (h : idx (ix2 i (0 : Fin 1)) = BitVec.ofNat 32 q.val) :
    scatter_S8192_S4096x1_S4096_n_0_0_1.resultIdx? (ix1 i) idx = some (ix1 q) := by
  have hq := q.isLt
  have hs : ∀ a, scatter_S8192_S4096x1_S4096_n_0_0_1.start (ix1 i) idx a
      + scatter_S8192_S4096x1_S4096_n_0_0_1.window (ix1 i) a = (q.val : ℤ) := by
    intro a
    have ha : a = (0 : Fin S8192.rank) := Subsingleton.elim _ _
    subst ha
    have hw : scatter_S8192_S4096x1_S4096_n_0_0_1.window (ix1 i) (0 : Fin S8192.rank) = 0 := by
      unfold ScatterDims.window
      exact dif_neg (by decide)
    have hst : scatter_S8192_S4096x1_S4096_n_0_0_1.start (ix1 i) idx (0 : Fin S8192.rank) = (q.val : ℤ) := by
      unfold ScatterDims.start
      rw [dif_pos (show (0 : Fin S8192.rank) ∈ scatter_S8192_S4096x1_S4096_n_0_0_1.scatterDimsToOperandDims from
        List.mem_singleton.mpr rfl)]
      have hsi : scatter_S8192_S4096x1_S4096_n_0_0_1.siIdx (ix1 i)
          ⟨List.idxOf (0 : Fin S8192.rank) scatter_S8192_S4096x1_S4096_n_0_0_1.scatterDimsToOperandDims,
            List.idxOf_lt_length_iff.2 (List.mem_singleton.mpr rfl)⟩ = ix2 i (0 : Fin 1) := by
        funext b; refine Fin.ext ?_
        match b with
        | ⟨0, _⟩ => rfl
        | ⟨1, _⟩ => rfl
      rw [hsi, h, StableHlo.Predicate.toInt_ofNat_small _ (by omega)]
    rw [hw, hst]
    simp only [Nat.cast_zero, add_zero]
  unfold ScatterDims.resultIdx?
  rw [dif_pos (fun a => by
    rw [hs a]
    have ha : a = (0 : Fin S8192.rank) := Subsingleton.elim _ _
    subst ha
    refine ⟨by omega, ?_⟩
    show (q.val : ℤ) < ((8192 : ℕ) : ℤ)
    omega)]
  congr 1
  funext a
  have ha : a = (0 : Fin S8192.rank) := Subsingleton.elim _ _
  subst ha
  refine Fin.ext ?_
  show (scatter_S8192_S4096x1_S4096_n_0_0_1.start (ix1 i) idx (0 : Fin S8192.rank)
      + scatter_S8192_S4096x1_S4096_n_0_0_1.window (ix1 i) (0 : Fin S8192.rank)).toNat = q.val
  rw [hs]
  exact Int.toNat_natCast _

end TailPos

namespace TailPos

open Cert.Spec

/-! ## The three constants, sums of reals, and the operations at an index -/

theorem ofBits_negHalf : Ideal.ofBits .f32 0xBF000000#32 = ((-(1 / 2) : ℝ) : EReal) := by
  simp [Ideal.ofBits, Ideal.ieee, -EReal.coe_mul]; norm_num
theorem ofBits_neg32 : Ideal.ofBits .f32 0xC2000000#32 = ((-32 : ℝ) : EReal) := by
  simp [Ideal.ofBits, Ideal.ieee, -EReal.coe_mul]; norm_num
theorem ofBits_c01 : Ideal.ofBits .f32 0x3DCCCCCD#32 = ((c01 : ℝ) : EReal) := by
  simp [Ideal.ofBits, Ideal.ieee, -EReal.coe_mul, c01]; norm_num

/-- A finite sum of reals, read in the extended reals, is the sum of the readings. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem hostExp_apply {s : Shape} {φ : FTy} (x : FVec Ideal s φ) (i : s.Idx) : Host.exp x i = Ideal.exp (x i) := rfl
theorem hostNegf_apply {s : Shape} {φ : FTy} (x : FVec Ideal s φ) (i : s.Idx) : Host.negf x i = -(x i) := rfl

/-- A scalar laid along the rows reads the scalar at every row. -/
theorem bcastRows_apply {α : Type} (v : S_.Idx → α) (u : S4096.Idx) :
    broadcastInDim S4096 ![] bcast_S_S4096 v u = v ix0 := by
  simp only [broadcastInDim]
  congr 1
  funext a
  exact a.elim0

/-- The host's sum over the 64 columns, from zero, at row `i`. -/
theorem rowSum_apply (x : FVec Ideal S4096x64 .f32) (i : Fin 4096) :
    Host.reduceAdd x (constant S_ .f32 0x00000000#32) reducesTo_S4096x64_S4096_d1 h_S_ (ix1 i)
      = ∑ d : Fin 64, x (ix2 i d) := by
  have hR : S4096x64.Reduces [1] S4096 := by decide
  show Ideal.hostReduceAdd reducesTo_S4096x64_S4096_d1 x (Ideal.ofBits .f32 0x00000000#32) (ix1 i) = _
  rw [Ideal.hostReduceAdd_single reducesTo_S4096x64_S4096_d1 hR, Ideal.ofBits_zero_f32, zero_add]
  refine Finset.sum_congr rfl fun d _ => congrArg x ?_
  funext a
  refine Fin.ext ?_
  match a with
  | ⟨0, _⟩ => rfl
  | ⟨1, _⟩ => rfl

/-! ## The rows' own terms -/

/-- Expanding the square: the row's own exponent is the positive-pair exponent at its own label. -/
theorem posOwn_eq (e : Fin 4096 → Fin 64 → ℝ) (lab : Fin 4096 → Fin 8192) (mu lv : Fin 8192 → Fin 64 → ℝ) (i : Fin 4096) :
    posOwn e lab mu lv i = posE e mu lv i (lab i) := by
  have key : (∑ d, (e i d - mu (lab i) d) * (e i d - mu (lab i) d) * ivar lv (lab i) d) + ∑ d, lv (lab i) d
      = (∑ d, e i d * e i d * ivar lv (lab i) d) - 2 * (∑ d, e i d * (mu (lab i) d * ivar lv (lab i) d))
        + ∑ d, (mu (lab i) d * mu (lab i) d * ivar lv (lab i) d + lv (lab i) d) := by
    rw [Finset.mul_sum, ← Finset.sum_sub_distrib, ← Finset.sum_add_distrib, ← Finset.sum_add_distrib]
    exact Finset.sum_congr rfl fun d _ => by ring
  unfold posOwn posE score sqTerm crossTerm constTerm
  rw [key]

variable (a0 : FVec Ideal S4096x64 .f32) (a1 : IVec S4096 32) (a2 a3 : FVec Ideal S8192x64 .f32)
  (e : Fin 4096 → Fin 64 → ℝ) (lab : Fin 4096 → Fin 8192) (mu lv : Fin 8192 → Fin 64 → ℝ)

/-- Row `i`'s term: `exp (posOwn i − gmax)`. -/
theorem tPosExp_value (he : ∀ i d, a0 (ix2 i d) = ((e i d : ℝ) : EReal))
    (hl : ∀ i, a1 (ix1 i) = BitVec.ofNat 32 (lab i).val)
    (hmu : ∀ j d, a2 (ix2 j d) = ((mu j d : ℝ) : EReal)) (hlv : ∀ j d, a3 (ix2 j d) = ((lv j d : ℝ) : EReal))
    (i : Fin 4096) :
    tPosExp (F := Ideal) a0 a1 a2 a3 (fun _ => ((gmax e mu lv : ℝ) : EReal)) (ix1 i)
      = ((Real.exp (posOwn e lab mu lv i - gmax e mu lv) : ℝ) : EReal) := by
  have hL := tPosLab_apply a1 lab hl i
  have hg2 : ∀ d, Host.gather gather_S8192x64_S4096x1_S4096x64_1_0_n_n_0_1_164 a2 (tPosLab a1) (ix2 i d)
      = ((mu (lab i) d : ℝ) : EReal) := fun d => by rw [gather_row a2 _ i d (lab i) hL, hmu]
  have hg3 : ∀ d, Host.gather gather_S8192x64_S4096x1_S4096x64_1_0_n_n_0_1_164 a3 (tPosLab a1) (ix2 i d)
      = ((lv (lab i) d : ℝ) : EReal) := fun d => by rw [gather_row a3 _ i d (lab i) hL, hlv]
  have hR1 : Host.reduceAdd
        (mulf
          (mulf (subf a0 (Host.gather gather_S8192x64_S4096x1_S4096x64_1_0_n_n_0_1_164 a2 (tPosLab a1)))
            (subf a0 (Host.gather gather_S8192x64_S4096x1_S4096x64_1_0_n_n_0_1_164 a2 (tPosLab a1))))
          (Host.exp (Host.negf (Host.gather gather_S8192x64_S4096x1_S4096x64_1_0_n_n_0_1_164 a3 (tPosLab a1)))))
        (constant S_ .f32 0x00000000#32) reducesTo_S4096x64_S4096_d1 h_S_ (ix1 i)
      = ((∑ d, (e i d - mu (lab i) d) * (e i d - mu (lab i) d) * ivar lv (lab i) d : ℝ) : EReal) := by
    rw [rowSum_apply, coe_sum]
    refine Finset.sum_congr rfl fun d _ => ?_
    simp only [mulf_apply, subf_apply, hostExp_apply, hostNegf_apply, he, hg2, hg3]
    rw [← EReal.coe_sub, ← EReal.coe_mul, ← EReal.coe_neg, Ideal.exp_coe, ← EReal.coe_mul]
    rfl
  have hR2 : Host.reduceAdd (Host.gather gather_S8192x64_S4096x1_S4096x64_1_0_n_n_0_1_164 a3 (tPosLab a1))
        (constant S_ .f32 0x00000000#32) reducesTo_S4096x64_S4096_d1 h_S_ (ix1 i)
      = ((∑ d, lv (lab i) d : ℝ) : EReal) := by
    rw [rowSum_apply, coe_sum]
    exact Finset.sum_congr rfl fun d _ => hg3 d
  unfold tPosExp
  simp only [hostExp_apply, subf_apply, mulf_apply, addf_apply, hR1, hR2]
  rw [bcastRows_apply, bcastRows_apply, bcastRows_apply, bcastRows_apply]
  simp only [constant_apply, ofBits_neg32, ofBits_negHalf, ofBits_c01]
  rw [← EReal.coe_add, ← EReal.coe_mul, ← EReal.coe_sub, ← EReal.coe_mul, ← EReal.coe_sub, Ideal.exp_coe]
  rfl

end TailPos

/-! ## The positive-pair sums -/

/-- Column `j` of the scatter-add: the sum, over the rows labelled `j`, of `exp (posE i j − gmax)`. -/
theorem tPos_value (a0 : FVec Ideal S4096x64 .f32) (a1 : IVec S4096 32) (a2 a3 : FVec Ideal S8192x64 .f32)
    (e : Fin 4096 → Fin 64 → ℝ) (lab : Fin 4096 → Fin 8192) (mu lv : Fin 8192 → Fin 64 → ℝ)
    (he : ∀ i d, a0 (ix2 i d) = ((e i d : ℝ) : EReal)) (hl : ∀ i, a1 (ix1 i) = BitVec.ofNat 32 (lab i).val)
    (hmu : ∀ j d, a2 (ix2 j d) = ((mu j d : ℝ) : EReal)) (hlv : ∀ j d, a3 (ix2 j d) = ((lv j d : ℝ) : EReal))
    (gm : FVec Ideal S_ .f32) (hgm : gm = fun _ => ((Cert.Spec.gmax e mu lv : ℝ) : EReal)) :
    tPos (F := Ideal) a0 a1 a2 a3 gm = fun j => ((Cert.Spec.possum e lab mu lv (j 0) : ℝ) : EReal) := by
  subst hgm
  have key : ∀ q : Fin 8192, tPos (F := Ideal) a0 a1 a2 a3 (fun _ => ((Cert.Spec.gmax e mu lv : ℝ) : EReal)) (ix1 q)
      = ((Cert.Spec.possum e lab mu lv q : ℝ) : EReal) := by
    intro q
    show Ideal.hostScatterAdd scatter_S8192_S4096x1_S4096_n_0_0_1
        (broadcastInDim S8192 ![] bcast_S_S8192 (constant (F := Ideal) S_ .f32 0x00000000#32)) (tPosLab a1)
        (tPosExp (F := Ideal) a0 a1 a2 a3 (fun _ => ((Cert.Spec.gmax e mu lv : ℝ) : EReal))) (ix1 q) = _
    unfold Ideal.hostScatterAdd
    rw [show (broadcastInDim S8192 ![] bcast_S_S8192 (constant (F := Ideal) S_ .f32 0x00000000#32)) (ix1 q) = (0 : EReal) from
      Ideal.ofBits_zero_f32, zero_add, Finset.sum_filter, TailPos.sum_idx1]
    unfold Cert.Spec.possum
    rw [TailPos.coe_sum]
    refine Finset.sum_congr rfl fun i _ => ?_
    rw [TailPos.scatter_target _ i (lab i) (TailPos.tPosLab_apply a1 lab hl i),
      TailPos.tPosExp_value a0 a1 a2 a3 e lab mu lv he hl hmu hlv i]
    by_cases h : lab i = q
    · rw [if_pos (by rw [h]), if_pos h, TailPos.posOwn_eq, h]
    · rw [if_neg (fun h' => h (congrFun (Option.some.inj h') 0)), if_neg h]
      exact EReal.coe_zero.symm
  funext j
  exact (congrArg (tPos (F := Ideal) a0 a1 a2 a3 (fun _ => ((Cert.Spec.gmax e mu lv : ℝ) : EReal))) (eq_ix1 j)).trans (key (j 0))

namespace TailPos

/-! ## The label counts -/

/-- A left fold whose step adds one at a target element and leaves the others: element `j` ends at its start plus the
    number of steps aimed at `j` (as a word; no bound is needed for this form). -/
theorem foldl_count {n : ℕ} (T : Fin n → S8192.Idx)
    (step : (S8192.Idx → BitVec 32) → Fin n → (S8192.Idx → BitVec 32))
    (hstep_eq : ∀ r k, step r k (T k) = r (T k) + 1#32) (hstep_ne : ∀ r k j, j ≠ T k → step r k j = r j)
    (L : List (Fin n)) (r : S8192.Idx → BitVec 32) (j : S8192.Idx) :
    L.foldl step r j = r j + BitVec.ofNat 32 (L.countP (fun k => T k = j)) := by
  induction L generalizing r with
  | nil => simp
  | cons k L ih =>
    rw [List.foldl_cons, ih, List.countP_cons]
    by_cases hj : T k = j
    · subst hj
      rw [hstep_eq]
      simp only [decide_true, if_true, BitVec.ofNat_add]
      rw [BitVec.add_assoc, BitVec.add_comm (BitVec.ofNat 32 1)]
    · rw [hstep_ne r k j (fun h => hj h.symm)]
      simp [hj]

variable (a1 : IVec S4096 32) (lab : Fin 4096 → Fin 8192)

/-- Every update lands on its row's label. -/
theorem scatter_target_all (hl : ∀ i, a1 (ix1 i) = BitVec.ofNat 32 (lab i).val) (u : S4096.Idx) :
    scatter_S8192_S4096x1_S4096_n_0_0_1.resultIdx? u (tPosLab a1) = some (ix1 (lab (u 0))) := by
  exact (congrArg (fun v => scatter_S8192_S4096x1_S4096_n_0_0_1.resultIdx? v (tPosLab a1)) (eq_ix1 u)).trans
    (scatter_target (tPosLab a1) (u 0) (lab (u 0)) (tPosLab_apply a1 lab hl (u 0)))

/-- The count of label `q`: the number of rows (in row-major order) labelled `q`, as a word. -/
theorem tCntCounts_apply (hl : ∀ i, a1 (ix1 i) = BitVec.ofNat 32 (lab i).val) (q : Fin 8192) :
    tCntCounts a1 (ix1 q)
      = BitVec.ofNat 32 ((List.finRange S4096.numel).countP
          (fun k => (ix1 (lab ((S4096.rowMajor.symm k) 0)) : S8192.Idx) = ix1 q)) := by
  unfold tCntCounts Host.scatter
  rw [foldl_count (fun k => (ix1 (lab ((S4096.rowMajor.symm k) 0)) : S8192.Idx))]
  · show (0#32 : BitVec 32) + _ = _
    rw [BitVec.zero_add]
  · intro r k
    simp only [scatter_target_all a1 lab hl (S4096.rowMajor.symm k), if_true]
    rfl
  · intro r k j hj
    simp only [scatter_target_all a1 lab hl (S4096.rowMajor.symm k), hj, if_false]

/-- A count is nonzero exactly when some row carries the label. -/
theorem tCntCounts_ne_zero_iff (hl : ∀ i, a1 (ix1 i) = BitVec.ofNat 32 (lab i).val) (q : Fin 8192) :
    tCntCounts a1 (ix1 q) ≠ 0#32 ↔ ∃ i, lab i = q := by
  rw [tCntCounts_apply a1 lab hl q]
  set c := (List.finRange S4096.numel).countP
    (fun k => (ix1 (lab ((S4096.rowMajor.symm k) 0)) : S8192.Idx) = ix1 q) with hc
  have hle : c ≤ S4096.numel := by
    have := List.countP_le_length (p := fun k => decide ((ix1 (lab ((S4096.rowMajor.symm k) 0)) : S8192.Idx) = ix1 q))
      (l := List.finRange S4096.numel)
    rwa [List.length_finRange] at this
  have hnum : S4096.numel < 2 ^ 32 := by simp [Shape.numel]
  have hz : BitVec.ofNat 32 c ≠ 0#32 ↔ 0 < c := by
    constructor
    · intro h
      rcases Nat.eq_zero_or_pos c with h0 | h0
      · exact absurd (by rw [h0]) h
      · exact h0
    · intro h e
      have := congrArg BitVec.toNat e
      simp only [BitVec.toNat_ofNat, BitVec.toNat_zero] at this
      rw [Nat.mod_eq_of_lt (by omega)] at this
      omega
  rw [hz, hc, List.countP_pos_iff]
  constructor
  · rintro ⟨k, _, hk⟩
    exact ⟨(S4096.rowMajor.symm k) 0, congrFun (of_decide_eq_true hk) 0⟩
  · rintro ⟨i, hi⟩
    refine ⟨S4096.rowMajor (ix1 i), List.mem_finRange _, decide_eq_true ?_⟩
    rw [Equiv.symm_apply_apply]
    show (ix1 (lab i) : S8192.Idx) = ix1 q
    rw [hi]

end TailPos

/-! ## The number of labels that occur -/

/-- The sum of the bits "count ≠ 0" over the 8192 columns, converted: the number of labels that occur. -/
theorem tCnt_value (a1 : IVec S4096 32) (lab : Fin 4096 → Fin 8192)
    (hl : ∀ i, a1 (ix1 i) = BitVec.ofNat 32 (lab i).val) :
    tCnt (F := Ideal) a1 = fun _ => (((Cert.Spec.nvalid lab : ℕ) : ℝ) : EReal) := by
  funext j0
  have hiff : ∀ q : Fin 8192,
      cmpi .ne (tCntCounts a1) (broadcastInDim S8192 ![] bcast_S_S8192 (constantI S_ 32 0#32)) (ix1 q) = 1#1
        ↔ ∃ i, lab i = q := by
    intro q
    show IntOp.cmpi .ne (tCntCounts a1 (ix1 q)) 0#32 = 1#1 ↔ _
    rw [← TailPos.tCntCounts_ne_zero_iff a1 lab hl q]
    simp only [IntOp.cmpi, StableHlo.Predicate.ofBool_eq_one_iff, bne_iff_ne]
  have hsum : ∑ u : S8192.Idx,
      (extui 32 (cmpi .ne (tCntCounts a1) (broadcastInDim S8192 ![] bcast_S_S8192 (constantI S_ 32 0#32))) natLt_1_32
        u).toNat = Cert.Spec.nvalid lab := by
    rw [TailPos.sum_idx1]
    unfold Cert.Spec.nvalid
    rw [Finset.card_filter]
    refine Finset.sum_congr rfl fun q _ => ?_
    rw [extui_apply, StableHlo.Predicate.toNat_setWidth_bit]
    by_cases h : ∃ i, lab i = q
    · rw [if_pos ((hiff q).2 h), if_pos h]
    · rw [if_neg (fun h' => h ((hiff q).1 h')), if_neg h]
  have hle : Cert.Spec.nvalid lab ≤ 8192 := by
    unfold Cert.Spec.nvalid
    exact (Finset.card_le_univ _).trans (by simp)
  have hword : (Host.reduce IntOp.addi
      (extui 32 (cmpi .ne (tCntCounts a1) (broadcastInDim S8192 ![] bcast_S_S8192 (constantI S_ 32 0#32))) natLt_1_32)
      (constantI S_ 32 0#32) reducesTo_S8192_S_d0 h_S_ j0).toNat = Cert.Spec.nvalid lab := by
    rw [Host.reduce_eq_fold]
    rw [Finset.filter_true_of_mem (fun u _ => funext fun a => a.elim0)]
    show (Finset.fold IntOp.addi 0#32 _ Finset.univ).toNat = _
    rw [StableHlo.Predicate.toNat_fold_addi _ _ (by rw [hsum]; omega), hsum]
  show ((((Host.reduce IntOp.addi
      (extui 32 (cmpi .ne (tCntCounts a1) (broadcastInDim S8192 ![] bcast_S_S8192 (constantI S_ 32 0#32))) natLt_1_32)
      (constantI S_ 32 0#32) reducesTo_S8192_S_d0 h_S_ j0).toInt : ℤ) : ℝ) : EReal) = _
  rw [StableHlo.Predicate.toInt_eq_toNat_of_lt (by rw [hword]; omega), hword, Int.cast_natCast]

end Cert.KernelIdeal.Hand

end
-- ==== Proof.Tail.lean ====
/-
  The kernel program's host tail, after the per-column arrays are computed: from the row of column maxima `o0`, the row
  of each column's own maximum of the masked negative-pair exponents `o1` and the row of partial sums `o2` taken
  relative to `o1`,

  * the global maximum `m` is the maximum of `o0`;
  * column `j`'s negative-pair sum relative to `m` is `exp (o1 j − m) · o2 j`:
    `exp (a − m) · Σ_i exp (x_i − a) = Σ_i exp (x_i − m)`;
  * the result is `(Σ_j log1p (pos_j) + 8192 · m) / nvalid + (Σ_j log1p (neg_j) + 8192 · m) / 8192`, and
    `Σ_j log1p (x_j) + 8192 · m = Σ_j (log (1 + x_j) + m)` for `x_j ≥ 0`.

  The first part states the tail's terms and that the 94 operations compute them and write no argument; the second
  reads them over the extended reals.
-/
import proofs.«429900_j26379689132773_3_alg».proof.Proof.Gen.KernelIdeal.Launch
import proofs.«429900_j26379689132773_3_alg».proof.Proof.Spec
import proofs.«429900_j26379689132773_3_alg».proof.Proof.TailPos
import Idealize.ShloMosaic.Lib.StableHlo.Run
import Idealize.ShloMosaic.Lib.ValueIdx
import Idealize.ShloMosaic.Lib.ValueIdxRank1
import Idealize.ShloMosaic.Lib.IdealHost
import Idealize.ShloMosaic.Lib.Pipeline.Value
import Idealize.ShloMosaic.PureOps.Ideal.Laws
import Idealize.ShloMosaic.PureOps.Reduce

set_option maxRecDepth 4096

noncomputable section

namespace Cert.KernelIdeal.Hand

open Idealize.ShloMosaic Idealize.ShloMosaic.ValueIdx Cert.KernelIdeal Cert.KernelIdeal.Gen

variable {F : FTy → Type} [FloatOps F]

/-! ## The tail's terms -/

/-- The largest entry of the per-column running maxima: the maximum-reduce over both axes, from minus infinity. -/
def tM (o0 : FVec F S1x8192 .f32) : FVec F S_ .f32 :=
  Host.reduce FloatOps.maximumf o0 (constant S_ .f32 0xFF800000#32) reducesTo_S1x8192_S_d0_1 h_S_

/-- The per-column partial sums rescaled from each column's own maximum to the global one, as a vector. -/
def tNeg (o0 o1 o2 : FVec F S1x8192 .f32) : FVec F S8192 .f32 :=
  fun i => shapeCast S8192
    (mulf (Host.exp (subf o1 (broadcastInDim S1x8192 ![] bcast_S_S1x8192 (tM o0)))) o2)
    shapeCasts_S1x8192_S8192 i

/-- The program's result from its arguments and the three per-column arrays. -/
def tOut (a0 : FVec F S4096x64 .f32) (a1 : IVec S4096 32) (a2 a3 : FVec F S8192x64 .f32)
    (o0 o1 o2 : FVec F S1x8192 .f32) : FVec F S_ .f32 :=
  addf
    (Host.divf
      (addf
        (Host.reduceAdd (Host.log1p (tPos a0 a1 a2 a3 (tM o0))) (constant S_ .f32 0x00000000#32) reducesTo_S8192_S_d0 h_S_)
        (mulf (constant S_ .f32 0x46000000#32) (tM o0)))
      (tCnt a1))
    (Host.divf
      (addf
        (Host.reduceAdd (Host.log1p (tNeg o0 o1 o2)) (constant S_ .f32 0x00000000#32) reducesTo_S8192_S_d0 h_S_)
        (mulf (constant S_ .f32 0x46000000#32) (tM o0)))
      (constant S_ .f32 0x46000000#32))

/-! ## The tail's run -/

set_option maxHeartbeats 4000000 in
/-- The tail's run: after the 94 operations the result buffer holds `tOut` of the arguments and the three per-column arrays. -/
theorem after_tail (W : Valuation τ sig (Elt F)) :
    StableHlo.after (hostOps1 : List (HloOp τ sig (Elt F))) W (Proc.devRef .tc main_v98)
      = tOut (W (Proc.devRef .tc main_arg0)) (W (Proc.devRef .tc main_arg1)) (W (Proc.devRef .tc main_arg2))
          (W (Proc.devRef .tc main_arg3)) (W (Proc.devRef .tc main_v28_0)) (W (Proc.devRef .tc main_v28_1))
          (W (Proc.devRef .tc main_v28_2)) := by
  open Idealize.ShloMosaic.StableHlo in after_results_simp
  rfl

/-- The tail writes none of the four arguments. -/
theorem after_tail_arg0 (W : Valuation τ sig (Elt F)) :
    StableHlo.after (hostOps1 : List (HloOp τ sig (Elt F))) W (Proc.devRef .tc main_arg0) = W (Proc.devRef .tc main_arg0) := by
  open Idealize.ShloMosaic.StableHlo in after_results_simp
theorem after_tail_arg1 (W : Valuation τ sig (Elt F)) :
    StableHlo.after (hostOps1 : List (HloOp τ sig (Elt F))) W (Proc.devRef .tc main_arg1) = W (Proc.devRef .tc main_arg1) := by
  open Idealize.ShloMosaic.StableHlo in after_results_simp
theorem after_tail_arg2 (W : Valuation τ sig (Elt F)) :
    StableHlo.after (hostOps1 : List (HloOp τ sig (Elt F))) W (Proc.devRef .tc main_arg2) = W (Proc.devRef .tc main_arg2) := by
  open Idealize.ShloMosaic.StableHlo in after_results_simp
theorem after_tail_arg3 (W : Valuation τ sig (Elt F)) :
    StableHlo.after (hostOps1 : List (HloOp τ sig (Elt F))) W (Proc.devRef .tc main_arg3) = W (Proc.devRef .tc main_arg3) := by
  open Idealize.ShloMosaic.StableHlo in after_results_simp

/-! ## The terms over the extended reals -/

/-! ### Two constants of the program, and a finite sum of coercions -/

/-- The pattern `0xFF800000` denotes minus infinity. -/
theorem ofBits_negInf : Ideal.ofBits .f32 0xFF800000#32 = ⊥ := by
  simp [Ideal.ofBits, Ideal.ieee]

/-- The pattern `0x46000000` denotes the real `8192`. -/
theorem ofBits_8192 : Ideal.ofBits .f32 0x46000000#32 = ((8192 : ℝ) : EReal) := by
  simp [Ideal.ofBits, Ideal.ieee, -EReal.coe_mul]; norm_num

/-- The coercion of a finite real sum is the sum of the coercions. -/
theorem coe_finsum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- `log (1 + x)` at a real `x ≥ 0` is the real logarithm. -/
theorem log1p_coe_nonneg {g : ℝ} (hg : 0 ≤ g) : Ideal.log1p ((g : ℝ) : EReal) = ((Real.log (1 + g) : ℝ) : EReal) := by
  show Ideal.log (1 + ((g : ℝ) : EReal)) = _
  rw [show (1 : EReal) + ((g : ℝ) : EReal) = (((1 + g : ℝ)) : EReal) by rw [EReal.coe_add, EReal.coe_one],
    Ideal.log_coe, if_neg (by linarith)]

/-! ### The global maximum -/

/-- The maximum-reduce of the row of column maxima, from minus infinity, is the maximum over the whole matrix. -/
theorem tM_value (o0 : FVec Ideal S1x8192 .f32) (e : Fin 4096 → Fin 64 → ℝ) (mu lv : Fin 8192 → Fin 64 → ℝ)
    (h0 : ∀ j : Fin 8192, o0 (ix2 0 j) = ((Cert.Spec.colMax e mu lv j : ℝ) : EReal)) :
    tM (F := Ideal) o0 = fun _ => ((Cert.Spec.gmax e mu lv : ℝ) : EReal) := by
  funext j
  show Host.reduce FloatOps.maximumf o0 (constant S_ .f32 0xFF800000#32) reducesTo_S1x8192_S_d0_1 h_S_ j = _
  rw [Host.reduce_eq_fold]
  have hfilt : (Finset.univ.filter fun i : S1x8192.Idx => reducesTo_S1x8192_S_d0_1.drop i = j) = Finset.univ :=
    Finset.filter_true_of_mem fun i _ => funext fun b => b.elim0
  rw [hfilt]
  show Finset.fold max (Ideal.ofBits .f32 0xFF800000#32) o0 Finset.univ = _
  rw [ofBits_negInf]
  change Finset.univ.sup o0 = _
  apply le_antisymm
  · apply Finset.sup_le
    intro i _
    obtain ⟨a, b, rfl⟩ : ∃ (a : Fin 1) (b : Fin 8192), i = ix2 a b := ⟨i 0, i 1, eq_ix2 i⟩
    obtain rfl : a = 0 := Subsingleton.elim _ _
    rw [h0, EReal.coe_le_coe_iff]
    exact Finset.le_sup' _ (Finset.mem_univ b)
  · obtain ⟨b, _, hb⟩ := Finset.exists_mem_eq_sup' Finset.univ_nonempty (Cert.Spec.colMax e mu lv)
    show ((Finset.univ.sup' Finset.univ_nonempty (Cert.Spec.colMax e mu lv) : ℝ) : EReal) ≤ _
    rw [hb, ← h0]
    exact Finset.le_sup (Finset.mem_univ _)

/-! ### The negative side: rescaling each column's partial sum to the global maximum -/

/-- `exp (negMax − gmax) · Σ_i [lab i ≠ j] exp (negE − negMax) = Σ_i [lab i ≠ j] exp (negE − gmax)`. -/
theorem tNeg_value (o0 o1 o2 : FVec Ideal S1x8192 .f32) (e : Fin 4096 → Fin 64 → ℝ) (lab : Fin 4096 → Fin 8192)
    (mu lv : Fin 8192 → Fin 64 → ℝ)
    (h0 : ∀ j : Fin 8192, o0 (ix2 0 j) = ((Cert.Spec.colMax e mu lv j : ℝ) : EReal))
    (h1 : ∀ j : Fin 8192, o1 (ix2 0 j) = ((Cert.Spec.negMax e lab mu lv j : ℝ) : EReal))
    (h2 : ∀ j : Fin 8192, o2 (ix2 0 j) = ((Cert.Spec.negAcc e lab mu lv j : ℝ) : EReal)) :
    tNeg (F := Ideal) o0 o1 o2 = fun j => ((Cert.Spec.negsum e lab mu lv ⟨(j 0).val, (j 0).isLt⟩ : ℝ) : EReal) := by
  funext j
  obtain ⟨q, rfl⟩ : ∃ q : Fin 8192, j = ix1 q := ⟨j 0, eq_ix1 j⟩
  show shapeCast S8192 (mulf (Host.exp (subf o1 (broadcastInDim S1x8192 ![] bcast_S_S1x8192 (tM o0)))) o2)
    shapeCasts_S1x8192_S8192 (ix1 q) = ((Cert.Spec.negsum e lab mu lv q : ℝ) : EReal)
  rw [tM_value o0 e mu lv h0, shapeCast_dropUnit_apply ![8192]]
  have hidx : (Fin.cons ⟨0, Nat.one_pos⟩ (ix1 q) : S1x8192.Idx) = ix2 (0 : Fin 1) q := by
    funext a; match a with | ⟨0, _⟩ => rfl | ⟨1, _⟩ => rfl
  rw [hidx]
  show Ideal.exp (o1 (ix2 0 q) - ((Cert.Spec.gmax e mu lv : ℝ) : EReal)) * o2 (ix2 0 q) = _
  rw [h1, h2, ← EReal.coe_sub, Ideal.exp_coe, ← EReal.coe_mul, EReal.coe_eq_coe_iff]
  show Real.exp (Cert.Spec.negMax e lab mu lv q - Cert.Spec.gmax e mu lv)
      * (∑ i, if lab i = q then 0 else Real.exp (Cert.Spec.negE e mu lv i q - Cert.Spec.negMax e lab mu lv q))
    = ∑ i, if lab i = q then 0 else Real.exp (Cert.Spec.negE e mu lv i q - Cert.Spec.gmax e mu lv)
  rw [Finset.mul_sum]
  refine Finset.sum_congr rfl fun i _ => ?_
  split_ifs
  · rw [mul_zero]
  · rw [← Real.exp_add]; congr 1; ring

/-! ### The two sums of logarithms, and the result -/

/-- `Σ_j log1p (x_j) + 8192 · m = Σ_j (log (1 + x_j) + m)` for a vector of reals `x_j ≥ 0`. -/
theorem sum_log1p_add (x : FVec Ideal S8192 .f32) (g : Fin 8192 → ℝ) (hg : ∀ q, 0 ≤ g q)
    (hx : ∀ q : Fin 8192, x (ix1 q) = ((g q : ℝ) : EReal)) (m : ℝ) :
    addf (Host.reduceAdd (Host.log1p x) (constant S_ .f32 0x00000000#32) reducesTo_S8192_S_d0 h_S_)
        (mulf (constant S_ .f32 0x46000000#32) (fun _ => ((m : ℝ) : EReal)))
      = fun _ => ((∑ q, (Real.log (1 + g q) + m) : ℝ) : EReal) := by
  funext j
  show Ideal.hostReduceAdd reducesTo_S8192_S_d0 (Host.log1p x) (Ideal.ofBits .f32 0x00000000#32) j
      + Ideal.ofBits .f32 0x46000000#32 * ((m : ℝ) : EReal) = _
  rw [Ideal.hostReduceAdd_total reducesTo_S8192_S_d0 (fun b => b.elim0), Ideal.ofBits_zero_f32, zero_add, ofBits_8192,
    ← Equiv.sum_comp (idxEquiv1 (n := 8192)).symm]
  have hterm : ∀ q : Fin 8192, Host.log1p x ((idxEquiv1 (n := 8192)).symm q) = ((Real.log (1 + g q) : ℝ) : EReal) := by
    intro q
    show Ideal.log1p (x (ix1 q)) = _
    rw [hx, log1p_coe_nonneg (hg q)]
  rw [Finset.sum_congr rfl fun q _ => hterm q, ← coe_finsum, ← EReal.coe_mul, ← EReal.coe_add, EReal.coe_eq_coe_iff,
    Finset.sum_add_distrib, Finset.sum_const, Finset.card_univ, Fintype.card_fin, nsmul_eq_mul]
  norm_num

/-- The program's result is the loss, given the positive side column by column and the count of occurring labels. -/
theorem tOut_value_of (a0 : FVec Ideal S4096x64 .f32) (a1 : IVec S4096 32) (a2 a3 : FVec Ideal S8192x64 .f32)
    (o0 o1 o2 : FVec Ideal S1x8192 .f32)
    (e : Fin 4096 → Fin 64 → ℝ) (lab : Fin 4096 → Fin 8192) (mu lv : Fin 8192 → Fin 64 → ℝ)
    (h0 : ∀ j : Fin 8192, o0 (ix2 0 j) = ((Cert.Spec.colMax e mu lv j : ℝ) : EReal))
    (h1 : ∀ j : Fin 8192, o1 (ix2 0 j) = ((Cert.Spec.negMax e lab mu lv j : ℝ) : EReal))
    (h2 : ∀ j : Fin 8192, o2 (ix2 0 j) = ((Cert.Spec.negAcc e lab mu lv j : ℝ) : EReal))
    (hP : ∀ q : Fin 8192, tPos (F := Ideal) a0 a1 a2 a3 (tM o0) (ix1 q) = ((Cert.Spec.possum e lab mu lv q : ℝ) : EReal))
    (hC : tCnt (F := Ideal) a1 = fun _ => (((Cert.Spec.nvalid lab : ℕ) : ℝ) : EReal)) :
    tOut (F := Ideal) a0 a1 a2 a3 o0 o1 o2 = fun _ => Cert.Spec.loss e lab mu lv := by
  have hM := tM_value o0 e mu lv h0
  have hN := tNeg_value o0 o1 o2 e lab mu lv h0 h1 h2
  have hpos : ∀ q, 0 ≤ Cert.Spec.possum e lab mu lv q := fun q =>
    Finset.sum_nonneg fun i _ => by split_ifs <;> [exact (Real.exp_pos _).le; exact le_rfl]
  have hneg : ∀ q, 0 ≤ Cert.Spec.negsum e lab mu lv q := fun q =>
    Finset.sum_nonneg fun i _ => by split_ifs <;> [exact le_rfl; exact (Real.exp_pos _).le]
  have hSP := sum_log1p_add (tPos a0 a1 a2 a3 (tM o0)) (Cert.Spec.possum e lab mu lv) hpos hP (Cert.Spec.gmax e mu lv)
  have hSN := sum_log1p_add (tNeg o0 o1 o2) (Cert.Spec.negsum e lab mu lv) hneg
    (fun q => by rw [hN]) (Cert.Spec.gmax e mu lv)
  rw [← hM] at hSP hSN
  show addf (Host.divf (addf (Host.reduceAdd (Host.log1p (tPos a0 a1 a2 a3 (tM o0))) (constant S_ .f32 0x00000000#32)
          reducesTo_S8192_S_d0 h_S_) (mulf (constant S_ .f32 0x46000000#32) (tM o0))) (tCnt a1))
      (Host.divf (addf (Host.reduceAdd (Host.log1p (tNeg o0 o1 o2)) (constant S_ .f32 0x00000000#32)
          reducesTo_S8192_S_d0 h_S_) (mulf (constant S_ .f32 0x46000000#32) (tM o0))) (constant S_ .f32 0x46000000#32)) = _
  rw [hSP, hSN, hC]
  funext j
  show Ideal.div _ _ + Ideal.div _ (Ideal.ofBits .f32 0x46000000#32) = _
  rw [ofBits_8192]
  rfl

/-- The program's result is the loss. -/
theorem tOut_value (a0 : FVec Ideal S4096x64 .f32) (a1 : IVec S4096 32) (a2 a3 : FVec Ideal S8192x64 .f32)
    (o0 o1 o2 : FVec Ideal S1x8192 .f32)
    (e : Fin 4096 → Fin 64 → ℝ) (lab : Fin 4096 → Fin 8192) (mu lv : Fin 8192 → Fin 64 → ℝ)
    (he : ∀ i d, a0 (ix2 i d) = ((e i d : ℝ) : EReal)) (hl : ∀ i, a1 (ix1 i) = BitVec.ofNat 32 (lab i).val)
    (hmu : ∀ j d, a2 (ix2 j d) = ((mu j d : ℝ) : EReal)) (hlv : ∀ j d, a3 (ix2 j d) = ((lv j d : ℝ) : EReal))
    (h0 : ∀ j : Fin 8192, o0 (ix2 0 j) = ((Cert.Spec.colMax e mu lv j : ℝ) : EReal))
    (h1 : ∀ j : Fin 8192, o1 (ix2 0 j) = ((Cert.Spec.negMax e lab mu lv j : ℝ) : EReal))
    (h2 : ∀ j : Fin 8192, o2 (ix2 0 j) = ((Cert.Spec.negAcc e lab mu lv j : ℝ) : EReal)) :
    tOut (F := Ideal) a0 a1 a2 a3 o0 o1 o2 = fun _ => Cert.Spec.loss e lab mu lv :=
  tOut_value_of a0 a1 a2 a3 o0 o1 o2 e lab mu lv h0 h1 h2
    (fun q => by rw [tPos_value a0 a1 a2 a3 e lab mu lv he hl hmu hlv (tM o0) (tM_value o0 e mu lv h0)])
    (tCnt_value a1 lab hl)

end Cert.KernelIdeal.Hand
end
-- ==== Proof.KIValue.lean ====
/-
  The three result arrays of the kernel call after the run, and the program's result.

  Each result window is written back exactly at the last row tile of a column tile, and what is written is the
  block of columns `1024 · cc … 1024 · cc + 1023` of one whole-array function (`colMax`, `negMax`, `negAcc`);
  every column lies in the block of the last row tile of its own column tile, so the three arrays end as those
  functions.  The tail of the program, applied to them and to the unchanged arguments, is the loss.
-/
import proofs.«429900_j26379689132773_3_alg».proof.Proof.KIValueA
import proofs.«429900_j26379689132773_3_alg».proof.Proof.Tail

set_option maxRecDepth 16384

noncomputable section

namespace Cert.KernelIdeal.Hand

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

/-! ## The three result arrays after the run -/

section Arrays
variable (e : Fin 4096 → Fin 64 → ℝ) (lab : Fin 4096 → Fin 8192) (mu lv : Fin 8192 → Fin 64 → ℝ) (c : Dev nD)

/-- The whole array `j ↦ colMax j`. -/
def G5 : FVec Ideal S1x8192 .f32 := fun y => ((Cert.Spec.colMax e mu lv ⟨(y 1).val, idx2_lt1 y⟩ : ℝ) : EReal)

/-- What a last row tile writes back is its block of that array. -/
theorem flushed5_eq (he : ∀ i d, (m ((c.tc : Thread nD τ).loc main_arg0) : FVec Ideal S4096x64 .f32) (ix2 i d) = ((e i d : ℝ) : EReal))
    (hl : ∀ i, (m ((c.tc : Thread nD τ).loc main_arg1) : IVec S4096 32) (ix1 i) = BitVec.ofNat 32 (lab i).val)
    (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal))
    (t : Fin cfg0.N) (hf : (cfg0.win 5).flush t = true) :
    (dats m 0 c).flushed 5 t = ((cfg0.win 5).blk t).view.read (Elt Ideal) (G5 e mu lv) := by
  have h1 : t.val % 4 = 3 := (flush0_5 t).mp hf
  have hi := (idx_facts t).2.2.2.2.2.1
  show (cfg0.win 5).cut (grid0.coords t) ((dats m 0 c).after 5 t) = _
  rw [after0_5]
  funext y
  rw [View.read_apply]
  obtain ⟨q, rfl⟩ : ∃ q : Fin 1024, y = ix2 0 q :=
    ⟨⟨(y 1).val, (y 1).isLt⟩, funext fun a => by
      match a with
      | ⟨0, _⟩ => exact Fin.ext (by have h : (y 0).val < 1 := (y 0).isLt; show (y 0).val = 0; omega)
      | ⟨1, _⟩ => rfl⟩
  show (outAt0_5 m c t : Vec Ideal S1x1024 .f32) (ix2 0 q) = _
  refine (out5 m e lab mu lv c he hl hmu hlv t h1 q).trans ?_
  refine congrArg (fun j : Fin 8192 => ((Cert.Spec.colMax e mu lv j : ℝ) : EReal)) (Fin.ext ?_)
  show 1024 * (t.val / 4) + q.val = win0_5.index t 1 * 1024 + 1 * q.val
  rw [hi.2]
  omega

/-- Every column is in the block of the last row tile of its column tile. -/
theorem cover5 (i : S1x8192.Idx) :
    ∃ t : Fin cfg0.N, (cfg0.win 5).flush t = true ∧ i ∈ ((cfg0.win 5).blk t).view.set := by
  have hN : cfg0.N = 32 := N_0
  have hi1 : (i 1).val < 8192 := idx2_lt1 i
  have hi0 : (i 0).val < 1 := idx2_lt0 i
  obtain ⟨t, htv⟩ : ∃ t : Fin cfg0.N, t.val = 4 * ((i 1).val / 1024) + 3 := ⟨⟨4 * ((i 1).val / 1024) + 3, by omega⟩, rfl⟩
  have hx := (idx_facts t).2.2.2.2.2.1
  refine ⟨t, (flush0_5 t).mpr (by omega), ?_⟩
  show i ∈ ((View.whole main_v28_0).slice (win0_5.rect t)).set
  rw [View.set_slice_whole, Rect.mem_set_unit]
  intro a
  match a with
  | ⟨0, _⟩ =>
    show win0_5.index t 0 * 1 ≤ (i 0).val ∧ (i 0).val < win0_5.index t 0 * 1 + 1
    rw [hx.1]; omega
  | ⟨1, _⟩ =>
    show win0_5.index t 1 * 1024 ≤ (i 1).val ∧ (i 1).val < win0_5.index t 1 * 1024 + 1024
    rw [hx.2]; omega

/-- Result array 0 after the run: `j ↦ colMax j`. -/
theorem arr5 (he : ∀ i d, (m ((c.tc : Thread nD τ).loc main_arg0) : FVec Ideal S4096x64 .f32) (ix2 i d) = ((e i d : ℝ) : EReal))
    (hl : ∀ i, (m ((c.tc : Thread nD τ).loc main_arg1) : IVec S4096 32) (ix1 i) = BitVec.ofNat 32 (lab i).val)
    (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal))
    (j : Fin 8192) :
    ((dats m 0 c).arrAt 5 cfg0.N : FVec Ideal S1x8192 .f32) (ix2 0 j) = ((Cert.Spec.colMax e mu lv j : ℝ) : EReal) :=
  (congrFun ((dats m 0 c).arrAt_eq_of_cover 5 (G5 e mu lv) (flushed5_eq m e lab mu lv c he hl hmu hlv) cover5) (ix2 0 j)).trans rfl

/-- The whole array `j ↦ negMax j`. -/
def G6 : FVec Ideal S1x8192 .f32 := fun y => ((Cert.Spec.negMax e lab mu lv ⟨(y 1).val, idx2_lt1 y⟩ : ℝ) : EReal)

/-- What a last row tile writes back is its block of that array. -/
theorem flushed6_eq (he : ∀ i d, (m ((c.tc : Thread nD τ).loc main_arg0) : FVec Ideal S4096x64 .f32) (ix2 i d) = ((e i d : ℝ) : EReal))
    (hl : ∀ i, (m ((c.tc : Thread nD τ).loc main_arg1) : IVec S4096 32) (ix1 i) = BitVec.ofNat 32 (lab i).val)
    (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal))
    (t : Fin cfg0.N) (hf : (cfg0.win 6).flush t = true) :
    (dats m 0 c).flushed 6 t = ((cfg0.win 6).blk t).view.read (Elt Ideal) (G6 e lab mu lv) := by
  have h1 : t.val % 4 = 3 := (flush0_6 t).mp hf
  have hi := (idx_facts t).2.2.2.2.2.2.1
  show (cfg0.win 6).cut (grid0.coords t) ((dats m 0 c).after 6 t) = _
  rw [after0_6]
  funext y
  rw [View.read_apply]
  obtain ⟨q, rfl⟩ : ∃ q : Fin 1024, y = ix2 0 q :=
    ⟨⟨(y 1).val, (y 1).isLt⟩, funext fun a => by
      match a with
      | ⟨0, _⟩ => exact Fin.ext (by have h : (y 0).val < 1 := (y 0).isLt; show (y 0).val = 0; omega)
      | ⟨1, _⟩ => rfl⟩
  show (outAt0_6 m c t : Vec Ideal S1x1024 .f32) (ix2 0 q) = _
  refine (out6 m e lab mu lv c he hl hmu hlv t h1 q).trans ?_
  refine congrArg (fun j : Fin 8192 => ((Cert.Spec.negMax e lab mu lv j : ℝ) : EReal)) (Fin.ext ?_)
  show 1024 * (t.val / 4) + q.val = win0_6.index t 1 * 1024 + 1 * q.val
  rw [hi.2]
  omega

/-- Every column is in the block of the last row tile of its column tile. -/
theorem cover6 (i : S1x8192.Idx) :
    ∃ t : Fin cfg0.N, (cfg0.win 6).flush t = true ∧ i ∈ ((cfg0.win 6).blk t).view.set := by
  have hN : cfg0.N = 32 := N_0
  have hi1 : (i 1).val < 8192 := idx2_lt1 i
  have hi0 : (i 0).val < 1 := idx2_lt0 i
  obtain ⟨t, htv⟩ : ∃ t : Fin cfg0.N, t.val = 4 * ((i 1).val / 1024) + 3 := ⟨⟨4 * ((i 1).val / 1024) + 3, by omega⟩, rfl⟩
  have hx := (idx_facts t).2.2.2.2.2.2.1
  refine ⟨t, (flush0_6 t).mpr (by omega), ?_⟩
  show i ∈ ((View.whole main_v28_1).slice (win0_6.rect t)).set
  rw [View.set_slice_whole, Rect.mem_set_unit]
  intro a
  match a with
  | ⟨0, _⟩ =>
    show win0_6.index t 0 * 1 ≤ (i 0).val ∧ (i 0).val < win0_6.index t 0 * 1 + 1
    rw [hx.1]; omega
  | ⟨1, _⟩ =>
    show win0_6.index t 1 * 1024 ≤ (i 1).val ∧ (i 1).val < win0_6.index t 1 * 1024 + 1024
    rw [hx.2]; omega

/-- Result array 1 after the run: `j ↦ negMax j`. -/
theorem arr6 (he : ∀ i d, (m ((c.tc : Thread nD τ).loc main_arg0) : FVec Ideal S4096x64 .f32) (ix2 i d) = ((e i d : ℝ) : EReal))
    (hl : ∀ i, (m ((c.tc : Thread nD τ).loc main_arg1) : IVec S4096 32) (ix1 i) = BitVec.ofNat 32 (lab i).val)
    (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal))
    (j : Fin 8192) :
    ((dats m 0 c).arrAt 6 cfg0.N : FVec Ideal S1x8192 .f32) (ix2 0 j) = ((Cert.Spec.negMax e lab mu lv j : ℝ) : EReal) :=
  (congrFun ((dats m 0 c).arrAt_eq_of_cover 6 (G6 e lab mu lv) (flushed6_eq m e lab mu lv c he hl hmu hlv) cover6) (ix2 0 j)).trans rfl

/-- The whole array `j ↦ negAcc j`. -/
def G7 : FVec Ideal S1x8192 .f32 := fun y => ((Cert.Spec.negAcc e lab mu lv ⟨(y 1).val, idx2_lt1 y⟩ : ℝ) : EReal)

/-- What a last row tile writes back is its block of that array. -/
theorem flushed7_eq (he : ∀ i d, (m ((c.tc : Thread nD τ).loc main_arg0) : FVec Ideal S4096x64 .f32) (ix2 i d) = ((e i d : ℝ) : EReal))
    (hl : ∀ i, (m ((c.tc : Thread nD τ).loc main_arg1) : IVec S4096 32) (ix1 i) = BitVec.ofNat 32 (lab i).val)
    (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal))
    (t : Fin cfg0.N) (hf : (cfg0.win 7).flush t = true) :
    (dats m 0 c).flushed 7 t = ((cfg0.win 7).blk t).view.read (Elt Ideal) (G7 e lab mu lv) := by
  have h1 : t.val % 4 = 3 := (flush0_7 t).mp hf
  have hi := (idx_facts t).2.2.2.2.2.2.2.1
  show (cfg0.win 7).cut (grid0.coords t) ((dats m 0 c).after 7 t) = _
  rw [after0_7]
  funext y
  rw [View.read_apply]
  obtain ⟨q, rfl⟩ : ∃ q : Fin 1024, y = ix2 0 q :=
    ⟨⟨(y 1).val, (y 1).isLt⟩, funext fun a => by
      match a with
      | ⟨0, _⟩ => exact Fin.ext (by have h : (y 0).val < 1 := (y 0).isLt; show (y 0).val = 0; omega)
      | ⟨1, _⟩ => rfl⟩
  show (outAt0_7 m c t : Vec Ideal S1x1024 .f32) (ix2 0 q) = _
  refine (out7 m e lab mu lv c he hl hmu hlv t h1 q).trans ?_
  refine congrArg (fun j : Fin 8192 => ((Cert.Spec.negAcc e lab mu lv j : ℝ) : EReal)) (Fin.ext ?_)
  show 1024 * (t.val / 4) + q.val = win0_7.index t 1 * 1024 + 1 * q.val
  rw [hi.2]
  omega

/-- Every column is in the block of the last row tile of its column tile. -/
theorem cover7 (i : S1x8192.Idx) :
    ∃ t : Fin cfg0.N, (cfg0.win 7).flush t = true ∧ i ∈ ((cfg0.win 7).blk t).view.set := by
  have hN : cfg0.N = 32 := N_0
  have hi1 : (i 1).val < 8192 := idx2_lt1 i
  have hi0 : (i 0).val < 1 := idx2_lt0 i
  obtain ⟨t, htv⟩ : ∃ t : Fin cfg0.N, t.val = 4 * ((i 1).val / 1024) + 3 := ⟨⟨4 * ((i 1).val / 1024) + 3, by omega⟩, rfl⟩
  have hx := (idx_facts t).2.2.2.2.2.2.2.1
  refine ⟨t, (flush0_7 t).mpr (by omega), ?_⟩
  show i ∈ ((View.whole main_v28_2).slice (win0_7.rect t)).set
  rw [View.set_slice_whole, Rect.mem_set_unit]
  intro a
  match a with
  | ⟨0, _⟩ =>
    show win0_7.index t 0 * 1 ≤ (i 0).val ∧ (i 0).val < win0_7.index t 0 * 1 + 1
    rw [hx.1]; omega
  | ⟨1, _⟩ =>
    show win0_7.index t 1 * 1024 ≤ (i 1).val ∧ (i 1).val < win0_7.index t 1 * 1024 + 1024
    rw [hx.2]; omega

/-- Result array 2 after the run: `j ↦ negAcc j`. -/
theorem arr7 (he : ∀ i d, (m ((c.tc : Thread nD τ).loc main_arg0) : FVec Ideal S4096x64 .f32) (ix2 i d) = ((e i d : ℝ) : EReal))
    (hl : ∀ i, (m ((c.tc : Thread nD τ).loc main_arg1) : IVec S4096 32) (ix1 i) = BitVec.ofNat 32 (lab i).val)
    (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal))
    (j : Fin 8192) :
    ((dats m 0 c).arrAt 7 cfg0.N : FVec Ideal S1x8192 .f32) (ix2 0 j) = ((Cert.Spec.negAcc e lab mu lv j : ℝ) : EReal) :=
  (congrFun ((dats m 0 c).arrAt_eq_of_cover 7 (G7 e lab mu lv) (flushed7_eq m e lab mu lv c he hl hmu hlv) cover7) (ix2 0 j)).trans rfl

end Arrays

/-! ## The program's result -/

/-- The program ends with the loss: its tail applied to the arguments, which no operation changed, and to the three
    result arrays. -/
theorem kernel_value (ρ : Dev nD → PrngReg) (c : Dev nD)
    (e : Fin 4096 → Fin 64 → ℝ) (lab : Fin 4096 → Fin 8192) (mu lv : Fin 8192 → Fin 64 → ℝ)
    (he : ∀ i d, (m ((c.tc : Thread nD τ).loc main_arg0) : FVec Ideal S4096x64 .f32) (ix2 i d) = ((e i d : ℝ) : EReal))
    (hl : ∀ i, (m ((c.tc : Thread nD τ).loc main_arg1) : IVec S4096 32) (ix1 i) = BitVec.ofNat 32 (lab i).val)
    (hmu : ∀ j d, (m ((c.tc : Thread nD τ).loc main_arg2) : FVec Ideal S8192x64 .f32) (ix2 j d) = ((mu j d : ℝ) : EReal))
    (hlv : ∀ j d, (m ((c.tc : Thread nD τ).loc main_arg3) : FVec Ideal S8192x64 .f32) (ix2 j d) = ((lv j d : ℝ) : EReal)) :
    Pipeline.afterTail₀ cfgs (dats m) 0 (V0 m) [hostOps1] c main_v98 = fun _ => Cert.Spec.loss e lab mu lv := by
  unfold Pipeline.afterTail₀
  show StableHlo.after hostOps1 _ (Proc.devRef .tc main_v98) = _
  rw [after_tail,
    Pipeline.withArrays_of_ne _ c (V0 m c) _ main_arg0 (by exact (by decide : ∀ w, Pipeline.arrRef spec0 w ≠ main_arg0)),
    Pipeline.withArrays_of_ne _ c (V0 m c) _ main_arg1 (by exact (by decide : ∀ w, Pipeline.arrRef spec0 w ≠ main_arg1)),
    Pipeline.withArrays_of_ne _ c (V0 m c) _ main_arg2 (by exact (by decide : ∀ w, Pipeline.arrRef spec0 w ≠ main_arg2)),
    Pipeline.withArrays_of_ne _ c (V0 m c) _ main_arg3 (by exact (by decide : ∀ w, Pipeline.arrRef spec0 w ≠ main_arg3)),
    Pipeline.withArrays_arr spec0 launch0.win.arr_inj c _ _ 5,
    Pipeline.withArrays_arr spec0 launch0.win.arr_inj c _ _ 6,
    Pipeline.withArrays_arr spec0 launch0.win.arr_inj c _ _ 7]
  exact tOut_value _ _ _ _ _ _ _ e lab mu lv
    (fun i d => (congrFun (V_main_arg0 m c) (ix2 i d)).trans (he i d))
    (fun i => (congrFun (V_main_arg1 m c) (ix1 i)).trans (hl i))
    (fun j d => (congrFun (V_main_arg2 m c) (ix2 j d)).trans (hmu j d))
    (fun j d => (congrFun (V_main_arg3 m c) (ix2 j d)).trans (hlv j d))
    (arr5 m e lab mu lv c he hl hmu hlv) (arr6 m e lab mu lv c he hl hmu hlv) (arr7 m e lab mu lv c he hl hmu hlv)

end Cert.KernelIdeal.Hand

end
-- ==== Proof.RefValue.lean ====
/-
  The reference program computes the loss of the specification.

  Stage by stage, every intermediate array of the reference is the coercion of a real array: the inverse variances
  `exp (-lv)`, the two products and the column constant that make up the score, the two exponents, the largest
  positive-pair exponent of the whole matrix (a maximum started at minus infinity over a finite nonempty index set:
  every entry lies below the iterated supremum and the iterated supremum is attained), the one-hot mask (two label words
  below 8192 are equal exactly when the labels are), the masked exponentials and their column sums (nonnegative, so
  each logarithm's argument is at least one), and the count of labels that occur (a sum of at most 8192 zero/one
  words does not wrap, and a nonnegative integer below 2^31 converts to itself).  The two final quotients are left as
  the extended reals' division, as the specification states them.
-/
import proofs.«429900_j26379689132773_3_alg».proof.Proof.RefRead
import proofs.«429900_j26379689132773_3_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

namespace Cert.RefSide

open Idealize.ShloMosaic Idealize.ShloMosaic.ValueIdx Cert.ReferenceIdeal Cert.ReferenceIdeal.ReadP Cert.Spec
open scoped BigOperators

/-! ### Coercions and the program's float literals -/

/-- The coercion of the reals into the extended reals commutes with finite sums. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A rank-1 index set is its coordinate range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

theorem lit_two : Ideal.ofBits .f32 0x40000000#32 = ((2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_neg32 : Ideal.ofBits .f32 0xC2000000#32 = ((-32 : ℝ) : EReal) := by
  simp [Ideal.ofBits, Ideal.ieee, -EReal.coe_mul]; norm_num
theorem lit_32 : Ideal.ofBits .f32 0x42000000#32 = ((32 : ℝ) : EReal) := by
  simp [Ideal.ofBits, Ideal.ieee, -EReal.coe_mul]; norm_num
theorem lit_8192 : Ideal.ofBits .f32 0x46000000#32 = ((8192 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_c01 : Ideal.ofBits .f32 0x3DCCCCCD#32 = ((c01 : ℝ) : EReal) := by
  unfold c01
  simp [Ideal.ofBits, Ideal.ieee, -EReal.coe_mul]; norm_num
theorem lit_bot : Ideal.ofBits .f32 0xFF800000#32 = (⊥ : EReal) := by
  simp [Ideal.ofBits, Ideal.ieee]
theorem lit_zero : Ideal.ofBits .f32 0x00000000#32 = ((0 : ℝ) : EReal) := by
  rw [Ideal.ofBits_zero_f32, EReal.coe_zero]

/-! ### The score matrix and the two exponents, entry by entry -/

section Stages

variable (x0 : FVec Ideal S4096x64 .f32) (x1 : IVec S4096 32) (x2 x3 : FVec Ideal S8192x64 .f32)
    (e : Fin 4096 → Fin 64 → ℝ) (lab : Fin 4096 → Fin 8192) (mu lv : Fin 8192 → Fin 64 → ℝ)

/-- The inverse variance: `exp (-lv j d)`. -/
theorem v1_at (hlv : ∀ j d, x3 (ix2 j d) = ((lv j d : ℝ) : EReal)) (j : Fin 8192) (d : Fin 64) :
    val_main_v1 (F := Ideal) x3 (ix2 j d) = ((ivar lv j d : ℝ) : EReal) := by
  rw [val_main_v1_apply, val_main_v0_apply, hlv]
  simp only [Ideal.hostUnary_exp_def, Ideal.hostNegf_def, Ideal.negf_def]
  rw [← EReal.coe_neg, Ideal.exp_coe]
  rfl

/-- The first product: `Σ_d e i d² · w j d`. -/
theorem v4_at (he : ∀ i d, x0 (ix2 i d) = ((e i d : ℝ) : EReal))
    (hlv : ∀ j d, x3 (ix2 j d) = ((lv j d : ℝ) : EReal)) (i : Fin 4096) (j : Fin 8192) :
    val_main_v4 (F := Ideal) x0 x3 (ix2 i j) = ((sqTerm e lv i j : ℝ) : EReal) := by
  rw [val_main_v4_apply]
  unfold sqTerm
  rw [coe_sum]
  refine Finset.sum_congr rfl fun k _ => ?_
  have hl : lidx_main_v4 (ix2 i j) k = ix2 i k := funext fun a => Fin.ext (by
    match a with | ⟨0, _⟩ => rfl | ⟨1, _⟩ => rfl)
  have hr : ridx_main_v4 (ix2 i j) k = ix2 k j := funext fun a => Fin.ext (by
    match a with | ⟨0, _⟩ => rfl | ⟨1, _⟩ => rfl)
  have ht : idx_main_v3 (ix2 k j) = ix2 j k := funext fun a => Fin.ext (by
    match a with | ⟨0, _⟩ => rfl | ⟨1, _⟩ => rfl)
  rw [hl, hr, val_main_v2_apply, val_main_v3_apply, ht, v1_at x3 lv hlv, he]
  simp only [Ideal.mulf_def]
  rw [← EReal.coe_mul, ← EReal.coe_mul]

/-- The second product: `Σ_d e i d · (mu j d · w j d)`. -/
theorem v7_at (he : ∀ i d, x0 (ix2 i d) = ((e i d : ℝ) : EReal))
    (hmu : ∀ j d, x2 (ix2 j d) = ((mu j d : ℝ) : EReal))
    (hlv : ∀ j d, x3 (ix2 j d) = ((lv j d : ℝ) : EReal)) (i : Fin 4096) (j : Fin 8192) :
    val_main_v7 (F := Ideal) x0 x2 x3 (ix2 i j) = ((crossTerm e mu lv i j : ℝ) : EReal) := by
  rw [val_main_v7_apply]
  unfold crossTerm
  rw [coe_sum]
  refine Finset.sum_congr rfl fun k _ => ?_
  have hl : lidx_main_v7 (ix2 i j) k = ix2 i k := funext fun a => Fin.ext (by
    match a with | ⟨0, _⟩ => rfl | ⟨1, _⟩ => rfl)
  have hr : ridx_main_v7 (ix2 i j) k = ix2 k j := funext fun a => Fin.ext (by
    match a with | ⟨0, _⟩ => rfl | ⟨1, _⟩ => rfl)
  have ht : idx_main_v6 (ix2 k j) = ix2 j k := funext fun a => Fin.ext (by
    match a with | ⟨0, _⟩ => rfl | ⟨1, _⟩ => rfl)
  rw [hl, hr, val_main_v6_apply, ht, val_main_v5_apply, v1_at x3 lv hlv, he, hmu]
  simp only [Ideal.mulf_def]
  rw [← EReal.coe_mul, ← EReal.coe_mul]

/-- The column constant: `Σ_d (mu j d² · w j d + lv j d)`. -/
theorem v11_at (hmu : ∀ j d, x2 (ix2 j d) = ((mu j d : ℝ) : EReal))
    (hlv : ∀ j d, x3 (ix2 j d) = ((lv j d : ℝ) : EReal)) (j : Fin 8192) :
    val_main_v11 (F := Ideal) x2 x3 (ix1 j) = ((constTerm mu lv j : ℝ) : EReal) := by
  rw [val_main_v11_apply, val_main_cst_apply]
  simp only [Ideal.ofBits_def]
  rw [Ideal.ofBits_zero_f32, zero_add]
  unfold constTerm
  rw [coe_sum]
  refine Finset.sum_congr rfl fun k _ => ?_
  have hi : idx_main_v11 (ix1 j) k = ix2 j k := funext fun a => Fin.ext (by
    match a with | ⟨0, _⟩ => rfl | ⟨1, _⟩ => rfl)
  rw [hi, val_main_v10_apply, val_main_v9_apply, val_main_v8_apply, v1_at x3 lv hlv, hmu, hlv]
  simp only [Ideal.mulf_def, Ideal.addf_def]
  rw [← EReal.coe_mul, ← EReal.coe_mul, ← EReal.coe_add]

/-- The score. -/
theorem v19_at (he : ∀ i d, x0 (ix2 i d) = ((e i d : ℝ) : EReal))
    (hmu : ∀ j d, x2 (ix2 j d) = ((mu j d : ℝ) : EReal))
    (hlv : ∀ j d, x3 (ix2 j d) = ((lv j d : ℝ) : EReal)) (i : Fin 4096) (j : Fin 8192) :
    val_main_v19 (F := Ideal) x0 x2 x3 (ix2 i j) = ((score e mu lv i j : ℝ) : EReal) := by
  have h16 : idx_main_v15 (idx_main_v16 (ix2 i j)) = ix1 j := funext fun a => Fin.ext (by
    match a with | ⟨0, _⟩ => rfl)
  rw [val_main_v19_apply, val_main_v18_apply, val_main_cst_1_apply, val_main_v17_apply, val_main_v14_apply,
    val_main_v13_apply, val_main_v12_apply, val_main_cst_0_apply, val_main_v16_apply, val_main_v15_apply, h16,
    v4_at x0 x3 e lv he hlv, v7_at x0 x2 x3 e mu lv he hmu hlv, v11_at x2 x3 mu lv hmu hlv]
  simp only [Ideal.ofBits_def, Ideal.mulf_def, Ideal.addf_def, Ideal.subf_def]
  rw [lit_two, lit_neg_half, ← EReal.coe_mul, ← EReal.coe_sub, ← EReal.coe_add, ← EReal.coe_mul]
  rfl

/-- The positive-pair exponent. -/
theorem v24_at (he : ∀ i d, x0 (ix2 i d) = ((e i d : ℝ) : EReal))
    (hmu : ∀ j d, x2 (ix2 j d) = ((mu j d : ℝ) : EReal))
    (hlv : ∀ j d, x3 (ix2 j d) = ((lv j d : ℝ) : EReal)) (i : Fin 4096) (j : Fin 8192) :
    val_main_v24 (F := Ideal) x0 x2 x3 (ix2 i j) = ((posE e mu lv i j : ℝ) : EReal) := by
  rw [val_main_v24_apply, val_main_v23_apply, val_main_cst_3_apply, val_main_v22_apply, val_main_v21_apply,
    val_main_cst_2_apply, v19_at x0 x2 x3 e mu lv he hmu hlv]
  simp only [Ideal.ofBits_def, Ideal.mulf_def, Ideal.subf_def]
  rw [lit_neg32, lit_c01, ← EReal.coe_sub, ← EReal.coe_mul]
  rfl

/-- The negative-pair exponent. -/
theorem v28_at (he : ∀ i d, x0 (ix2 i d) = ((e i d : ℝ) : EReal))
    (hmu : ∀ j d, x2 (ix2 j d) = ((mu j d : ℝ) : EReal))
    (hlv : ∀ j d, x3 (ix2 j d) = ((lv j d : ℝ) : EReal)) (i : Fin 4096) (j : Fin 8192) :
    val_main_v28 (F := Ideal) x0 x2 x3 (ix2 i j) = ((negE e mu lv i j : ℝ) : EReal) := by
  rw [val_main_v28_apply, val_main_v27_apply, val_main_cst_5_apply, val_main_v26_apply, val_main_v25_apply,
    val_main_cst_4_apply, v19_at x0 x2 x3 e mu lv he hmu hlv]
  simp only [Ideal.ofBits_def, Ideal.mulf_def, Ideal.addf_def]
  rw [lit_32, lit_c01, ← EReal.coe_add, ← EReal.coe_mul]
  rfl

/-! ### The maximum over the whole matrix -/

/-- At the extended reals the float maximum is the order's. -/
theorem fold_maximumf_eq {ι : Type} (s : Finset ι) (f : ι → EReal) (b : EReal) :
    s.fold (FloatOps.maximumf (F := Ideal) (φ := .f32)) b f = s.fold max b f := rfl

/-- The maximum-reduce over both axes, started at minus infinity, is the largest positive-pair exponent:
    every entry lies below the iterated supremum, and the iterated supremum is attained at some entry. -/
theorem v29_at (he : ∀ i d, x0 (ix2 i d) = ((e i d : ℝ) : EReal))
    (hmu : ∀ j d, x2 (ix2 j d) = ((mu j d : ℝ) : EReal))
    (hlv : ∀ j d, x3 (ix2 j d) = ((lv j d : ℝ) : EReal)) (k : S_.Idx) :
    val_main_v29 (F := Ideal) x0 x2 x3 k = ((gmax e mu lv : ℝ) : EReal) := by
  have hx : ∀ i j, val_main_v24 (F := Ideal) x0 x2 x3 (ix2 i j) = ((posE e mu lv i j : ℝ) : EReal) :=
    v24_at x0 x2 x3 e mu lv he hmu hlv
  unfold val_main_v29
  generalize val_main_v24 (F := Ideal) x0 x2 x3 = y at hx ⊢
  rw [Host.reduce_eq_fold, Finset.filter_true_of_mem (fun i _ => funext fun b => b.elim0), val_main_cst_6_apply,
    fold_maximumf_eq]
  simp only [Ideal.ofBits_def]
  rw [lit_bot]
  apply le_antisymm
  · rw [Finset.fold_max_le]
    refine ⟨bot_le, fun x _ => ?_⟩
    obtain ⟨i, j, rfl⟩ : ∃ (i : Fin 4096) (j : Fin 8192), x = ix2 i j := ⟨x 0, x 1, eq_ix2 x⟩
    rw [hx, EReal.coe_le_coe_iff]
    exact (Finset.le_sup' (fun i => posE e mu lv i j) (Finset.mem_univ i)).trans
      (Finset.le_sup' (colMax e mu lv) (Finset.mem_univ j))
  · rw [Finset.le_fold_max]
    right
    obtain ⟨j, _, hj⟩ := Finset.exists_mem_eq_sup' Finset.univ_nonempty (colMax e mu lv)
    obtain ⟨i, _, hi⟩ := Finset.exists_mem_eq_sup' Finset.univ_nonempty (fun i => posE e mu lv i j)
    refine ⟨ix2 i j, Finset.mem_univ _, ?_⟩
    rw [hx, EReal.coe_le_coe_iff]
    unfold gmax
    rw [hj]
    unfold colMax
    rw [hi]

/-! ### The one-hot mask and the two masked exponentials -/

/-- Two label words below 8192 are equal exactly when the labels are. -/
theorem cmpi_eq_word (a b : Fin 8192) :
    IntOp.cmpi .eq (BitVec.ofNat 32 a.val) (BitVec.ofNat 32 b.val) = if a = b then 1#1 else 0#1 := by
  by_cases h : a = b
  · subst h
    rw [if_pos rfl]
    simp [IntOp.cmpi]
  · rw [if_neg h]
    have hne : BitVec.ofNat 32 a.val ≠ BitVec.ofNat 32 b.val := by
      intro heq
      have h1 := congrArg BitVec.toNat heq
      rw [BitVec.toNat_ofNat, BitVec.toNat_ofNat] at h1
      have ha := a.isLt
      have hb := b.isLt
      exact h (Fin.ext (by omega))
    have hb : (BitVec.ofNat 32 a.val == BitVec.ofNat 32 b.val) = false := beq_eq_false_iff_ne.mpr hne
    show BitVec.ofBool (BitVec.ofNat 32 a.val == BitVec.ofNat 32 b.val) = 0#1
    rw [hb]
    rfl

/-- The mask entry: one where the row's label is the column, else zero. -/
theorem v20_at (hl : ∀ i, x1 (ix1 i) = BitVec.ofNat 32 (lab i).val) (i : Fin 4096) (j : Fin 8192) :
    val_main_v20 (F := Ideal) x1 (ix2 i j) = (((if lab i = j then 1 else 0 : ℝ)) : EReal) := by
  have h2 : idx_main_call0_v0 (idx_main_call0_v2 (ix2 i j)) = ix1 i := funext fun a => Fin.ext (by
    match a with | ⟨0, _⟩ => rfl)
  rw [val_main_v20_apply, val_main_call0_v4_apply, val_main_call0_v2_apply, val_main_call0_v0_apply, h2, hl,
    val_main_call0_v3_apply, val_main_call0_v1_apply]
  show (((IntOp.cmpi .eq (BitVec.ofNat 32 (lab i).val) (BitVec.ofNat 32 j.val)).toNat : ℝ) : EReal) = _
  rw [cmpi_eq_word]
  by_cases h : lab i = j
  · rw [if_pos h, if_pos h]; norm_num
  · rw [if_neg h, if_neg h]; norm_num

/-- The mask entry compared with one. -/
theorem mask_eq_one (i : Fin 4096) (j : Fin 8192) :
    Ideal.cmp .oeq ((((if lab i = j then 1 else 0 : ℝ)) : EReal)) ((1 : ℝ) : EReal) = if lab i = j then 1#1 else 0#1 := by
  by_cases h : lab i = j
  · rw [if_pos h, if_pos h]; simp [Ideal.cmp]
  · rw [if_neg h, if_neg h]; simp [Ideal.cmp]

/-- The mask entry compared with zero. -/
theorem mask_eq_zero (i : Fin 4096) (j : Fin 8192) :
    Ideal.cmp .oeq ((((if lab i = j then 1 else 0 : ℝ)) : EReal)) ((0 : ℝ) : EReal) = if lab i = j then 0#1 else 1#1 := by
  by_cases h : lab i = j
  · rw [if_pos h, if_pos h]; simp [Ideal.cmp]
  · rw [if_neg h, if_neg h]; simp [Ideal.cmp]

/-- The positive exponential kept on the labelled rows. -/
theorem v44_at (he : ∀ i d, x0 (ix2 i d) = ((e i d : ℝ) : EReal)) (hl : ∀ i, x1 (ix1 i) = BitVec.ofNat 32 (lab i).val)
    (hmu : ∀ j d, x2 (ix2 j d) = ((mu j d : ℝ) : EReal))
    (hlv : ∀ j d, x3 (ix2 j d) = ((lv j d : ℝ) : EReal)) (i : Fin 4096) (j : Fin 8192) :
    val_main_v44 (F := Ideal) x0 x1 x2 x3 (ix2 i j)
      = (((if lab i = j then Real.exp (posE e mu lv i j - gmax e mu lv) else 0 : ℝ)) : EReal) := by
  rw [val_main_v44_apply, val_main_v43_apply, v20_at x1 lab hl, val_main_v42_apply, val_main_cst_9_apply,
    val_main_call1_v1_apply, val_main_call1_v0_apply, val_main_cst_10_apply, val_main_v32_apply, val_main_v31_apply,
    val_main_v30_apply, v29_at x0 x2 x3 e mu lv he hmu hlv, v24_at x0 x2 x3 e mu lv he hmu hlv]
  simp only [Ideal.ofBits_def, Ideal.hostUnary_exp_def, Ideal.subf_def, Ideal.cmpf_def]
  rw [lit_one, lit_zero, mask_eq_one, ← EReal.coe_sub, Ideal.exp_coe]
  by_cases h : lab i = j
  · rw [if_pos h, if_pos h, select_one]
  · rw [if_neg h, if_neg h, select_zero]

/-- The negative exponential kept on the unlabelled rows. -/
theorem v48_at (he : ∀ i d, x0 (ix2 i d) = ((e i d : ℝ) : EReal)) (hl : ∀ i, x1 (ix1 i) = BitVec.ofNat 32 (lab i).val)
    (hmu : ∀ j d, x2 (ix2 j d) = ((mu j d : ℝ) : EReal))
    (hlv : ∀ j d, x3 (ix2 j d) = ((lv j d : ℝ) : EReal)) (i : Fin 4096) (j : Fin 8192) :
    val_main_v48 (F := Ideal) x0 x1 x2 x3 (ix2 i j)
      = (((if lab i = j then 0 else Real.exp (negE e mu lv i j - gmax e mu lv) : ℝ)) : EReal) := by
  rw [val_main_v48_apply, val_main_v47_apply, v20_at x1 lab hl, val_main_v46_apply, val_main_cst_12_apply,
    val_main_call2_v1_apply, val_main_call2_v0_apply, val_main_cst_13_apply, val_main_v35_apply, val_main_v34_apply,
    val_main_v33_apply, v29_at x0 x2 x3 e mu lv he hmu hlv, v28_at x0 x2 x3 e mu lv he hmu hlv]
  simp only [Ideal.ofBits_def, Ideal.hostUnary_exp_def, Ideal.subf_def, Ideal.cmpf_def]
  rw [lit_zero, mask_eq_zero, ← EReal.coe_sub, Ideal.exp_coe]
  by_cases h : lab i = j
  · rw [if_pos h, if_pos h, select_zero]
  · rw [if_neg h, if_neg h, select_one]

/-! ### The column sums, their logarithms and the two totals -/

theorem possum_nonneg (j : Fin 8192) : 0 ≤ possum e lab mu lv j := by
  unfold possum
  exact Finset.sum_nonneg fun i _ => by
    split_ifs
    exacts [(Real.exp_pos _).le, le_rfl]

theorem negsum_nonneg (j : Fin 8192) : 0 ≤ negsum e lab mu lv j := by
  unfold negsum
  exact Finset.sum_nonneg fun i _ => by
    split_ifs
    exacts [le_rfl, (Real.exp_pos _).le]

/-- Column `j`'s sum of the kept positive exponentials. -/
theorem v45_at (he : ∀ i d, x0 (ix2 i d) = ((e i d : ℝ) : EReal)) (hl : ∀ i, x1 (ix1 i) = BitVec.ofNat 32 (lab i).val)
    (hmu : ∀ j d, x2 (ix2 j d) = ((mu j d : ℝ) : EReal))
    (hlv : ∀ j d, x3 (ix2 j d) = ((lv j d : ℝ) : EReal)) (j : Fin 8192) :
    val_main_v45 (F := Ideal) x0 x1 x2 x3 (ix1 j) = ((possum e lab mu lv j : ℝ) : EReal) := by
  rw [val_main_v45_apply, val_main_cst_11_apply]
  simp only [Ideal.ofBits_def]
  rw [Ideal.ofBits_zero_f32, zero_add]
  unfold possum
  rw [coe_sum]
  refine Finset.sum_congr rfl fun k _ => ?_
  have hi : idx_main_v45 (ix1 j) k = ix2 k j := funext fun a => Fin.ext (by
    match a with | ⟨0, _⟩ => rfl | ⟨1, _⟩ => rfl)
  rw [hi, v44_at x0 x1 x2 x3 e lab mu lv he hl hmu hlv]

/-- Column `j`'s sum of the kept negative exponentials. -/
theorem v49_at (he : ∀ i d, x0 (ix2 i d) = ((e i d : ℝ) : EReal)) (hl : ∀ i, x1 (ix1 i) = BitVec.ofNat 32 (lab i).val)
    (hmu : ∀ j d, x2 (ix2 j d) = ((mu j d : ℝ) : EReal))
    (hlv : ∀ j d, x3 (ix2 j d) = ((lv j d : ℝ) : EReal)) (j : Fin 8192) :
    val_main_v49 (F := Ideal) x0 x1 x2 x3 (ix1 j) = ((negsum e lab mu lv j : ℝ) : EReal) := by
  rw [val_main_v49_apply, val_main_cst_14_apply]
  simp only [Ideal.ofBits_def]
  rw [Ideal.ofBits_zero_f32, zero_add]
  unfold negsum
  rw [coe_sum]
  refine Finset.sum_congr rfl fun k _ => ?_
  have hi : idx_main_v49 (ix1 j) k = ix2 k j := funext fun a => Fin.ext (by
    match a with | ⟨0, _⟩ => rfl | ⟨1, _⟩ => rfl)
  rw [hi, v48_at x0 x1 x2 x3 e lab mu lv he hl hmu hlv]

/-- `log (1 + possum j) + gmax`: the argument of the logarithm is at least one. -/
theorem v52_at (he : ∀ i d, x0 (ix2 i d) = ((e i d : ℝ) : EReal)) (hl : ∀ i, x1 (ix1 i) = BitVec.ofNat 32 (lab i).val)
    (hmu : ∀ j d, x2 (ix2 j d) = ((mu j d : ℝ) : EReal))
    (hlv : ∀ j d, x3 (ix2 j d) = ((lv j d : ℝ) : EReal)) (j : Fin 8192) :
    val_main_v52 (F := Ideal) x0 x1 x2 x3 (ix1 j)
      = ((Real.log (1 + possum e lab mu lv j) + gmax e mu lv : ℝ) : EReal) := by
  rw [val_main_v52_apply, val_main_v50_apply, val_main_v51_apply, v45_at x0 x1 x2 x3 e lab mu lv he hl hmu hlv,
    v29_at x0 x2 x3 e mu lv he hmu hlv]
  simp only [Ideal.hostUnary_log1p_def, Ideal.addf_def, Ideal.log1p]
  have hpos : ¬ (1 + possum e lab mu lv j ≤ 0) := by
    have := possum_nonneg e lab mu lv j
    linarith
  rw [← EReal.coe_one, ← EReal.coe_add, Ideal.log_coe, if_neg hpos, ← EReal.coe_add]

/-- `log (1 + negsum j) + gmax`. -/
theorem v57_at (he : ∀ i d, x0 (ix2 i d) = ((e i d : ℝ) : EReal)) (hl : ∀ i, x1 (ix1 i) = BitVec.ofNat 32 (lab i).val)
    (hmu : ∀ j d, x2 (ix2 j d) = ((mu j d : ℝ) : EReal))
    (hlv : ∀ j d, x3 (ix2 j d) = ((lv j d : ℝ) : EReal)) (j : Fin 8192) :
    val_main_v57 (F := Ideal) x0 x1 x2 x3 (ix1 j)
      = ((Real.log (1 + negsum e lab mu lv j) + gmax e mu lv : ℝ) : EReal) := by
  rw [val_main_v57_apply, val_main_v55_apply, val_main_v56_apply, v49_at x0 x1 x2 x3 e lab mu lv he hl hmu hlv,
    v29_at x0 x2 x3 e mu lv he hmu hlv]
  simp only [Ideal.hostUnary_log1p_def, Ideal.addf_def, Ideal.log1p]
  have hpos : ¬ (1 + negsum e lab mu lv j ≤ 0) := by
    have := negsum_nonneg e lab mu lv j
    linarith
  rw [← EReal.coe_one, ← EReal.coe_add, Ideal.log_coe, if_neg hpos, ← EReal.coe_add]

/-- The positive total. -/
theorem v53_at (he : ∀ i d, x0 (ix2 i d) = ((e i d : ℝ) : EReal)) (hl : ∀ i, x1 (ix1 i) = BitVec.ofNat 32 (lab i).val)
    (hmu : ∀ j d, x2 (ix2 j d) = ((mu j d : ℝ) : EReal))
    (hlv : ∀ j d, x3 (ix2 j d) = ((lv j d : ℝ) : EReal)) (k : S_.Idx) :
    val_main_v53 (F := Ideal) x0 x1 x2 x3 k = ((sumP e lab mu lv : ℝ) : EReal) := by
  rw [val_main_v53_apply, val_main_cst_15_apply]
  simp only [Ideal.ofBits_def]
  rw [Ideal.ofBits_zero_f32, zero_add, sum_idx1]
  unfold sumP
  rw [coe_sum]
  exact Finset.sum_congr rfl fun j _ => v52_at x0 x1 x2 x3 e lab mu lv he hl hmu hlv j

/-- The negative total. -/
theorem v58_at (he : ∀ i d, x0 (ix2 i d) = ((e i d : ℝ) : EReal)) (hl : ∀ i, x1 (ix1 i) = BitVec.ofNat 32 (lab i).val)
    (hmu : ∀ j d, x2 (ix2 j d) = ((mu j d : ℝ) : EReal))
    (hlv : ∀ j d, x3 (ix2 j d) = ((lv j d : ℝ) : EReal)) (k : S_.Idx) :
    val_main_v58 (F := Ideal) x0 x1 x2 x3 k = ((sumN e lab mu lv : ℝ) : EReal) := by
  rw [val_main_v58_apply, val_main_cst_16_apply]
  simp only [Ideal.ofBits_def]
  rw [Ideal.ofBits_zero_f32, zero_add, sum_idx1]
  unfold sumN
  rw [coe_sum]
  exact Finset.sum_congr rfl fun j _ => v57_at x0 x1 x2 x3 e lab mu lv he hl hmu hlv j

/-! ### The number of labels that occur -/

/-- The float sum of the mask's column `j`: the number of rows labelled `j`, as a real. -/
theorem v36_at (hl : ∀ i, x1 (ix1 i) = BitVec.ofNat 32 (lab i).val) (j : Fin 8192) :
    val_main_v36 (F := Ideal) x1 (ix1 j) = (((∑ i : Fin 4096, if lab i = j then (1 : ℝ) else 0) : ℝ) : EReal) := by
  rw [val_main_v36_apply, val_main_cst_7_apply]
  simp only [Ideal.ofBits_def]
  rw [Ideal.ofBits_zero_f32, zero_add, coe_sum]
  refine Finset.sum_congr rfl fun k _ => ?_
  have hi : idx_main_v36 (ix1 j) k = ix2 k j := funext fun a => Fin.ext (by
    match a with | ⟨0, _⟩ => rfl | ⟨1, _⟩ => rfl)
  rw [hi, v20_at x1 lab hl]

/-- A sum of zeros and ones is nonzero exactly when some term is one. -/
theorem count_ne_zero_iff (j : Fin 8192) :
    (((∑ i : Fin 4096, if lab i = j then (1 : ℝ) else 0 : ℝ) : EReal) ≠ ((0 : ℝ) : EReal)) ↔ ∃ i, lab i = j := by
  rw [Ne, EReal.coe_eq_coe_iff]
  constructor
  · intro hne
    by_contra hex
    exact hne (Finset.sum_eq_zero fun i _ => if_neg fun hi => hex ⟨i, hi⟩)
  · rintro ⟨i, hi⟩ h0
    have h1 := (Finset.sum_eq_zero_iff_of_nonneg (fun i _ => by split_ifs <;> norm_num)).mp h0 i (Finset.mem_univ i)
    rw [if_pos hi] at h1
    exact one_ne_zero h1

/-- The count compared with zero: the bit "label `j` occurs". -/
theorem v38_at (hl : ∀ i, x1 (ix1 i) = BitVec.ofNat 32 (lab i).val) (j : Fin 8192) :
    val_main_v38 (F := Ideal) x1 (ix1 j) = if ∃ i, lab i = j then 1#1 else 0#1 := by
  rw [val_main_v38_apply, v36_at x1 lab hl, val_main_v37_apply, val_main_cst_8_apply]
  simp only [Ideal.ofBits_def, Ideal.cmpf_def]
  rw [lit_zero]
  show BitVec.ofBool (decide (_ ≠ _)) = _
  by_cases hex : ∃ i, lab i = j
  · rw [if_pos hex, decide_eq_true ((count_ne_zero_iff lab j).mpr hex)]
    rfl
  · rw [if_neg hex, decide_eq_false (mt (count_ne_zero_iff lab j).mp hex)]
    rfl

/-- The integer sum of the widened bits does not wrap (at most 8192 ones), so its value is the number of labels
    that occur. -/
theorem v40_toNat (hl : ∀ i, x1 (ix1 i) = BitVec.ofNat 32 (lab i).val) (k : S_.Idx) :
    (val_main_v40 (F := Ideal) x1 k).toNat = nvalid lab := by
  classical
  have hx : ∀ j : Fin 8192, val_main_v39 (F := Ideal) x1 (ix1 j)
      = (if ∃ i, lab i = j then 1#1 else 0#1 : BitVec 1).setWidth 32 := fun j => by
    rw [val_main_v39_apply, v38_at x1 lab hl]
  unfold val_main_v40
  generalize val_main_v39 (F := Ideal) x1 = y at hx ⊢
  rw [Host.reduce_eq_fold, Finset.filter_true_of_mem (fun i _ => funext fun b => b.elim0), val_main_c_apply]
  have hsum : ∑ i : S8192.Idx, (y i).toNat = nvalid lab := by
    rw [sum_idx1]
    unfold nvalid
    rw [Finset.card_filter]
    refine Finset.sum_congr rfl fun j _ => ?_
    rw [hx, StableHlo.Predicate.toNat_setWidth_bit]
    by_cases hex : ∃ i, lab i = j
    · rw [if_pos hex, if_pos hex, if_pos rfl]
    · rw [if_neg hex, if_neg hex, if_neg (by decide)]
  have hlt : ∑ i : S8192.Idx, (y i).toNat < 2 ^ 32 := by
    rw [hsum]
    unfold nvalid
    exact lt_of_le_of_lt (Finset.card_le_univ _) (by simp)
  rw [StableHlo.Predicate.toNat_fold_addi _ _ hlt, hsum]

/-- The count converted to a float: the natural number itself. -/
theorem v41_at (hl : ∀ i, x1 (ix1 i) = BitVec.ofNat 32 (lab i).val) (k : S_.Idx) :
    val_main_v41 (F := Ideal) x1 k = (((nvalid lab : ℕ) : ℝ) : EReal) := by
  rw [val_main_v41_apply]
  show (((val_main_v40 (F := Ideal) x1 k).toInt : ℝ) : EReal) = _
  have hn := v40_toNat x1 lab hl k
  have hle : nvalid lab ≤ 8192 := by
    unfold nvalid
    exact (Finset.card_le_univ _).trans (by simp)
  have hi : (val_main_v40 (F := Ideal) x1 k).toInt = ((nvalid lab : ℕ) : ℤ) := by
    rw [BitVec.toInt_eq_toNat_of_lt (by rw [hn]; omega), hn]
  rw [hi, Int.cast_natCast]

end Stages

/-! ### The reference's result -/

/-- The reference program's result is the loss of the specification. -/
theorem ref_value (x0 : FVec Ideal S4096x64 .f32) (x1 : IVec S4096 32) (x2 x3 : FVec Ideal S8192x64 .f32)
    (e : Fin 4096 → Fin 64 → ℝ) (lab : Fin 4096 → Fin 8192) (mu lv : Fin 8192 → Fin 64 → ℝ)
    (he : ∀ i d, x0 (ix2 i d) = ((e i d : ℝ) : EReal)) (hl : ∀ i, x1 (ix1 i) = BitVec.ofNat 32 (lab i).val)
    (hmu : ∀ j d, x2 (ix2 j d) = ((mu j d : ℝ) : EReal)) (hlv : ∀ j d, x3 (ix2 j d) = ((lv j d : ℝ) : EReal)) :
    Cert.ReferenceIdeal.ReadP.val_main_v60 (F := Ideal) x0 x1 x2 x3 = fun _ => Cert.Spec.loss e lab mu lv := by
  funext k
  rw [val_main_v60_apply, val_main_v54_apply, val_main_v59_apply, val_main_cst_17_apply,
    v53_at x0 x1 x2 x3 e lab mu lv he hl hmu hlv, v58_at x0 x1 x2 x3 e lab mu lv he hl hmu hlv, v41_at x1 lab hl]
  simp only [Ideal.ofBits_def, Ideal.hostDivf_def, Ideal.addf_def]
  rw [lit_8192]
  rfl

end Cert.RefSide

end
-- ==== Proof.PreFacts.lean ====
/-
  The precondition read back. The printed predicate `Cert.Pre_finite_inputs.fn` is the conjunction of four
  statements, each a conjunction over all entries of one array: |x| < +∞ for every entry x of the three float
  arrays, and 0 ≤ ℓ and ℓ < 8192 (both signed) for every label word ℓ. An extended real whose absolute value
  max x (−x) lies below +∞ is neither +∞ nor −∞, hence the coercion of a real; a 32-bit word that is signed
  non-negative and signed below 8192 has unsigned value below 8192 and is the word of that value. So the float
  arrays are coercions of real arrays and the label array is an array of numbers below 8192.
-/
import proofs.«429900_j26379689132773_3_alg».proof.Pre_finite_inputs
import proofs.«429900_j26379689132773_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx

/-- The rank-0 shape has one index. -/
instance subsingleton_scalar_idx : Subsingleton Cert.Pre_finite_inputs.S_.Idx :=
  ⟨fun a b => funext fun d => d.elim0⟩

/-- The f32 pattern 0x7F800000 denotes +∞. -/
theorem ofBits_inf : Ideal.ofBits .f32 0x7F800000#32 = (⊤ : EReal) := by
  simp [Ideal.ofBits, Ideal.ieee]

/-- An extended real x with max x (−x) < +∞ is the coercion of the real x.toReal. -/
theorem real_of_abs_lt_inf (x : EReal)
    (h : Ideal.cmp .olt (max x (-x)) (Ideal.ofBits .f32 0x7F800000#32) = 1#1) :
    x = ((x.toReal : ℝ) : EReal) := by
  rw [ofBits_inf] at h
  unfold Ideal.cmp at h
  simp only [StableHlo.Predicate.ofBool_eq_one_iff, decide_eq_true_eq] at h
  rw [max_lt_iff] at h
  have h1 : x ≠ ⊤ := ne_of_lt h.1
  have h2 : x ≠ ⊥ := by
    intro hb
    rw [hb] at h
    exact absurd h.2 (by simp)
  exact (EReal.coe_toReal h1 h2).symm

/-- A 32-bit word that is signed ≥ 0 and signed < 8192 has unsigned value below 8192. -/
theorem toNat_lt_of_range (w : BitVec 32) (h0 : IntOp.cmpi .sge w 0#32 = 1#1)
    (h1 : IntOp.cmpi .slt w 8192#32 = 1#1) : w.toNat < 8192 := by
  simp only [IntOp.cmpi, StableHlo.Predicate.ofBool_eq_one_iff, BitVec.sle, BitVec.slt, decide_eq_true_eq] at h0 h1
  have hz : (0#32 : BitVec 32).toInt = 0 := by decide
  have h8 : (8192#32 : BitVec 32).toInt = 8192 := by decide
  rw [hz] at h0
  rw [h8] at h1
  have hw := w.isLt
  rw [BitVec.toInt_eq_toNat_cond] at h0 h1
  split at h0 <;> omega

/-- A 32-bit word is the word of its unsigned value. -/
theorem word_eq_ofNat_toNat (w : BitVec 32) : w = BitVec.ofNat 32 w.toNat := by
  apply BitVec.eq_of_toNat_eq
  rw [BitVec.toNat_ofNat]
  exact (Nat.mod_eq_of_lt w.isLt).symm

/-- THE PRECONDITION DECODED: the three float arrays are coercions of real arrays, and the label words are the
    words of numbers below 8192. -/
theorem reals_of_pre [Cert.Pre_finite_inputs.Facts]
    (x0 : FVec Ideal Cert.Pre_finite_inputs.S4096x64 .f32) (x1 : IVec Cert.Pre_finite_inputs.S4096 32)
    (x2 x3 : FVec Ideal Cert.Pre_finite_inputs.S8192x64 .f32)
    (h : Cert.Pre_finite_inputs.fn (F := Ideal) x0 x1 x2 x3 = fun _ => 1#1) :
    ∃ (e : Fin 4096 → Fin 64 → ℝ) (lab : Fin 4096 → Fin 8192) (mu lv : Fin 8192 → Fin 64 → ℝ),
      (∀ i d, x0 (ix2 i d) = ((e i d : ℝ) : EReal)) ∧ (∀ i, x1 (ix1 i) = BitVec.ofNat 32 (lab i).val)
      ∧ (∀ j d, x2 (ix2 j d) = ((mu j d : ℝ) : EReal)) ∧ (∀ j d, x3 (ix2 j d) = ((lv j d : ℝ) : EReal)) := by
  have e := congrFun h ix0
  dsimp only [Cert.Pre_finite_inputs.fn, Cert.Pre_finite_inputs.fn_part1] at e
  -- the outer conjunctions, at the one index of the scalar result
  have e' : IntOp.andi (IntOp.andi (IntOp.andi
      (Host.reduce IntOp.andi
        (cmpf CmpFPredicate.olt (Host.absf x0)
          (broadcastInDim Cert.Pre_finite_inputs.S4096x64 ![] Cert.Pre_finite_inputs.Facts.bcast_S_S4096x64
            (constant Cert.Pre_finite_inputs.S_ FTy.f32 0x7F800000#32)))
        (constantI Cert.Pre_finite_inputs.S_ 1 1#1) Cert.Pre_finite_inputs.Facts.reducesTo_S4096x64_S_d0_1
        Cert.Pre_finite_inputs.Facts.h_S_ ix0)
      (Host.reduce IntOp.andi
        (cmpf CmpFPredicate.olt (Host.absf x2)
          (broadcastInDim Cert.Pre_finite_inputs.S8192x64 ![] Cert.Pre_finite_inputs.Facts.bcast_S_S8192x64
            (constant Cert.Pre_finite_inputs.S_ FTy.f32 0x7F800000#32)))
        (constantI Cert.Pre_finite_inputs.S_ 1 1#1) Cert.Pre_finite_inputs.Facts.reducesTo_S8192x64_S_d0_1
        Cert.Pre_finite_inputs.Facts.h_S_ ix0))
      (Host.reduce IntOp.andi
        (cmpf CmpFPredicate.olt (Host.absf x3)
          (broadcastInDim Cert.Pre_finite_inputs.S8192x64 ![] Cert.Pre_finite_inputs.Facts.bcast_S_S8192x64
            (constant Cert.Pre_finite_inputs.S_ FTy.f32 0x7F800000#32)))
        (constantI Cert.Pre_finite_inputs.S_ 1 1#1) Cert.Pre_finite_inputs.Facts.reducesTo_S8192x64_S_d0_1
        Cert.Pre_finite_inputs.Facts.h_S_ ix0))
      (Host.reduce IntOp.andi
        (andi
          (cmpi CmpIPredicate.sge x1
            (broadcastInDim Cert.Pre_finite_inputs.S4096 ![] Cert.Pre_finite_inputs.Facts.bcast_S_S4096
              (constantI Cert.Pre_finite_inputs.S_ 32 0#32)))
          (cmpi CmpIPredicate.slt x1
            (broadcastInDim Cert.Pre_finite_inputs.S4096 ![] Cert.Pre_finite_inputs.Facts.bcast_S_S4096
              (constantI Cert.Pre_finite_inputs.S_ 32 8192#32))))
        (constantI Cert.Pre_finite_inputs.S_ 1 1#1) Cert.Pre_finite_inputs.Facts.reducesTo_S4096_S_d0
        Cert.Pre_finite_inputs.Facts.h_S_ ix0) = 1#1 := e
  obtain ⟨e3, e19⟩ := IntOp.andi_eq_one.1 e'
  obtain ⟨e2, e12⟩ := IntOp.andi_eq_one.1 e3
  obtain ⟨e0, e7⟩ := IntOp.andi_eq_one.1 e2
  -- each conjunction over an array, at an entry
  have f0 : ∀ i d, x0 (ix2 i d) = (((x0 (ix2 i d)).toReal : ℝ) : EReal) := fun i d =>
    real_of_abs_lt_inf _ (Host.reduce_andi_all _ _ _ _ _ e0 (ix2 i d))
  have f2 : ∀ j d, x2 (ix2 j d) = (((x2 (ix2 j d)).toReal : ℝ) : EReal) := fun j d =>
    real_of_abs_lt_inf _ (Host.reduce_andi_all _ _ _ _ _ e7 (ix2 j d))
  have f3 : ∀ j d, x3 (ix2 j d) = (((x3 (ix2 j d)).toReal : ℝ) : EReal) := fun j d =>
    real_of_abs_lt_inf _ (Host.reduce_andi_all _ _ _ _ _ e12 (ix2 j d))
  have f1 : ∀ i, (x1 (ix1 i)).toNat < 8192 := fun i => by
    have hi : IntOp.andi (IntOp.cmpi .sge (x1 (ix1 i)) 0#32) (IntOp.cmpi .slt (x1 (ix1 i)) 8192#32) = 1#1 :=
      Host.reduce_andi_all _ _ _ _ _ e19 (ix1 i)
    obtain ⟨ha, hb⟩ := IntOp.andi_eq_one.1 hi
    exact toNat_lt_of_range _ ha hb
  exact ⟨fun i d => (x0 (ix2 i d)).toReal, fun i => ⟨(x1 (ix1 i)).toNat, f1 i⟩,
    fun j d => (x2 (ix2 j d)).toReal, fun j d => (x3 (ix2 j d)).toReal,
    f0, fun i => word_eq_ofNat_toNat _, f2, f3⟩

end Cert.PreFacts

end
-- ==== Proof.lean ====
/-
  The certificate of the proxy mutual-likelihood-score loss kernel against its jnp reference, over the extended reals.

  Under the precondition (every float input finite, every label in {0,…,8191}) the inputs are real arrays
  `e, mu, lv` and a label map `lab`; both programs end with the one extended real `Cert.Spec.loss e lab mu lv`
  (Proof/Spec.lean).  The reference computes it literally (Proof/RefValue.lean over its run read back stage by stage).
  The kernel program computes, per column, a running maximum of the positive-pair exponent, its own running
  maximum of the masked negative-pair exponent and a rescaled partial sum of exponentials over four row tiles
  (Proof/Recurrence.lean, Proof/TileMath.lean, Proof/KIValue.lean), and then, on the host, rescales to the global
  maximum (exp (M_j − m) · Σ exp (x − M_j) = Σ exp (x − m)), adds the positive side from a gather and a scatter-add by
  label ((e − mu)²·w = e²·w − 2·e·mu·w + mu²·w), counts the labels that occur, and forms the two quotients
  (Proof/TailPos.lean, Proof/Tail.lean).  The three frames: each program runs to the end without a fault and
  leaves its arguments unchanged (Proof/KIFrame.lean and its word-level twin for the two kernel programs; the
  reference's run with the result dropped).  The idealization rewrote nothing, so `preserves` is `True`.
-/
import proofs.«429900_j26379689132773_3_alg».proof.Defs
import proofs.«429900_j26379689132773_3_alg».proof.Proof.Gen.Kernel
import proofs.«429900_j26379689132773_3_alg».proof.Proof.Gen.KernelIdeal
import proofs.«429900_j26379689132773_3_alg».proof.Proof.Gen.ReferenceIdeal
import proofs.«429900_j26379689132773_3_alg».proof.Proof.Gen.Pre_finite_inputs
import proofs.«429900_j26379689132773_3_alg».proof.Proof.KFrame
import proofs.«429900_j26379689132773_3_alg».proof.Proof.KIValue
import proofs.«429900_j26379689132773_3_alg».proof.Proof.RefValue
import proofs.«429900_j26379689132773_3_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both idealized programs end with the loss of the real data behind the (finite, in-range) inputs. -/
theorem algebraic : Cert.algebraic_KernelIdeal_ReferenceIdeal := by
  intro m ρ m' ρ' hpre hagree
  choose e lab mu lv he hl hmu hlv using fun c => Cert.PreFacts.reals_of_pre _ _ _ _ (hpre c)
  refine ⟨fun c => fun _ => Cert.Spec.loss (e c) (lab c) (mu c) (lv c), ?_, ?_⟩
  · refine (θ_run Cert.KernelIdeal.defs _ _).mono (fun r h c => ⟨?_, ?_, ?_, ?_, ?_⟩) (Cert.KernelIdeal.Gen.run_main (F := Ideal) m ρ)
    · exact ((h c).2 Cert.KernelIdeal.main_v98 (Pipeline.mem_restRefs_of Cert.KernelIdeal.main_v98 (by decide) (by decide))).trans
        (Cert.KernelIdeal.Hand.kernel_value m ρ c (e c) (lab c) (mu c) (lv c) (he c) (hl c) (hmu c) (hlv c))
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
    · exact ((h c).2 Cert.KernelIdeal.main_arg2 (Pipeline.mem_restRefs_of Cert.KernelIdeal.main_arg2 (by decide) (by decide))).trans
        (Cert.KernelIdeal.Gen.W_main_arg2 m (Cert.KernelIdeal.Gen.dats m) c)
    · exact ((h c).2 Cert.KernelIdeal.main_arg3 (Pipeline.mem_restRefs_of Cert.KernelIdeal.main_arg3 (by decide) (by decide))).trans
        (Cert.KernelIdeal.Gen.W_main_arg3 m (Cert.KernelIdeal.Gen.dats m) c)
  · refine (θ_run Cert.ReferenceIdeal.defs _ _).mono (fun r h c => ⟨?_, (h c).2⟩)
      (Cert.ReferenceIdeal.ValueP.run (F := Ideal) m' ρ')
    refine (h c).1.trans ((Cert.ReferenceIdeal.ReadP.val_main_v60_eq m' c).trans ?_)
    rw [(hagree c).1, (hagree c).2.1, (hagree c).2.2.1, (hagree c).2.2.2]
    exact Cert.RefSide.ref_value _ _ _ _ (e c) (lab c) (mu c) (lv c) (he c) (hl c) (hmu c) (hlv c)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
